-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8192 : Shape := ⟨2, ![256, 8192]⟩
abbrev S8192x2048 : Shape := ⟨2, ![8192, 2048]⟩
abbrev S8192x6144 : Shape := ⟨2, ![8192, 6144]⟩
abbrev S16x8192 : Shape := ⟨2, ![16, 8192]⟩
abbrev S48x8192 : Shape := ⟨2, ![48, 8192]⟩
abbrev S8192 : Shape := ⟨1, ![8192]⟩
abbrev S_ : Shape := ⟨0, ![]⟩

class Facts : Prop where
  bcast_S_S256x8192 : S_.BroadcastsInDim S256x8192 (![] : Fin 0 → Fin S256x8192.rank)
  reducesTo_S256x8192_S_d0_1 : S256x8192.ReducesTo [0, 1] S_
  h_S_ : 0 < S_.numel
  bcast_S_S16x8192 : S_.BroadcastsInDim S16x8192 (![] : Fin 0 → Fin S16x8192.rank)
  reducesTo_S16x8192_S_d0_1 : S16x8192.ReducesTo [0, 1] S_
  bcast_S_S48x8192 : S_.BroadcastsInDim S48x8192 (![] : Fin 0 → Fin S48x8192.rank)
  reducesTo_S48x8192_S_d0_1 : S48x8192.ReducesTo [0, 1] S_
  bcast_S_S8192 : S_.BroadcastsInDim S8192 (![] : Fin 0 → Fin S8192.rank)
  reducesTo_S8192_S_d0 : S8192.ReducesTo [0] S_

variable [Facts]

def fn_part2 {F : FTy → Type} [FloatOps F] (main_v28 : IVec S_ 1) (main_v33 : IVec S8192 1) : IVec S_ 1 :=
  let main_c_12 : IVec S_ 1 := constantI S_ 1 1#1
  let main_v34 : IVec S_ 1 := (fun x v => Host.reduce IntOp.andi x v reducesTo_S8192_S_d0 h_S_) main_v33 main_c_12
  let main_v35 : IVec S_ 1 := andi main_v28 main_v34
  main_v35

def fn_part1 {F : FTy → Type} [FloatOps F] (main_arg6 : FVec F S48x8192 .f32) (main_arg7 : FVec F S8192 .f32) (main_arg8 : IVec S8192 32) (main_v13 : IVec S_ 1) (main_v16 : IVec S48x8192 1) : IVec S_ 1 :=
  let main_c_5 : IVec S_ 1 := constantI S_ 1 1#1
  let main_v17 : IVec S_ 1 := (fun x v => Host.reduce IntOp.andi x v reducesTo_S48x8192_S_d0_1 h_S_) main_v16 main_c_5
  let main_v18 : IVec S_ 1 := andi main_v13 main_v17
  let main_v19 : FVec F S48x8192 .f32 := Host.absf main_arg6
  let main_cst_6 : FVec F S_ .f32 := constant S_ .f32 0x7F800000#32
  let main_v20 : FVec F S48x8192 .f32 := broadcastInDim S48x8192 ![] bcast_S_S48x8192 main_cst_6
  let main_v21 : IVec S48x8192 1 := cmpf .olt main_v19 main_v20
  let main_c_7 : IVec S_ 1 := constantI S_ 1 1#1
  let main_v22 : IVec S_ 1 := (fun x v => Host.reduce IntOp.andi x v reducesTo_S48x8192_S_d0_1 h_S_) main_v21 main_c_7
  let main_v23 : IVec S_ 1 := andi main_v18 main_v22
  let main_v24 : FVec F S8192 .f32 := Host.absf main_arg7
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  let main_c_10 : IVec S_ 32 := constantI S_ 32 4294959104#32
  let main_v29 : IVec S8192 32 := broadcastInDim S8192 ![] bcast_S_S8192 main_c_10
  let main_v30 : IVec S8192 1 := cmpi .sge main_arg8 main_v29
  let main_c_11 : IVec S_ 32 := constantI S_ 32 8192#32
  let main_v31 : IVec S8192 32 := broadcastInDim S8192 ![] bcast_S_S8192 main_c_11
  let main_v32 : IVec S8192 1 := cmpi .slt main_arg8 main_v31
  let main_v33 : IVec S8192 1 := andi main_v30 main_v32
  fn_part2 (F := F) main_v28 main_v33

def fn {F : FTy → Type} [FloatOps F] (main_arg0 : FVec F S256x8192 .f32) (main_arg1 : IVec S8192x2048 32) (main_arg2 : IVec S8192x6144 32) (main_arg3 : FVec F S16x8192 .f32) (main_arg4 : FVec F S16x8192 .f32) (main_arg5 : FVec F S48x8192 .f32) (main_arg6 : FVec F S48x8192 .f32) (main_arg7 : FVec F S8192 .f32) (main_arg8 : IVec S8192 32) : IVec S_ 1 :=
  let main_v0 : FVec F S256x8192 .f32 := Host.absf main_arg0
  let main_cst : FVec F S_ .f32 := constant S_ .f32 0x7F800000#32
  let main_v1 : FVec F S256x8192 .f32 := broadcastInDim S256x8192 ![] bcast_S_S256x8192 main_cst
  let main_v2 : IVec S256x8192 1 := cmpf .olt main_v0 main_v1
  let main_c : IVec S_ 1 := constantI S_ 1 1#1
  let main_v3 : IVec S_ 1 := (fun x v => Host.reduce IntOp.andi x v reducesTo_S256x8192_S_d0_1 h_S_) main_v2 main_c
  let main_v4 : FVec F S16x8192 .f32 := Host.absf main_arg3
  let main_cst_0 : FVec F S_ .f32 := constant S_ .f32 0x7F800000#32
  let main_v5 : FVec F S16x8192 .f32 := broadcastInDim S16x8192 ![] bcast_S_S16x8192 main_cst_0
  let main_v6 : IVec S16x8192 1 := cmpf .olt main_v4 main_v5
  let main_c_1 : IVec S_ 1 := constantI S_ 1 1#1
  let main_v7 : IVec S_ 1 := (fun x v => Host.reduce IntOp.andi x v reducesTo_S16x8192_S_d0_1 h_S_) main_v6 main_c_1
  let main_v8 : IVec S_ 1 := andi main_v3 main_v7
  let main_v9 : FVec F S16x8192 .f32 := Host.absf main_arg4
  let main_cst_2 : FVec F S_ .f32 := constant S_ .f32 0x7F800000#32
  let main_v10 : FVec F S16x8192 .f32 := broadcastInDim S16x8192 ![] bcast_S_S16x8192 main_cst_2
  let main_v11 : IVec S16x8192 1 := cmpf .olt main_v9 main_v10
  let main_c_3 : IVec S_ 1 := constantI S_ 1 1#1
  let main_v12 : IVec S_ 1 := (fun x v => Host.reduce IntOp.andi x v reducesTo_S16x8192_S_d0_1 h_S_) main_v11 main_c_3
  let main_v13 : IVec S_ 1 := andi main_v8 main_v12
  let main_v14 : FVec F S48x8192 .f32 := Host.absf main_arg5
  let main_cst_4 : FVec F S_ .f32 := constant S_ .f32 0x7F800000#32
  let main_v15 : FVec F S48x8192 .f32 := broadcastInDim S48x8192 ![] bcast_S_S48x8192 main_cst_4
  let main_v16 : IVec S48x8192 1 := cmpf .olt main_v14 main_v15
  fn_part1 (F := F) main_arg6 main_arg7 main_arg8 main_v13 main_v16
-- ==== Kernel.lean ====
abbrev S256x8192 : Shape := ⟨2, ![256, 8192]⟩
abbrev S8192x2048 : Shape := ⟨2, ![8192, 2048]⟩
abbrev S8192x6144 : Shape := ⟨2, ![8192, 6144]⟩
abbrev S16x8192 : Shape := ⟨2, ![16, 8192]⟩
abbrev S48x8192 : Shape := ⟨2, ![48, 8192]⟩
abbrev S8192 : Shape := ⟨1, ![8192]⟩
abbrev S8192x256 : Shape := ⟨2, ![8192, 256]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192 : Shape := ⟨2, ![1, 8192]⟩
abbrev S256x2048 : Shape := ⟨2, ![256, 2048]⟩
abbrev S256x6144 : Shape := ⟨2, ![256, 6144]⟩
abbrev S16x256 : Shape := ⟨2, ![16, 256]⟩
abbrev S48x256 : Shape := ⟨2, ![48, 256]⟩
abbrev S1x256 : Shape := ⟨2, ![1, 256]⟩
abbrev S256x256 : Shape := ⟨2, ![256, 256]⟩
abbrev S256x16 : Shape := ⟨2, ![256, 16]⟩
abbrev S256x48 : Shape := ⟨2, ![256, 48]⟩
abbrev S256x128 : Shape := ⟨2, ![256, 128]⟩
abbrev S256x1 : Shape := ⟨2, ![256, 1]⟩
abbrev S2048x256 : Shape := ⟨2, ![2048, 256]⟩
abbrev S6144x256 : Shape := ⟨2, ![6144, 256]⟩

abbrev nBuf : Space → Nat
  | .hbm => 36
  | .vmem => 19
  | .smem => 0
  | _ => 0

abbrev bufTy : (tb : Table) → Fin (tcTables nBuf tb) → BufTy
  | .hbm, ⟨0, _⟩ => ⟨S256x8192, .f32⟩
  | .hbm, ⟨1, _⟩ => ⟨S8192x2048, .i32⟩
  | .hbm, ⟨2, _⟩ => ⟨S8192x6144, .i32⟩
  | .hbm, ⟨3, _⟩ => ⟨S16x8192, .f32⟩
  | .hbm, ⟨4, _⟩ => ⟨S16x8192, .f32⟩
  | .hbm, ⟨5, _⟩ => ⟨S48x8192, .f32⟩
  | .hbm, ⟨6, _⟩ => ⟨S48x8192, .f32⟩
  | .hbm, ⟨7, _⟩ => ⟨S8192, .f32⟩
  | .hbm, ⟨8, _⟩ => ⟨S8192, .i32⟩
  | .hbm, ⟨9, _⟩ => ⟨S8192x256, .f32⟩
  | .hbm, ⟨10, _⟩ => ⟨S_, .i32⟩
  | .hbm, ⟨11, _⟩ => ⟨S8192, .i32⟩
  | .hbm, ⟨12, _⟩ => ⟨S8192, .i1⟩
  | .hbm, ⟨13, _⟩ => ⟨S_, .i32⟩
  | .hbm, ⟨14, _⟩ => ⟨S8192, .i32⟩
  | .hbm, ⟨15, _⟩ => ⟨S8192, .i32⟩
  | .hbm, ⟨16, _⟩ => ⟨S8192, .i32⟩
  | .hbm, ⟨17, _⟩ => ⟨S8192x1, .i32⟩
  | .hbm, ⟨18, _⟩ => ⟨S1, .i32⟩
  | .hbm, ⟨19, _⟩ => ⟨S_, .i32⟩
  | .hbm, ⟨20, _⟩ => ⟨S8192x1, .i32⟩
  | .hbm, ⟨21, _⟩ => ⟨S8192x1, .i1⟩
  | .hbm, ⟨22, _⟩ => ⟨S1x1, .i32⟩
  | .hbm, ⟨23, _⟩ => ⟨S8192x1, .i32⟩
  | .hbm, ⟨24, _⟩ => ⟨S8192x1, .i1⟩
  | .hbm, ⟨25, _⟩ => ⟨S8192x1, .i1⟩
  | .hbm, ⟨26, _⟩ => ⟨S_, .i1⟩
  | .hbm, ⟨27, _⟩ => ⟨S8192, .i1⟩
  | .hbm, ⟨28, _⟩ => ⟨S8192x256, .f32⟩
  | .hbm, ⟨29, _⟩ => ⟨S8192x256, .i1⟩
  | .hbm, ⟨30, _⟩ => ⟨S_, .f32⟩
  | .hbm, ⟨31, _⟩ => ⟨S8192x256, .f32⟩
  | .hbm, ⟨32, _⟩ => ⟨S8192x256, .f32⟩
  | .hbm, ⟨33, _⟩ => ⟨S8192x256, .bf16⟩
  | .hbm, ⟨34, _⟩ => ⟨S1x8192, .f32⟩
  | .hbm, ⟨35, _⟩ => ⟨S256x8192, .f32⟩
  | .local _ .vmem, ⟨0, _⟩ => ⟨S256x2048, .i32⟩
  | .local _ .vmem, ⟨1, _⟩ => ⟨S256x2048, .i32⟩
  | .local _ .vmem, ⟨2, _⟩ => ⟨S256x6144, .i32⟩
  | .local _ .vmem, ⟨3, _⟩ => ⟨S256x6144, .i32⟩
  | .local _ .vmem, ⟨4, _⟩ => ⟨S16x256, .f32⟩
  | .local _ .vmem, ⟨5, _⟩ => ⟨S16x256, .f32⟩
  | .local _ .vmem, ⟨6, _⟩ => ⟨S16x256, .f32⟩
  | .local _ .vmem, ⟨7, _⟩ => ⟨S16x256, .f32⟩
  | .local _ .vmem, ⟨8, _⟩ => ⟨S48x256, .f32⟩
  | .local _ .vmem, ⟨9, _⟩ => ⟨S48x256, .f32⟩
  | .local _ .vmem, ⟨10, _⟩ => ⟨S48x256, .f32⟩
  | .local _ .vmem, ⟨11, _⟩ => ⟨S48x256, .f32⟩
  | .local _ .vmem, ⟨12, _⟩ => ⟨S1x256, .f32⟩
  | .local _ .vmem, ⟨13, _⟩ => ⟨S1x256, .f32⟩
  | .local _ .vmem, ⟨14, _⟩ => ⟨S8192x256, .bf16⟩
  | .local _ .vmem, ⟨15, _⟩ => ⟨S256x256, .f32⟩
  | .local _ .vmem, ⟨16, _⟩ => ⟨S256x256, .f32⟩
  | .local _ .vmem, ⟨17, _⟩ => ⟨S256x2048, .bf16⟩
  | .local _ .vmem, ⟨18, _⟩ => ⟨S256x6144, .bf16⟩
  | _, _ => ⟨S256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6144 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S48x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S48x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8192x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S256x8192_S8192x256_1_0 : S256x8192.Transposes [1, 0] S8192x256
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x256_0 : S8192.BroadcastsInDim S8192x256 (![0] : Fin 1 → Fin S8192x256.rank)
  bcast_S_S8192x256 : S_.BroadcastsInDim S8192x256 (![] : Fin 0 → Fin S8192x256.rank)
  bitsLt_bf16_f32 : FTy.bits .bf16 < FTy.bits .f32
  shapeCasts_S8192_S1x8192 : S8192.ShapeCasts S1x8192
  inb_S16x256_S16x256_0_0 : ∀ a, (![0, 0] : Fin 2 → Nat) a + S16x256.size a ≤ S16x256.size a
  h_S16x256 : 0 < S16x256.numel
  transposes_S16x256_p1_0_S256x16 : S16x256.Transposes [1, 0] S256x16
  inb_S48x256_S48x256_0_0 : ∀ a, (![0, 0] : Fin 2 → Nat) a + S48x256.size a ≤ S48x256.size a
  h_S48x256 : 0 < S48x256.numel
  transposes_S48x256_p1_0_S256x48 : S48x256.Transposes [1, 0] S256x48
  inb_S256x2048_S256x128_0_0 : ∀ a, (![0, 0] : Fin 2 → Nat) a + S256x128.size a ≤ S256x2048.size a
  h_S256x128 : 0 < S256x128.numel
  slices_S256x16_o0_0_S256x1 : S256x16.Slices ![0, 0] S256x1
  broadcasts_S256x1_S256x128 : S256x1.Broadcasts S256x128
  shapeCasts_S256x128_S256x128 : S256x128.ShapeCasts S256x128
  packedbf16_S256x2048_S256x128_0_0 : (Rect.unit (s := S256x2048) ![0, 0] S256x128.size inb_S256x2048_S256x128_0_0).PackedRows (EltTy.packing .bf16)
  inb_S256x2048_S256x128_0_128 : ∀ a, (![0, 128] : Fin 2 → Nat) a + S256x128.size a ≤ S256x2048.size a
  slices_S256x16_o0_1_S256x1 : S256x16.Slices ![0, 1] S256x1
  packedbf16_S256x2048_S256x128_0_128 : (Rect.unit (s := S256x2048) ![0, 128] S256x128.size inb_S256x2048_S256x128_0_128).PackedRows (EltTy.packing .bf16)
  inb_S256x2048_S256x128_0_256 : ∀ a, (![0, 256] : Fin 2 → Nat) a + S256x128.size a ≤ S256x2048.size a
  slices_S256x16_o0_2_S256x1 : S256x16.Slices ![0, 2] S256x1
  packedbf16_S256x2048_S256x128_0_256 : (Rect.unit (s := S256x2048) ![0, 256] S256x128.size inb_S256x2048_S256x128_0_256).PackedRows (EltTy.packing .bf16)
  inb_S256x2048_S256x128_0_384 : ∀ a, (![0, 384] : Fin 2 → Nat) a + S256x128.size a ≤ S256x2048.size a
  slices_S256x16_o0_3_S256x1 : S256x16.Slices ![0, 3] S256x1
  packedbf16_S256x2048_S256x128_0_384 : (Rect.unit (s := S256x2048) ![0, 384] S256x128.size inb_S256x2048_S256x128_0_384).PackedRows (EltTy.packing .bf16)
  inb_S256x2048_S256x128_0_512 : ∀ a, (![0, 512] : Fin 2 → Nat) a + S256x128.size a ≤ S256x2048.size a
  slices_S256x16_o0_4_S256x1 : S256x16.Slices ![0, 4] S256x1
  packedbf16_S256x2048_S256x128_0_512 : (Rect.unit (s := S256x2048) ![0, 512] S256x128.size inb_S256x2048_S256x128_0_512).PackedRows (EltTy.packing .bf16)
  inb_S256x2048_S256x128_0_640 : ∀ a, (![0, 640] : Fin 2 → Nat) a + S256x128.size a ≤ S256x2048.size a
  slices_S256x16_o0_5_S256x1 : S256x16.Slices ![0, 5] S256x1
  packedbf16_S256x2048_S256x128_0_640 : (Rect.unit (s := S256x2048) ![0, 640] S256x128.size inb_S256x2048_S256x128_0_640).PackedRows (EltTy.packing .bf16)
  inb_S256x2048_S256x128_0_768 : ∀ a, (![0, 768] : Fin 2 → Nat) a + S256x128.size a ≤ S256x2048.size a
  slices_S256x16_o0_6_S256x1 : S256x16.Slices ![0, 6] S256x1
  packedbf16_S256x2048_S256x128_0_768 : (Rect.unit (s := S256x2048) ![0, 768] S256x128.size inb_S256x2048_S256x128_0_768).PackedRows (EltTy.packing .bf16)
  inb_S256x2048_S256x128_0_896 : ∀ a, (![0, 896] : Fin 2 → Nat) a + S256x128.size a ≤ S256x2048.size a
  slices_S256x16_o0_7_S256x1 : S256x16.Slices ![0, 7] S256x1
  packedbf16_S256x2048_S256x128_0_896 : (Rect.unit (s := S256x2048) ![0, 896] S256x128.size inb_S256x2048_S256x128_0_896).PackedRows (EltTy.packing .bf16)
  inb_S256x2048_S256x128_0_1024 : ∀ a, (![0, 1024] : Fin 2 → Nat) a + S256x128.size a ≤ S256x2048.size a
  slices_S256x16_o0_8_S256x1 : S256x16.Slices ![0, 8] S256x1
  packedbf16_S256x2048_S256x128_0_1024 : (Rect.unit (s := S256x2048) ![0, 1024] S256x128.size inb_S256x2048_S256x128_0_1024).PackedRows (EltTy.packing .bf16)
  inb_S256x2048_S256x128_0_1152 : ∀ a, (![0, 1152] : Fin 2 → Nat) a + S256x128.size a ≤ S256x2048.size a
  slices_S256x16_o0_9_S256x1 : S256x16.Slices ![0, 9] S256x1
  packedbf16_S256x2048_S256x128_0_1152 : (Rect.unit (s := S256x2048) ![0, 1152] S256x128.size inb_S256x2048_S256x128_0_1152).PackedRows (EltTy.packing .bf16)
  inb_S256x2048_S256x128_0_1280 : ∀ a, (![0, 1280] : Fin 2 → Nat) a + S256x128.size a ≤ S256x2048.size a
  slices_S256x16_o0_10_S256x1 : S256x16.Slices ![0, 10] S256x1
  packedbf16_S256x2048_S256x128_0_1280 : (Rect.unit (s := S256x2048) ![0, 1280] S256x128.size inb_S256x2048_S256x128_0_1280).PackedRows (EltTy.packing .bf16)
  inb_S256x2048_S256x128_0_1408 : ∀ a, (![0, 1408] : Fin 2 → Nat) a + S256x128.size a ≤ S256x2048.size a
  slices_S256x16_o0_11_S256x1 : S256x16.Slices ![0, 11] S256x1
  packedbf16_S256x2048_S256x128_0_1408 : (Rect.unit (s := S256x2048) ![0, 1408] S256x128.size inb_S256x2048_S256x128_0_1408).PackedRows (EltTy.packing .bf16)
  inb_S256x2048_S256x128_0_1536 : ∀ a, (![0, 1536] : Fin 2 → Nat) a + S256x128.size a ≤ S256x2048.size a
  slices_S256x16_o0_12_S256x1 : S256x16.Slices ![0, 12] S256x1
  packedbf16_S256x2048_S256x128_0_1536 : (Rect.unit (s := S256x2048) ![0, 1536] S256x128.size inb_S256x2048_S256x128_0_1536).PackedRows (EltTy.packing .bf16)
  inb_S256x2048_S256x128_0_1664 : ∀ a, (![0, 1664] : Fin 2 → Nat) a + S256x128.size a ≤ S256x2048.size a
  slices_S256x16_o0_13_S256x1 : S256x16.Slices ![0, 13] S256x1
  packedbf16_S256x2048_S256x128_0_1664 : (Rect.unit (s := S256x2048) ![0, 1664] S256x128.size inb_S256x2048_S256x128_0_1664).PackedRows (EltTy.packing .bf16)
  inb_S256x2048_S256x128_0_1792 : ∀ a, (![0, 1792] : Fin 2 → Nat) a + S256x128.size a ≤ S256x2048.size a
  slices_S256x16_o0_14_S256x1 : S256x16.Slices ![0, 14] S256x1
  packedbf16_S256x2048_S256x128_0_1792 : (Rect.unit (s := S256x2048) ![0, 1792] S256x128.size inb_S256x2048_S256x128_0_1792).PackedRows (EltTy.packing .bf16)
  inb_S256x2048_S256x128_0_1920 : ∀ a, (![0, 1920] : Fin 2 → Nat) a + S256x128.size a ≤ S256x2048.size a
  slices_S256x16_o0_15_S256x1 : S256x16.Slices ![0, 15] S256x1
  packedbf16_S256x2048_S256x128_0_1920 : (Rect.unit (s := S256x2048) ![0, 1920] S256x128.size inb_S256x2048_S256x128_0_1920).PackedRows (EltTy.packing .bf16)
  inb_S256x6144_S256x128_0_0 : ∀ a, (![0, 0] : Fin 2 → Nat) a + S256x128.size a ≤ S256x6144.size a
  slices_S256x48_o0_0_S256x1 : S256x48.Slices ![0, 0] S256x1
  packedbf16_S256x6144_S256x128_0_0 : (Rect.unit (s := S256x6144) ![0, 0] S256x128.size inb_S256x6144_S256x128_0_0).PackedRows (EltTy.packing .bf16)
  inb_S256x6144_S256x128_0_128 : ∀ a, (![0, 128] : Fin 2 → Nat) a + S256x128.size a ≤ S256x6144.size a
  slices_S256x48_o0_1_S256x1 : S256x48.Slices ![0, 1] S256x1
  packedbf16_S256x6144_S256x128_0_128 : (Rect.unit (s := S256x6144) ![0, 128] S256x128.size inb_S256x6144_S256x128_0_128).PackedRows (EltTy.packing .bf16)
  inb_S256x6144_S256x128_0_256 : ∀ a, (![0, 256] : Fin 2 → Nat) a + S256x128.size a ≤ S256x6144.size a
  slices_S256x48_o0_2_S256x1 : S256x48.Slices ![0, 2] S256x1
  packedbf16_S256x6144_S256x128_0_256 : (Rect.unit (s := S256x6144) ![0, 256] S256x128.size inb_S256x6144_S256x128_0_256).PackedRows (EltTy.packing .bf16)
  inb_S256x6144_S256x128_0_384 : ∀ a, (![0, 384] : Fin 2 → Nat) a + S256x128.size a ≤ S256x6144.size a
  slices_S256x48_o0_3_S256x1 : S256x48.Slices ![0, 3] S256x1
  packedbf16_S256x6144_S256x128_0_384 : (Rect.unit (s := S256x6144) ![0, 384] S256x128.size inb_S256x6144_S256x128_0_384).PackedRows (EltTy.packing .bf16)
  inb_S256x6144_S256x128_0_512 : ∀ a, (![0, 512] : Fin 2 → Nat) a + S256x128.size a ≤ S256x6144.size a
  slices_S256x48_o0_4_S256x1 : S256x48.Slices ![0, 4] S256x1
  packedbf16_S256x6144_S256x128_0_512 : (Rect.unit (s := S256x6144) ![0, 512] S256x128.size inb_S256x6144_S256x128_0_512).PackedRows (EltTy.packing .bf16)
  inb_S256x6144_S256x128_0_640 : ∀ a, (![0, 640] : Fin 2 → Nat) a + S256x128.size a ≤ S256x6144.size a
  slices_S256x48_o0_5_S256x1 : S256x48.Slices ![0, 5] S256x1
  packedbf16_S256x6144_S256x128_0_640 : (Rect.unit (s := S256x6144) ![0, 640] S256x128.size inb_S256x6144_S256x128_0_640).PackedRows (EltTy.packing .bf16)
  inb_S256x6144_S256x128_0_768 : ∀ a, (![0, 768] : Fin 2 → Nat) a + S256x128.size a ≤ S256x6144.size a
  slices_S256x48_o0_6_S256x1 : S256x48.Slices ![0, 6] S256x1
  packedbf16_S256x6144_S256x128_0_768 : (Rect.unit (s := S256x6144) ![0, 768] S256x128.size inb_S256x6144_S256x128_0_768).PackedRows (EltTy.packing .bf16)
  inb_S256x6144_S256x128_0_896 : ∀ a, (![0, 896] : Fin 2 → Nat) a + S256x128.size a ≤ S256x6144.size a
  slices_S256x48_o0_7_S256x1 : S256x48.Slices ![0, 7] S256x1
  packedbf16_S256x6144_S256x128_0_896 : (Rect.unit (s := S256x6144) ![0, 896] S256x128.size inb_S256x6144_S256x128_0_896).PackedRows (EltTy.packing .bf16)
  inb_S256x6144_S256x128_0_1024 : ∀ a, (![0, 1024] : Fin 2 → Nat) a + S256x128.size a ≤ S256x6144.size a
  slices_S256x48_o0_8_S256x1 : S256x48.Slices ![0, 8] S256x1
  packedbf16_S256x6144_S256x128_0_1024 : (Rect.unit (s := S256x6144) ![0, 1024] S256x128.size inb_S256x6144_S256x128_0_1024).PackedRows (EltTy.packing .bf16)
  inb_S256x6144_S256x128_0_1152 : ∀ a, (![0, 1152] : Fin 2 → Nat) a + S256x128.size a ≤ S256x6144.size a
  slices_S256x48_o0_9_S256x1 : S256x48.Slices ![0, 9] S256x1
  packedbf16_S256x6144_S256x128_0_1152 : (Rect.unit (s := S256x6144) ![0, 1152] S256x128.size inb_S256x6144_S256x128_0_1152).PackedRows (EltTy.packing .bf16)
  inb_S256x6144_S256x128_0_1280 : ∀ a, (![0, 1280] : Fin 2 → Nat) a + S256x128.size a ≤ S256x6144.size a
  slices_S256x48_o0_10_S256x1 : S256x48.Slices ![0, 10] S256x1
  packedbf16_S256x6144_S256x128_0_1280 : (Rect.unit (s := S256x6144) ![0, 1280] S256x128.size inb_S256x6144_S256x128_0_1280).PackedRows (EltTy.packing .bf16)
  inb_S256x6144_S256x128_0_1408 : ∀ a, (![0, 1408] : Fin 2 → Nat) a + S256x128.size a ≤ S256x6144.size a
  slices_S256x48_o0_11_S256x1 : S256x48.Slices ![0, 11] S256x1
  packedbf16_S256x6144_S256x128_0_1408 : (Rect.unit (s := S256x6144) ![0, 1408] S256x128.size inb_S256x6144_S256x128_0_1408).PackedRows (EltTy.packing .bf16)
  inb_S256x6144_S256x128_0_1536 : ∀ a, (![0, 1536] : Fin 2 → Nat) a + S256x128.size a ≤ S256x6144.size a
  slices_S256x48_o0_12_S256x1 : S256x48.Slices ![0, 12] S256x1
  packedbf16_S256x6144_S256x128_0_1536 : (Rect.unit (s := S256x6144) ![0, 1536] S256x128.size inb_S256x6144_S256x128_0_1536).PackedRows (EltTy.packing .bf16)
  inb_S256x6144_S256x128_0_1664 : ∀ a, (![0, 1664] : Fin 2 → Nat) a + S256x128.size a ≤ S256x6144.size a
  slices_S256x48_o0_13_S256x1 : S256x48.Slices ![0, 13] S256x1
  packedbf16_S256x6144_S256x128_0_1664 : (Rect.unit (s := S256x6144) ![0, 1664] S256x128.size inb_S256x6144_S256x128_0_1664).PackedRows (EltTy.packing .bf16)
  inb_S256x6144_S256x128_0_1792 : ∀ a, (![0, 1792] : Fin 2 → Nat) a + S256x128.size a ≤ S256x6144.size a
  slices_S256x48_o0_14_S256x1 : S256x48.Slices ![0, 14] S256x1
  packedbf16_S256x6144_S256x128_0_1792 : (Rect.unit (s := S256x6144) ![0, 1792] S256x128.size inb_S256x6144_S256x128_0_1792).PackedRows (EltTy.packing .bf16)
  inb_S256x6144_S256x128_0_1920 : ∀ a, (![0, 1920] : Fin 2 → Nat) a + S256x128.size a ≤ S256x6144.size a
  slices_S256x48_o0_15_S256x1 : S256x48.Slices ![0, 15] S256x1
  packedbf16_S256x6144_S256x128_0_1920 : (Rect.unit (s := S256x6144) ![0, 1920] S256x128.size inb_S256x6144_S256x128_0_1920).PackedRows (EltTy.packing .bf16)
  inb_S256x6144_S256x128_0_2048 : ∀ a, (![0, 2048] : Fin 2 → Nat) a + S256x128.size a ≤ S256x6144.size a
  slices_S256x48_o0_16_S256x1 : S256x48.Slices ![0, 16] S256x1
  packedbf16_S256x6144_S256x128_0_2048 : (Rect.unit (s := S256x6144) ![0, 2048] S256x128.size inb_S256x6144_S256x128_0_2048).PackedRows (EltTy.packing .bf16)
  inb_S256x6144_S256x128_0_2176 : ∀ a, (![0, 2176] : Fin 2 → Nat) a + S256x128.size a ≤ S256x6144.size a
  slices_S256x48_o0_17_S256x1 : S256x48.Slices ![0, 17] S256x1
  packedbf16_S256x6144_S256x128_0_2176 : (Rect.unit (s := S256x6144) ![0, 2176] S256x128.size inb_S256x6144_S256x128_0_2176).PackedRows (EltTy.packing .bf16)
  inb_S256x6144_S256x128_0_2304 : ∀ a, (![0, 2304] : Fin 2 → Nat) a + S256x128.size a ≤ S256x6144.size a
  slices_S256x48_o0_18_S256x1 : S256x48.Slices ![0, 18] S256x1
  packedbf16_S256x6144_S256x128_0_2304 : (Rect.unit (s := S256x6144) ![0, 2304] S256x128.size inb_S256x6144_S256x128_0_2304).PackedRows (EltTy.packing .bf16)
  inb_S256x6144_S256x128_0_2432 : ∀ a, (![0, 2432] : Fin 2 → Nat) a + S256x128.size a ≤ S256x6144.size a
  slices_S256x48_o0_19_S256x1 : S256x48.Slices ![0, 19] S256x1
  packedbf16_S256x6144_S256x128_0_2432 : (Rect.unit (s := S256x6144) ![0, 2432] S256x128.size inb_S256x6144_S256x128_0_2432).PackedRows (EltTy.packing .bf16)
  inb_S256x6144_S256x128_0_2560 : ∀ a, (![0, 2560] : Fin 2 → Nat) a + S256x128.size a ≤ S256x6144.size a
  slices_S256x48_o0_20_S256x1 : S256x48.Slices ![0, 20] S256x1
  packedbf16_S256x6144_S256x128_0_2560 : (Rect.unit (s := S256x6144) ![0, 2560] S256x128.size inb_S256x6144_S256x128_0_2560).PackedRows (EltTy.packing .bf16)
  inb_S256x6144_S256x128_0_2688 : ∀ a, (![0, 2688] : Fin 2 → Nat) a + S256x128.size a ≤ S256x6144.size a
  slices_S256x48_o0_21_S256x1 : S256x48.Slices ![0, 21] S256x1
  packedbf16_S256x6144_S256x128_0_2688 : (Rect.unit (s := S256x6144) ![0, 2688] S256x128.size inb_S256x6144_S256x128_0_2688).PackedRows (EltTy.packing .bf16)
  inb_S256x6144_S256x128_0_2816 : ∀ a, (![0, 2816] : Fin 2 → Nat) a + S256x128.size a ≤ S256x6144.size a
  slices_S256x48_o0_22_S256x1 : S256x48.Slices ![0, 22] S256x1
  packedbf16_S256x6144_S256x128_0_2816 : (Rect.unit (s := S256x6144) ![0, 2816] S256x128.size inb_S256x6144_S256x128_0_2816).PackedRows (EltTy.packing .bf16)
  inb_S256x6144_S256x128_0_2944 : ∀ a, (![0, 2944] : Fin 2 → Nat) a + S256x128.size a ≤ S256x6144.size a
  slices_S256x48_o0_23_S256x1 : S256x48.Slices ![0, 23] S256x1
  packedbf16_S256x6144_S256x128_0_2944 : (Rect.unit (s := S256x6144) ![0, 2944] S256x128.size inb_S256x6144_S256x128_0_2944).PackedRows (EltTy.packing .bf16)
  inb_S256x6144_S256x128_0_3072 : ∀ a, (![0, 3072] : Fin 2 → Nat) a + S256x128.size a ≤ S256x6144.size a
  slices_S256x48_o0_24_S256x1 : S256x48.Slices ![0, 24] S256x1
  packedbf16_S256x6144_S256x128_0_3072 : (Rect.unit (s := S256x6144) ![0, 3072] S256x128.size inb_S256x6144_S256x128_0_3072).PackedRows (EltTy.packing .bf16)
  inb_S256x6144_S256x128_0_3200 : ∀ a, (![0, 3200] : Fin 2 → Nat) a + S256x128.size a ≤ S256x6144.size a
  slices_S256x48_o0_25_S256x1 : S256x48.Slices ![0, 25] S256x1
  packedbf16_S256x6144_S256x128_0_3200 : (Rect.unit (s := S256x6144) ![0, 3200] S256x128.size inb_S256x6144_S256x128_0_3200).PackedRows (EltTy.packing .bf16)
  inb_S256x6144_S256x128_0_3328 : ∀ a, (![0, 3328] : Fin 2 → Nat) a + S256x128.size a ≤ S256x6144.size a
  slices_S256x48_o0_26_S256x1 : S256x48.Slices ![0, 26] S256x1
  packedbf16_S256x6144_S256x128_0_3328 : (Rect.unit (s := S256x6144) ![0, 3328] S256x128.size inb_S256x6144_S256x128_0_3328).PackedRows (EltTy.packing .bf16)
  inb_S256x6144_S256x128_0_3456 : ∀ a, (![0, 3456] : Fin 2 → Nat) a + S256x128.size a ≤ S256x6144.size a
  slices_S256x48_o0_27_S256x1 : S256x48.Slices ![0, 27] S256x1
  packedbf16_S256x6144_S256x128_0_3456 : (Rect.unit (s := S256x6144) ![0, 3456] S256x128.size inb_S256x6144_S256x128_0_3456).PackedRows (EltTy.packing .bf16)
  inb_S256x6144_S256x128_0_3584 : ∀ a, (![0, 3584] : Fin 2 → Nat) a + S256x128.size a ≤ S256x6144.size a
  slices_S256x48_o0_28_S256x1 : S256x48.Slices ![0, 28] S256x1
  packedbf16_S256x6144_S256x128_0_3584 : (Rect.unit (s := S256x6144) ![0, 3584] S256x128.size inb_S256x6144_S256x128_0_3584).PackedRows (EltTy.packing .bf16)
  inb_S256x6144_S256x128_0_3712 : ∀ a, (![0, 3712] : Fin 2 → Nat) a + S256x128.size a ≤ S256x6144.size a
  slices_S256x48_o0_29_S256x1 : S256x48.Slices ![0, 29] S256x1
  packedbf16_S256x6144_S256x128_0_3712 : (Rect.unit (s := S256x6144) ![0, 3712] S256x128.size inb_S256x6144_S256x128_0_3712).PackedRows (EltTy.packing .bf16)
  inb_S256x6144_S256x128_0_3840 : ∀ a, (![0, 3840] : Fin 2 → Nat) a + S256x128.size a ≤ S256x6144.size a
  slices_S256x48_o0_30_S256x1 : S256x48.Slices ![0, 30] S256x1
  packedbf16_S256x6144_S256x128_0_3840 : (Rect.unit (s := S256x6144) ![0, 3840] S256x128.size inb_S256x6144_S256x128_0_3840).PackedRows (EltTy.packing .bf16)
  inb_S256x6144_S256x128_0_3968 : ∀ a, (![0, 3968] : Fin 2 → Nat) a + S256x128.size a ≤ S256x6144.size a
  slices_S256x48_o0_31_S256x1 : S256x48.Slices ![0, 31] S256x1
  packedbf16_S256x6144_S256x128_0_3968 : (Rect.unit (s := S256x6144) ![0, 3968] S256x128.size inb_S256x6144_S256x128_0_3968).PackedRows (EltTy.packing .bf16)
  inb_S256x6144_S256x128_0_4096 : ∀ a, (![0, 4096] : Fin 2 → Nat) a + S256x128.size a ≤ S256x6144.size a
  slices_S256x48_o0_32_S256x1 : S256x48.Slices ![0, 32] S256x1
  packedbf16_S256x6144_S256x128_0_4096 : (Rect.unit (s := S256x6144) ![0, 4096] S256x128.size inb_S256x6144_S256x128_0_4096).PackedRows (EltTy.packing .bf16)
  inb_S256x6144_S256x128_0_4224 : ∀ a, (![0, 4224] : Fin 2 → Nat) a + S256x128.size a ≤ S256x6144.size a
  slices_S256x48_o0_33_S256x1 : S256x48.Slices ![0, 33] S256x1
  packedbf16_S256x6144_S256x128_0_4224 : (Rect.unit (s := S256x6144) ![0, 4224] S256x128.size inb_S256x6144_S256x128_0_4224).PackedRows (EltTy.packing .bf16)
  inb_S256x6144_S256x128_0_4352 : ∀ a, (![0, 4352] : Fin 2 → Nat) a + S256x128.size a ≤ S256x6144.size a
  slices_S256x48_o0_34_S256x1 : S256x48.Slices ![0, 34] S256x1
  packedbf16_S256x6144_S256x128_0_4352 : (Rect.unit (s := S256x6144) ![0, 4352] S256x128.size inb_S256x6144_S256x128_0_4352).PackedRows (EltTy.packing .bf16)
  inb_S256x6144_S256x128_0_4480 : ∀ a, (![0, 4480] : Fin 2 → Nat) a + S256x128.size a ≤ S256x6144.size a
  slices_S256x48_o0_35_S256x1 : S256x48.Slices ![0, 35] S256x1
  packedbf16_S256x6144_S256x128_0_4480 : (Rect.unit (s := S256x6144) ![0, 4480] S256x128.size inb_S256x6144_S256x128_0_4480).PackedRows (EltTy.packing .bf16)
  inb_S256x6144_S256x128_0_4608 : ∀ a, (![0, 4608] : Fin 2 → Nat) a + S256x128.size a ≤ S256x6144.size a
  slices_S256x48_o0_36_S256x1 : S256x48.Slices ![0, 36] S256x1
  packedbf16_S256x6144_S256x128_0_4608 : (Rect.unit (s := S256x6144) ![0, 4608] S256x128.size inb_S256x6144_S256x128_0_4608).PackedRows (EltTy.packing .bf16)
  inb_S256x6144_S256x128_0_4736 : ∀ a, (![0, 4736] : Fin 2 → Nat) a + S256x128.size a ≤ S256x6144.size a
  slices_S256x48_o0_37_S256x1 : S256x48.Slices ![0, 37] S256x1
  packedbf16_S256x6144_S256x128_0_4736 : (Rect.unit (s := S256x6144) ![0, 4736] S256x128.size inb_S256x6144_S256x128_0_4736).PackedRows (EltTy.packing .bf16)
  inb_S256x6144_S256x128_0_4864 : ∀ a, (![0, 4864] : Fin 2 → Nat) a + S256x128.size a ≤ S256x6144.size a
  slices_S256x48_o0_38_S256x1 : S256x48.Slices ![0, 38] S256x1
  packedbf16_S256x6144_S256x128_0_4864 : (Rect.unit (s := S256x6144) ![0, 4864] S256x128.size inb_S256x6144_S256x128_0_4864).PackedRows (EltTy.packing .bf16)
  inb_S256x6144_S256x128_0_4992 : ∀ a, (![0, 4992] : Fin 2 → Nat) a + S256x128.size a ≤ S256x6144.size a
  slices_S256x48_o0_39_S256x1 : S256x48.Slices ![0, 39] S256x1
  packedbf16_S256x6144_S256x128_0_4992 : (Rect.unit (s := S256x6144) ![0, 4992] S256x128.size inb_S256x6144_S256x128_0_4992).PackedRows (EltTy.packing .bf16)
  inb_S256x6144_S256x128_0_5120 : ∀ a, (![0, 5120] : Fin 2 → Nat) a + S256x128.size a ≤ S256x6144.size a
  slices_S256x48_o0_40_S256x1 : S256x48.Slices ![0, 40] S256x1
  packedbf16_S256x6144_S256x128_0_5120 : (Rect.unit (s := S256x6144) ![0, 5120] S256x128.size inb_S256x6144_S256x128_0_5120).PackedRows (EltTy.packing .bf16)
  inb_S256x6144_S256x128_0_5248 : ∀ a, (![0, 5248] : Fin 2 → Nat) a + S256x128.size a ≤ S256x6144.size a
  slices_S256x48_o0_41_S256x1 : S256x48.Slices ![0, 41] S256x1
  packedbf16_S256x6144_S256x128_0_5248 : (Rect.unit (s := S256x6144) ![0, 5248] S256x128.size inb_S256x6144_S256x128_0_5248).PackedRows (EltTy.packing .bf16)
  inb_S256x6144_S256x128_0_5376 : ∀ a, (![0, 5376] : Fin 2 → Nat) a + S256x128.size a ≤ S256x6144.size a
  slices_S256x48_o0_42_S256x1 : S256x48.Slices ![0, 42] S256x1
  packedbf16_S256x6144_S256x128_0_5376 : (Rect.unit (s := S256x6144) ![0, 5376] S256x128.size inb_S256x6144_S256x128_0_5376).PackedRows (EltTy.packing .bf16)
  inb_S256x6144_S256x128_0_5504 : ∀ a, (![0, 5504] : Fin 2 → Nat) a + S256x128.size a ≤ S256x6144.size a
  slices_S256x48_o0_43_S256x1 : S256x48.Slices ![0, 43] S256x1
  packedbf16_S256x6144_S256x128_0_5504 : (Rect.unit (s := S256x6144) ![0, 5504] S256x128.size inb_S256x6144_S256x128_0_5504).PackedRows (EltTy.packing .bf16)
  inb_S256x6144_S256x128_0_5632 : ∀ a, (![0, 5632] : Fin 2 → Nat) a + S256x128.size a ≤ S256x6144.size a
  slices_S256x48_o0_44_S256x1 : S256x48.Slices ![0, 44] S256x1
  packedbf16_S256x6144_S256x128_0_5632 : (Rect.unit (s := S256x6144) ![0, 5632] S256x128.size inb_S256x6144_S256x128_0_5632).PackedRows (EltTy.packing .bf16)
  inb_S256x6144_S256x128_0_5760 : ∀ a, (![0, 5760] : Fin 2 → Nat) a + S256x128.size a ≤ S256x6144.size a
  slices_S256x48_o0_45_S256x1 : S256x48.Slices ![0, 45] S256x1
  packedbf16_S256x6144_S256x128_0_5760 : (Rect.unit (s := S256x6144) ![0, 5760] S256x128.size inb_S256x6144_S256x128_0_5760).PackedRows (EltTy.packing .bf16)
  inb_S256x6144_S256x128_0_5888 : ∀ a, (![0, 5888] : Fin 2 → Nat) a + S256x128.size a ≤ S256x6144.size a
  slices_S256x48_o0_46_S256x1 : S256x48.Slices ![0, 46] S256x1
  packedbf16_S256x6144_S256x128_0_5888 : (Rect.unit (s := S256x6144) ![0, 5888] S256x128.size inb_S256x6144_S256x128_0_5888).PackedRows (EltTy.packing .bf16)
  inb_S256x6144_S256x128_0_6016 : ∀ a, (![0, 6016] : Fin 2 → Nat) a + S256x128.size a ≤ S256x6144.size a
  slices_S256x48_o0_47_S256x1 : S256x48.Slices ![0, 47] S256x1
  packedbf16_S256x6144_S256x128_0_6016 : (Rect.unit (s := S256x6144) ![0, 6016] S256x128.size inb_S256x6144_S256x128_0_6016).PackedRows (EltTy.packing .bf16)
  inb_S8192x256_S2048x256_0_0 : ∀ a, (![0, 0] : Fin 2 → Nat) a + S2048x256.size a ≤ S8192x256.size a
  h_S2048x256 : 0 < S2048x256.numel
  shapeCasts_S2048x256_S2048x256 : S2048x256.ShapeCasts S2048x256
  inb_S8192x256_S6144x256_2048_0 : ∀ a, (![2048, 0] : Fin 2 → Nat) a + S6144x256.size a ≤ S8192x256.size a
  h_S6144x256 : 0 < S6144x256.numel
  shapeCasts_S6144x256_S6144x256 : S6144x256.ShapeCasts S6144x256
  inb_S256x2048_S256x2048_0_0 : ∀ a, (![0, 0] : Fin 2 → Nat) a + S256x2048.size a ≤ S256x2048.size a
  h_S256x2048 : 0 < S256x2048.numel
  inb_S256x6144_S256x6144_0_0 : ∀ a, (![0, 0] : Fin 2 → Nat) a + S256x6144.size a ≤ S256x6144.size a
  h_S256x6144 : 0 < S256x6144.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  gather_S8192x256_S8192x1_S8192x256_1_0_n_n_0_1_1256_wf : GatherDims.WF S8192x256 S8192x1 S8192x256 [1] [0] [] [0] [] 1 ![1, 256]
  dot_S2048x256_S256x2048_S256x256_0_1_1_0_n_n_wf : DotDims.WF S2048x256 S256x2048 S256x256 [0] [1] [1] [0] [] []
  dot_S6144x256_S256x6144_S256x256_0_1_1_0_n_n_wf : DotDims.WF S6144x256 S256x6144 S256x256 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .i32 = 32 ∨ (Rect.block (s := S8192x2048) S256x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x6144.size a ≤ S8192x6144.size a
  hwx0_1 : ∀ i : grid0.Coords, EltTy.bits .i32 = 32 ∨ (Rect.block (s := S8192x6144) S256x6144.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x8192.size a
  hwx0_2 : ∀ i : grid0.Coords, EltTy.bits .f32 = 32 ∨ (Rect.block (s := S16x8192) S16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x256.size a ≤ S16x8192.size a
  hwx0_3 : ∀ i : grid0.Coords, EltTy.bits .f32 = 32 ∨ (Rect.block (s := S16x8192) S16x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S48x256.size a ≤ S48x8192.size a
  hwx0_4 : ∀ i : grid0.Coords, EltTy.bits .f32 = 32 ∨ (Rect.block (s := S48x8192) S48x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S48x256.size a ≤ S48x8192.size a
  hwx0_5 : ∀ i : grid0.Coords, EltTy.bits .f32 = 32 ∨ (Rect.block (s := S48x8192) S48x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x8192.size a
  hwx0_6 : ∀ i : grid0.Coords, EltTy.bits .f32 = 32 ∨ (Rect.block (s := S1x8192) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8192x256.size a ≤ S8192x256.size a
  hwx0_7 : ∀ i : grid0.Coords, EltTy.bits .bf16 = 32 ∨ (Rect.block (s := S8192x256) S8192x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x8192.size a
  hwx0_8 : ∀ i : grid0.Coords, EltTy.bits .f32 = 32 ∨ (Rect.block (s := S256x8192) S256x256.size (cc0_transform_8 i) (hinb0_8 i)).WholeWords (EltTy.packing .f32)

variable [Facts₀]

def gather_S8192x256_S8192x1_S8192x256_1_0_n_n_0_1_1256 : GatherDims S8192x256 S8192x1 S8192x256 where
  offsetDims := [1]
  collapsedSliceDims := [0]
  operandBatchingDims := []
  startIndicesBatchingDims := []
  startIndexMap := [0]
  indexVectorDim := 1
  sliceSizes := ![1, 256]
  wf := gather_S8192x256_S8192x1_S8192x256_1_0_n_n_0_1_1256_wf
def dot_S2048x256_S256x2048_S256x256_0_1_1_0_n_n : DotDims S2048x256 S256x2048 S256x256 where
  lhsContracting := [0]
  rhsContracting := [1]
  lhsNonContracting := [1]
  rhsNonContracting := [0]
  lhsBatch := []
  rhsBatch := []
  wf := dot_S2048x256_S256x2048_S256x256_0_1_1_0_n_n_wf
def dot_S6144x256_S256x6144_S256x256_0_1_1_0_n_n : DotDims S6144x256 S256x6144 S256x256 where
  lhsContracting := [0]
  rhsContracting := [1]
  lhsNonContracting := [1]
  rhsNonContracting := [0]
  lhsBatch := []
  rhsBatch := []
  wf := dot_S6144x256_S256x6144_S256x256_0_1_1_0_n_n_wf

abbrev win0_0 : Pipeline.Window sig grid0 :=
  Pipeline.Window.ofSpec (Memref.whole main_arg1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x6144.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S16x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S48x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S48x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2) S8192x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S256x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S256x8192 : Shape := ⟨2, ![256, 8192]⟩
abbrev S8192x2048 : Shape := ⟨2, ![8192, 2048]⟩
abbrev S8192x6144 : Shape := ⟨2, ![8192, 6144]⟩
abbrev S16x8192 : Shape := ⟨2, ![16, 8192]⟩
abbrev S48x8192 : Shape := ⟨2, ![48, 8192]⟩
abbrev S8192 : Shape := ⟨1, ![8192]⟩
abbrev S2048 : Shape := ⟨1, ![2048]⟩
abbrev S_ : Shape := ⟨0, ![]⟩
abbrev S2048x1 : Shape := ⟨2, ![2048, 1]⟩
abbrev S2048x8192 : Shape := ⟨2, ![2048, 8192]⟩
abbrev S6144 : Shape := ⟨1, ![6144]⟩
abbrev S6144x1 : Shape := ⟨2, ![6144, 1]⟩
abbrev S6144x8192 : Shape := ⟨2, ![6144, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 108
  | .vmem => 0
  | .smem => 0
  | _ => 0

abbrev bufTy : (tb : Table) → Fin (tcTables nBuf tb) → BufTy
  | .hbm, ⟨0, _⟩ => ⟨S256x8192, .f32⟩
  | .hbm, ⟨1, _⟩ => ⟨S8192x2048, .i32⟩
  | .hbm, ⟨2, _⟩ => ⟨S8192x6144, .i32⟩
  | .hbm, ⟨3, _⟩ => ⟨S16x8192, .f32⟩
  | .hbm, ⟨4, _⟩ => ⟨S16x8192, .f32⟩
  | .hbm, ⟨5, _⟩ => ⟨S48x8192, .f32⟩
  | .hbm, ⟨6, _⟩ => ⟨S48x8192, .f32⟩
  | .hbm, ⟨7, _⟩ => ⟨S8192, .f32⟩
  | .hbm, ⟨8, _⟩ => ⟨S8192, .i32⟩
  | .hbm, ⟨9, _⟩ => ⟨S2048, .i32⟩
  | .hbm, ⟨10, _⟩ => ⟨S_, .i32⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S2048, .i1⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S_, .i32⟩
  | .hbm, ⟨29, _⟩ => ⟨S2048, .i32⟩
  | .hbm, ⟨30, _⟩ => ⟨S2048, .i1⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S2048, .i32⟩
  | .hbm, ⟨35, _⟩ => ⟨S2048x1, .i32⟩
  | .hbm, ⟨36, _⟩ => ⟨S2048x8192, .f32⟩
  | .hbm, ⟨37, _⟩ => ⟨S8192x2048, .f32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S2048, .i32⟩
  | .hbm, ⟨45, _⟩ => ⟨S2048x1, .i32⟩
  | .hbm, ⟨46, _⟩ => ⟨S2048x8192, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S6144, .i32⟩
  | .hbm, ⟨52, _⟩ => ⟨S_, .i32⟩
  | .hbm, ⟨53, _⟩ => ⟨S_, .i32⟩
  | .hbm, ⟨54, _⟩ => ⟨S6144, .i32⟩
  | .hbm, ⟨55, _⟩ => ⟨S6144, .i32⟩
  | .hbm, ⟨56, _⟩ => ⟨S6144, .i32⟩
  | .hbm, ⟨57, _⟩ => ⟨S_, .i32⟩
  | .hbm, ⟨58, _⟩ => ⟨S6144, .i32⟩
  | .hbm, ⟨59, _⟩ => ⟨S6144, .i1⟩
  | .hbm, ⟨60, _⟩ => ⟨S6144, .i32⟩
  | .hbm, ⟨61, _⟩ => ⟨S6144, .i32⟩
  | .hbm, ⟨62, _⟩ => ⟨S_, .i32⟩
  | .hbm, ⟨63, _⟩ => ⟨S6144, .i32⟩
  | .hbm, ⟨64, _⟩ => ⟨S6144, .i1⟩
  | .hbm, ⟨65, _⟩ => ⟨S6144, .i1⟩
  | .hbm, ⟨66, _⟩ => ⟨S_, .i32⟩
  | .hbm, ⟨67, _⟩ => ⟨S6144, .i32⟩
  | .hbm, ⟨68, _⟩ => ⟨S6144, .i32⟩
  | .hbm, ⟨69, _⟩ => ⟨S6144, .i32⟩
  | .hbm, ⟨70, _⟩ => ⟨S_, .i32⟩
  | .hbm, ⟨71, _⟩ => ⟨S6144, .i32⟩
  | .hbm, ⟨72, _⟩ => ⟨S6144, .i1⟩
  | .hbm, ⟨73, _⟩ => ⟨S_, .i32⟩
  | .hbm, ⟨74, _⟩ => ⟨S6144, .i32⟩
  | .hbm, ⟨75, _⟩ => ⟨S6144, .i32⟩
  | .hbm, ⟨76, _⟩ => ⟨S6144, .i32⟩
  | .hbm, ⟨77, _⟩ => ⟨S6144x1, .i32⟩
  | .hbm, ⟨78, _⟩ => ⟨S6144x8192, .f32⟩
  | .hbm, ⟨79, _⟩ => ⟨S8192x6144, .f32⟩
  | .hbm, ⟨80, _⟩ => ⟨S_, .i32⟩
  | .hbm, ⟨81, _⟩ => ⟨S6144, .i32⟩
  | .hbm, ⟨82, _⟩ => ⟨S6144, .i1⟩
  | .hbm, ⟨83, _⟩ => ⟨S_, .i32⟩
  | .hbm, ⟨84, _⟩ => ⟨S6144, .i32⟩
  | .hbm, ⟨85, _⟩ => ⟨S6144, .i32⟩
  | .hbm, ⟨86, _⟩ => ⟨S6144, .i32⟩
  | .hbm, ⟨87, _⟩ => ⟨S6144x1, .i32⟩
  | .hbm, ⟨88, _⟩ => ⟨S6144x8192, .f32⟩
  | .hbm, ⟨89, _⟩ => ⟨S8192x6144, .f32⟩
  | .hbm, ⟨90, _⟩ => ⟨S8192x6144, .f32⟩
  | .hbm, ⟨91, _⟩ => ⟨S8192x6144, .f32⟩
  | .hbm, ⟨92, _⟩ => ⟨S8192x6144, .f32⟩
  | .hbm, ⟨93, _⟩ => ⟨S8192x8192, .f32⟩
  | .hbm, ⟨94, _⟩ => ⟨S_, .i32⟩
  | .hbm, ⟨95, _⟩ => ⟨S8192, .i32⟩
  | .hbm, ⟨96, _⟩ => ⟨S8192, .i1⟩
  | .hbm, ⟨97, _⟩ => ⟨S_, .i32⟩
  | .hbm, ⟨98, _⟩ => ⟨S8192, .i32⟩
  | .hbm, ⟨99, _⟩ => ⟨S8192, .i32⟩
  | .hbm, ⟨100, _⟩ => ⟨S8192, .i32⟩
  | .hbm, ⟨101, _⟩ => ⟨S8192x1, .i32⟩
  | .hbm, ⟨102, _⟩ => ⟨S256x8192, .f32⟩
  | .hbm, ⟨103, _⟩ => ⟨S8192x8192, .f32⟩
  | .hbm, ⟨104, _⟩ => ⟨S256x8192, .f32⟩
  | .hbm, ⟨105, _⟩ => ⟨S1x8192, .f32⟩
  | .hbm, ⟨106, _⟩ => ⟨S256x8192, .f32⟩
  | .hbm, ⟨107, _⟩ => ⟨S256x8192, .f32⟩
  | _, _ => ⟨S256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v1 : Ref sig .tc := ⟨.hbm, 27, rfl⟩
abbrev main_c_0 : Ref sig .tc := ⟨.hbm, 28, rfl⟩
abbrev main_v2 : Ref sig .tc := ⟨.hbm, 29, rfl⟩
abbrev main_v3 : Ref sig .tc := ⟨.hbm, 30, rfl⟩
abbrev main_c_1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_c_2 : Ref sig .tc := ⟨.hbm, 38, rfl⟩
abbrev main_v10 : Ref sig .tc := ⟨.hbm, 39, rfl⟩
abbrev main_v11 : Ref sig .tc := ⟨.hbm, 40, rfl⟩
abbrev main_c_3 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c_4 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_c : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_0 : Ref sig .tc := ⟨.hbm, 66, rfl⟩
abbrev main_call1_v12 : Ref sig .tc := ⟨.hbm, 67, rfl⟩
abbrev main_call1_v13 : Ref sig .tc := ⟨.hbm, 68, rfl⟩
abbrev main_v22 : Ref sig .tc := ⟨.hbm, 69, rfl⟩
abbrev main_c_5 : Ref sig .tc := ⟨.hbm, 70, rfl⟩
abbrev main_v23 : Ref sig .tc := ⟨.hbm, 71, rfl⟩
abbrev main_v24 : Ref sig .tc := ⟨.hbm, 72, rfl⟩
abbrev main_c_6 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_c_7 : Ref sig .tc := ⟨.hbm, 80, rfl⟩
abbrev main_v31 : Ref sig .tc := ⟨.hbm, 81, rfl⟩
abbrev main_v32 : Ref sig .tc := ⟨.hbm, 82, rfl⟩
abbrev main_c_8 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_c_9 : Ref sig .tc := ⟨.hbm, 94, rfl⟩
abbrev main_v43 : Ref sig .tc := ⟨.hbm, 95, rfl⟩
abbrev main_v44 : Ref sig .tc := ⟨.hbm, 96, rfl⟩
abbrev main_c_10 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  transposes_S2048x8192_S8192x2048_1_0 : S2048x8192.Transposes [1, 0] S8192x2048
  bcast_S_S6144 : S_.BroadcastsInDim S6144 (![] : Fin 0 → Fin S6144.rank)
  bcast_S6144_S6144x1_0 : S6144.BroadcastsInDim S6144x1 (![0] : Fin 1 → Fin S6144x1.rank)
  transposes_S6144x8192_S8192x6144_1_0 : S6144x8192.Transposes [1, 0] S8192x6144
  concatenates_S8192x2048_S8192x6144_S8192x8192_d1 : Shape.Concatenates [S8192x2048, S8192x6144] S8192x8192 1
  bcast_S_S8192 : S_.BroadcastsInDim S8192 (![] : Fin 0 → Fin S8192.rank)
  bcast_S8192_S8192x1_0 : S8192.BroadcastsInDim S8192x1 (![0] : Fin 1 → Fin S8192x1.rank)
  transposes_S8192x8192_S8192x8192_1_0 : S8192x8192.Transposes [1, 0] S8192x8192
  bcast_S8192_S1x8192_1 : S8192.BroadcastsInDim S1x8192 (![1] : Fin 1 → Fin S1x8192.rank)
  bcast_S1x8192_S256x8192_0_1 : S1x8192.BroadcastsInDim S256x8192 (![0, 1] : Fin 2 → Fin S256x8192.rank)
  gather_S16x8192_S2048x1_S2048x8192_1_0_n_n_0_1_18192_wf : GatherDims.WF S16x8192 S2048x1 S2048x8192 [1] [0] [] [0] [] 1 ![1, 8192]
  gather_S48x8192_S6144x1_S6144x8192_1_0_n_n_0_1_18192_wf : GatherDims.WF S48x8192 S6144x1 S6144x8192 [1] [0] [] [0] [] 1 ![1, 8192]
  gather_S256x8192_S8192x1_S256x8192_0_1_n_n_1_1_2561_wf : GatherDims.WF S256x8192 S8192x1 S256x8192 [0] [1] [] [1] [] 1 ![256, 1]
  dot_S256x8192_S8192x8192_S256x8192_1_0_0_1_n_n_wf : DotDims.WF S256x8192 S8192x8192 S256x8192 [1] [0] [0] [1] [] []

variable [Facts₀]

def gather_S16x8192_S2048x1_S2048x8192_1_0_n_n_0_1_18192 : GatherDims S16x8192 S2048x1 S2048x8192 where
  offsetDims := [1]
  collapsedSliceDims := [0]
  operandBatchingDims := []
  startIndicesBatchingDims := []
  startIndexMap := [0]
  indexVectorDim := 1
  sliceSizes := ![1, 8192]
  wf := gather_S16x8192_S2048x1_S2048x8192_1_0_n_n_0_1_18192_wf
def gather_S48x8192_S6144x1_S6144x8192_1_0_n_n_0_1_18192 : GatherDims S48x8192 S6144x1 S6144x8192 where
  offsetDims := [1]
  collapsedSliceDims := [0]
  operandBatchingDims := []
  startIndicesBatchingDims := []
  startIndexMap := [0]
  indexVectorDim := 1
  sliceSizes := ![1, 8192]
  wf := gather_S48x8192_S6144x1_S6144x8192_1_0_n_n_0_1_18192_wf
def gather_S256x8192_S8192x1_S256x8192_0_1_n_n_1_1_2561 : GatherDims S256x8192 S8192x1 S256x8192 where
  offsetDims := [0]
  collapsedSliceDims := [1]
  operandBatchingDims := []
  startIndicesBatchingDims := []
  startIndexMap := [1]
  indexVectorDim := 1
  sliceSizes := ![256, 1]
  wf := gather_S256x8192_S8192x1_S256x8192_0_1_n_n_1_1_2561_wf
def dot_S256x8192_S8192x8192_S256x8192_1_0_0_1_n_n : DotDims S256x8192 S8192x8192 S256x8192 where
  lhsContracting := [1]
  rhsContracting := [0]
  lhsNonContracting := [0]
  rhsNonContracting := [1]
  lhsBatch := []
  rhsBatch := []
  wf := dot_S256x8192_S8192x8192_S256x8192_1_0_0_1_n_n_wf

class Facts : Prop extends Facts₀ where

variable [Facts]
-- ==== Proof.Spec.lean ====
/-
  What the packed-weight linear layer computes, as plain functions of its nine argument arrays over the extended reals.

  The weight is stored as integer codes in two regions of columns (2048 "high" columns, 6144 "low" ones), each column
  belonging to the tile of 128 columns it lies in; a tile `t` and an output row `o` have a scale `s[t, o]` and a zero
  point `z[t, o]`, and the weight entry is `(code − z[t, o]) · s[t, o]`. The layer's input `x` is read through a
  permutation of its columns given as an integer array: position `k` of the permuted input is column `col k` of `x`,
  where an index is first wrapped once (a negative index counts from the end of the axis) and then, as a gather does
  with every start index, clamped into the axis. The result is

      y[b, o] = Σ_{k < 2048} x[b, col k] · Whigh[o, k]  +  Σ_{k < 6144} x[b, col (2048 + k)] · Wlow[o, k]  +  bias[o].

  Sums of extended reals are sums in a commutative monoid, so a sum over all 8192 positions splits into these two at
  position 2048 with no hypothesis on the summands.
-/
import Idealize.ShloMosaic.PureOps.Ideal
import Idealize.ShloMosaic.Lib.ValueIdx

noncomputable section

open scoped BigOperators

namespace Cert.PackedLinear

open Idealize.ShloMosaic Idealize.ShloMosaic.ValueIdx

/-- A signed 32-bit index into an axis of extent 8192, wrapped once: a negative index counts from the end. -/
def wrap (v : BitVec 32) : BitVec 32 :=
  Scalar.select (IntOp.cmpi .slt v 0#32) (IntOp.addi v 8192#32) v

/-- An index is in the range of an axis of extent 8192, counting from either end: `−8192 ≤ v < 8192` as signed words
    (`4294959104` is the 32-bit word of `−8192`). Outside this range the layer's input has no such column. -/
def InRange (v : BitVec 32) : Prop :=
  IntOp.cmpi .sge v 4294959104#32 = 1#1 ∧ IntOp.cmpi .slt v 8192#32 = 1#1

/-- A wrapped index read as a position of the axis: read signed, clamped into `[0, 8191]`. -/
def pos (v : BitVec 32) : Fin 8192 := ⟨min (wrap v).toInt.toNat 8191, by omega⟩

/-- The column of `x` that position `k` of the permuted input reads. -/
def col (ci : IVec ⟨1, ![8192]⟩ 32) (k : Fin 8192) : Fin 8192 := pos (ci (ix1 k))

/-- The tile of 128 columns that column `k` lies in. -/
def tile {n nt : Nat} (h : n = 128 * nt) (k : Fin n) : Fin nt := ⟨k.val / 128, by have := k.isLt; omega⟩

/-- One dequantised weight entry: the code as a real, minus its tile's zero point, times its tile's scale. -/
def weight {n nt : Nat} (h : n = 128 * nt) (W : IVec ⟨2, ![8192, n]⟩ 32)
    (s z : (⟨2, ![nt, 8192]⟩ : Shape).Idx → EReal) (o : Fin 8192) (k : Fin n) : EReal :=
  ((FloatOps.sitofp (F := Ideal) .f32 (W (ix2 o k)) : EReal) - z (ix2 (tile h k) o)) * s (ix2 (tile h k) o)

/-- The layer's result at row `b` of the batch and output `o`. -/
def outAt (x : (⟨2, ![256, 8192]⟩ : Shape).Idx → EReal)
    (Wh : IVec ⟨2, ![8192, 2048]⟩ 32) (Wl : IVec ⟨2, ![8192, 6144]⟩ 32)
    (sh zh : (⟨2, ![16, 8192]⟩ : Shape).Idx → EReal) (sl zl : (⟨2, ![48, 8192]⟩ : Shape).Idx → EReal)
    (bias : (⟨1, ![8192]⟩ : Shape).Idx → EReal) (ci : IVec ⟨1, ![8192]⟩ 32) (b : Fin 256) (o : Fin 8192) : EReal :=
  ((∑ k : Fin 2048, x (ix2 b (col ci ⟨k.val, by have := k.isLt; omega⟩)) * weight (nt := 16) rfl Wh sh zh o k)
    + ∑ k : Fin 6144, x (ix2 b (col ci ⟨2048 + k.val, by have := k.isLt; omega⟩)) * weight (nt := 48) rfl Wl sl zl o k)
  + bias (ix1 o)

/-- The layer's result array. -/
def out (x : (⟨2, ![256, 8192]⟩ : Shape).Idx → EReal)
    (Wh : IVec ⟨2, ![8192, 2048]⟩ 32) (Wl : IVec ⟨2, ![8192, 6144]⟩ 32)
    (sh zh : (⟨2, ![16, 8192]⟩ : Shape).Idx → EReal) (sl zl : (⟨2, ![48, 8192]⟩ : Shape).Idx → EReal)
    (bias : (⟨1, ![8192]⟩ : Shape).Idx → EReal) (ci : IVec ⟨1, ![8192]⟩ 32) :
    (⟨2, ![256, 8192]⟩ : Shape).Idx → EReal :=
  fun i => outAt x Wh Wl sh zh sl zl bias ci (i 0) (i 1)

/-- One block of 256 outputs, from the blocks of the arrays that belong to it: the codes' 256 rows, the scales' and
    zero points' 256 columns, the bias's 256 entries, and the whole permuted input `xp[k, b]` (position by batch row). -/
def blockAt (q0 : IVec ⟨2, ![256, 2048]⟩ 32) (q1 : IVec ⟨2, ![256, 6144]⟩ 32)
    (s0 z0 : (⟨2, ![16, 256]⟩ : Shape).Idx → EReal) (s1 z1 : (⟨2, ![48, 256]⟩ : Shape).Idx → EReal)
    (bs : (⟨2, ![1, 256]⟩ : Shape).Idx → EReal) (xp : (⟨2, ![8192, 256]⟩ : Shape).Idx → EReal)
    (b : Fin 256) (o : Fin 256) : EReal :=
  ((∑ k : Fin 2048, xp (ix2 (⟨k.val, by have := k.isLt; omega⟩ : Fin 8192) b)
        * (((FloatOps.sitofp (F := Ideal) .f32 (q0 (ix2 o k)) : EReal) - z0 (ix2 (tile (nt := 16) rfl k) o)) * s0 (ix2 (tile (nt := 16) rfl k) o)))
    + ∑ k : Fin 6144, xp (ix2 (⟨2048 + k.val, by have := k.isLt; omega⟩ : Fin 8192) b)
        * (((FloatOps.sitofp (F := Ideal) .f32 (q1 (ix2 o k)) : EReal) - z1 (ix2 (tile (nt := 48) rfl k) o)) * s1 (ix2 (tile (nt := 48) rfl k) o)))
  + bs (ix2 (0 : Fin 1) o)

/-- A sum over the 8192 positions splits at position 2048. -/
theorem sum_split (f : Fin 8192 → EReal) :
    (∑ k : Fin 8192, f k)
      = (∑ k : Fin 2048, f ⟨k.val, by have := k.isLt; omega⟩) + ∑ k : Fin 6144, f ⟨2048 + k.val, by have := k.isLt; omega⟩ := by
  have h := Fin.sum_univ_add (a := 2048) (b := 6144) (fun k => f (Fin.cast (by norm_num) k))
  have e : (∑ k : Fin 8192, f k) = ∑ k : Fin (2048 + 6144), f (Fin.cast (by norm_num) k) :=
    (Fintype.sum_equiv (finCongr (by norm_num : 2048 + 6144 = 8192)) _ _ (fun _ => rfl)).symm
  rw [e, h]
  rfl

end Cert.PackedLinear

end
-- ==== Proof.PreRange.lean ====
/-
  What the precondition says of the integer index input: every entry of the permutation array is an index of an axis
  of extent 8192, counting from either end (`−8192 ≤ v < 8192`). The precondition is a conjunction of "all entries"
  tests; its last conjunct is this range test, entry by entry.
-/
import proofs.«402445_j64330020159908_2_alg».proof.Defs
import proofs.«402445_j64330020159908_2_alg».proof.Proof.Gen.Pre_finite_inputs
import proofs.«402445_j64330020159908_2_alg».proof.Proof.Spec
import Idealize.ShloMosaic.Lib.ValueIdx
import Idealize.ShloMosaic.Lib.ReduceAll
import Idealize.ShloMosaic.Lib.StableHlo.Predicate

noncomputable section

namespace Cert.PreRange

open Idealize.ShloMosaic Idealize.ShloMosaic.ValueIdx Idealize.SL.Sem
open Cert.PackedLinear

/-- The scalar shape has exactly one index. -/
local instance : Subsingleton Cert.Pre_finite_inputs.S_.Idx := ⟨fun a b => funext fun d => d.elim0⟩

/-- The printed predicate, at any arguments: if it evaluates to one, every entry of its last argument is in range.
    The predicate is a conjunction whose last conjunct is "for all entries, `−8192 ≤ v` and `v < 8192`"; the other
    conjuncts (tests on the floating-point arguments) are dropped unread. -/
theorem range_of_fn [Cert.Pre_finite_inputs.Facts] {F : FTy → Type} [FloatOps F]
    (a0 : FVec F Cert.Pre_finite_inputs.S256x8192 .f32) (a1 : IVec Cert.Pre_finite_inputs.S8192x2048 32)
    (a2 : IVec Cert.Pre_finite_inputs.S8192x6144 32) (a3 a4 : FVec F Cert.Pre_finite_inputs.S16x8192 .f32)
    (a5 a6 : FVec F Cert.Pre_finite_inputs.S48x8192 .f32) (a7 : FVec F Cert.Pre_finite_inputs.S8192 .f32)
    (a8 : IVec Cert.Pre_finite_inputs.S8192 32)
    (e : Cert.Pre_finite_inputs.fn (F := F) a0 a1 a2 a3 a4 a5 a6 a7 a8 ix0 = 1#1) (k : Fin 8192) :
    InRange (a8 (ix1 k)) := by
  dsimp only [Cert.Pre_finite_inputs.fn, Cert.Pre_finite_inputs.fn_part1, Cert.Pre_finite_inputs.fn_part2] at e
  -- the outer conjunction: keep its last conjunct, the "all entries" reduction of the range test
  have hall := (IntOp.andi_eq_one.1 e).2
  -- every entry of the reduced array is one
  have hk := Host.reduce_andi_all _ _ _ _ _ hall (ix1 k)
  -- the entry is the conjunction of the two comparisons against the broadcast bounds
  obtain ⟨hge, hlt⟩ := IntOp.andi_eq_one.1 hk
  exact ⟨hge, hlt⟩

/-- Under the precondition every entry of the index input is in range. -/
theorem range_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (k : Fin 8192) :
    InRange (m ((c.tc : Thread Cert.KernelIdeal.nD Cert.KernelIdeal.τ).loc Cert.KernelIdeal.main_arg8) (ix1 k)) :=
  range_of_fn _ _ _ _ _ _ _ _ _ (congrFun (h c) ix0) k

end Cert.PreRange

end
-- ==== Proof.KernelBody.lean ====
/-
  One grid point of the kernel: what the body leaves in the output block, as a function of the blocks it is handed.
  The body dequantises the 256 rows of integer codes it holds, tile of 128 columns by tile, into two scratch buffers
  (entry (o, k) is (code − zero[tile k, o]) · scale[tile k, o]), multiplies the permuted input against each of them
  (contracting the position k), adds the two products and then the bias row.

  The argument, in order. (1) Each scratch buffer is filled by one store per tile; every stored block, read at (a, j),
  is the dequantised code at column 128·t + j with tile t's zero point and scale, so the buffer read back is ONE function
  of its index (deqAt), whatever the order and grouping of the stores. (2) A product into the zero accumulator, read at
  (b, o), is the sum over the contracted position k of left[k, b] · right[o, k]. (3) The output entry is the two sums
  plus the bias entry, and the loads of the permuted input read rows k and 2048 + k of it: the specification's blockAt.
  No law beyond the definitions is used: the two sides are the same sums of the same products, term by term.
-/
import proofs.«402445_j64330020159908_2_alg».proof.Proof.Gen.KernelIdeal.Frame
import proofs.«402445_j64330020159908_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.BodyValue

open Cert.KernelIdeal Cert.KernelIdeal.Gen Idealize.ShloMosaic Idealize.ShloMosaic.TcCoe Idealize.ShloMosaic.ValueIdx
open Cert.PackedLinear
open Idealize.ShloMosaic.Tactic
open scoped BigOperators

/-! ## Layout reads at an index given by coordinates -/

section Layout
variable {α : Type}

/-- One column of a matrix with 256 rows, spread over 128 lanes, reads at (a, j) the matrix at (a, t). -/
theorem bcol_apply {n : Nat} (t : Nat) (X : (⟨2, ![256, n]⟩ : Shape).Idx → α)
    (hs : (⟨2, ![256, n]⟩ : Shape).Slices ![0, t] ⟨2, ![256, 1]⟩)
    (hb : (⟨2, ![256, 1]⟩ : Shape).Broadcasts ⟨2, ![256, 128]⟩) (a : Fin 256) (j : Fin 128) :
    broadcastTo ⟨2, ![256, 128]⟩ (extractStridedSlice ⟨2, ![256, 1]⟩ ![0, t] X hs) hb (ix2 a j)
      = X (ix2 a ⟨t, Nat.lt_of_lt_of_le (Nat.lt_succ_self t) (hs.2 1)⟩) := by
  refine (broadcastTo_apply _ hb (ix2 a j) (ix2 a (0 : Fin 1)) fun ax => ?_).trans ?_
  · match ax with
    | ⟨0, _⟩ => rfl
    | ⟨1, _⟩ => rfl
  · exact slice2_axis1_apply t X hs a (0 : Fin 1) _ rfl

/-- Through the rectangle that is the whole of a matrix, an index is itself. -/
theorem idx_whole2 {n0 n1 : Nat}
    (inb : ∀ ax, (![0, 0] : Fin 2 → Nat) ax + (⟨2, ![n0, n1]⟩ : Shape).size ax ≤ (⟨2, ![n0, n1]⟩ : Shape).size ax)
    (p : Fin n0) (q : Fin n1) :
    (Rect.unit (s := ⟨2, ![n0, n1]⟩) ![0, 0] (⟨2, ![n0, n1]⟩ : Shape).size inb).toLoadRect.idx (ix2 p q) = ix2 p q :=
  funext fun ax => Fin.ext (by
    match ax with
    | ⟨0, _⟩ => show 0 + 1 * p.val = p.val; omega
    | ⟨1, _⟩ => show 0 + 1 * q.val = q.val; omega)

/-- A load of the first M rows of a matrix reads at (k, b) the contents at (k, b). -/
theorem ld_rows0 {R M : Nat} (X : Vec Ideal ⟨2, ![R, 256]⟩ .bf16)
    (inb : ∀ ax, (![0, 0] : Fin 2 → Nat) ax + (⟨2, ![M, 256]⟩ : Shape).size ax ≤ (⟨2, ![R, 256]⟩ : Shape).size ax)
    (k : Fin M) (b : Fin 256) :
    View.ld (Val := Elt Ideal) X (Rect.unit (s := ⟨2, ![R, 256]⟩) ![0, 0] (⟨2, ![M, 256]⟩ : Shape).size inb) (ix2 k b)
      = X (ix2 ⟨k.val, Nat.lt_of_lt_of_le k.isLt (by have := inb 0; simpa using this)⟩ b) :=
  congrArg X (funext fun ax => Fin.ext (by
    match ax with
    | ⟨0, _⟩ => show 0 + 1 * k.val = k.val; omega
    | ⟨1, _⟩ => show 0 + 1 * b.val = b.val; omega))

/-- A load of M rows from row r0 on reads at (k, b) the contents at (r0 + k, b). -/
theorem ld_rows {R M : Nat} (r0 : Nat) (X : Vec Ideal ⟨2, ![R, 256]⟩ .bf16)
    (inb : ∀ ax, (![r0, 0] : Fin 2 → Nat) ax + (⟨2, ![M, 256]⟩ : Shape).size ax ≤ (⟨2, ![R, 256]⟩ : Shape).size ax)
    (k : Fin M) (b : Fin 256) :
    View.ld (Val := Elt Ideal) X (Rect.unit (s := ⟨2, ![R, 256]⟩) ![r0, 0] (⟨2, ![M, 256]⟩ : Shape).size inb) (ix2 k b)
      = X (ix2 ⟨r0 + k.val, Nat.lt_of_lt_of_le (Nat.add_lt_add_left k.isLt r0) (inb 0)⟩ b) :=
  congrArg X (funext fun ax => Fin.ext (by
    match ax with
    | ⟨0, _⟩ => show r0 + 1 * k.val = r0 + k.val; omega
    | ⟨1, _⟩ => show 0 + 1 * b.val = b.val; omega))

/-- The offsets of a load or store of a whole matrix are zero on both axes. -/
theorem hz2 : (![0, 0] : Fin 2 → Nat) = fun _ => 0 := by
  funext a; match a with | ⟨0, _⟩ => rfl | ⟨1, _⟩ => rfl

end Layout

/-! ## The dequantised codes as one function of the scratch index -/

/-- Entry (o, k) of a dequantised region of N = 128 * nt columns: the code as a real, minus the zero point of the tile
    that column k lies in, times that tile's scale. -/
def deqAt {N nt : Nat} (hN : N = 128 * nt) (q : IVec ⟨2, ![256, N]⟩ 32)
    (s z : (⟨2, ![nt, 256]⟩ : Shape).Idx → EReal) : (⟨2, ![256, N]⟩ : Shape).Idx → EReal :=
  fun y => ((FloatOps.sitofp (F := Ideal) .f32 (q y) : EReal) - z (ix2 (tile hN (y 1)) (y 0))) * s (ix2 (tile hN (y 1)) (y 0))

/-- A block of 128 columns starting at a column c that is a multiple of 128, whose entry (a, j) is the dequantised code
    at column c + j with the zero point and scale of tile c / 128, is the block of deqAt under that rectangle: every
    column c + j with j < 128 lies in tile c / 128. -/
theorem piece_ok {N nt : Nat} (hN : N = 128 * nt) (q : IVec ⟨2, ![256, N]⟩ 32)
    (s z : (⟨2, ![nt, 256]⟩ : Shape).Idx → EReal) (c : Nat) (ht : c / 128 < nt) (hc : c % 128 = 0)
    (inb : ∀ ax, (![0, c] : Fin 2 → Nat) ax + (⟨2, ![256, 128]⟩ : Shape).size ax ≤ (⟨2, ![256, N]⟩ : Shape).size ax)
    (w : (⟨2, ![256, 128]⟩ : Shape).Idx → EReal)
    (hw : ∀ (a : Fin 256) (j : Fin 128), w (ix2 a j)
        = ((FloatOps.sitofp (F := Ideal) .f32
              (q ((Rect.unit (s := ⟨2, ![256, N]⟩) ![0, c] (⟨2, ![256, 128]⟩ : Shape).size inb).emb (ix2 a j))) : EReal)
            - z (ix2 ⟨c / 128, ht⟩ a)) * s (ix2 ⟨c / 128, ht⟩ a))
    (x : (Rect.unit (s := ⟨2, ![256, N]⟩) ![0, c] (⟨2, ![256, 128]⟩ : Shape).size inb).shape.Idx) :
    w x = deqAt hN q s z ((Rect.unit (s := ⟨2, ![256, N]⟩) ![0, c] (⟨2, ![256, 128]⟩ : Shape).size inb).emb x) := by
  obtain ⟨a, j, rfl⟩ : ∃ (a : Fin 256) (j : Fin 128), x = ix2 a j := ⟨x 0, x 1, eq_ix2 x⟩
  rw [hw a j]
  unfold deqAt
  have e0 : (Rect.unit (s := ⟨2, ![256, N]⟩) ![0, c] (⟨2, ![256, 128]⟩ : Shape).size inb).emb (ix2 a j) 0 = a :=
    Fin.ext (by show 0 + 1 * a.val = a.val; omega)
  have e1 : tile hN ((Rect.unit (s := ⟨2, ![256, N]⟩) ![0, c] (⟨2, ![256, 128]⟩ : Shape).size inb).emb (ix2 a j) 1)
      = ⟨c / 128, ht⟩ := Fin.ext (by show (c + 1 * j.val) / 128 = c / 128; have := j.isLt; omega)
  rw [e0, e1]

/-- One stored tile is a block of deqAt. The tile's column offset is read off the goal; its tile number is the
    offset over 128. The stored value is opened down to the loads (however the body's arithmetic was cut into named
    pieces, it is the same chain: convert, subtract the broadcast zero column, multiply by the broadcast scale column,
    change format, recast to the same shape), each operation is read at (a, j), and the two transposed columns are read
    at (a, t) as the untransposed arrays at (t, a). hq, hs, hz: the memrefs of the codes, the scales and the zero points
    are whole; S: the shape of the scales and zero points. -/
local macro "deq_tile" hq:ident hs:ident hz:ident S:ident : tactic => `(tactic| (
  refine piece_ok _ _ _ _ _ (by decide) (by decide) (by decide) _ (fun a j => ?_)
  simp only [k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, View.readAt_eq_ld, Memref.IsWhole.read_unread $hq, Memref.IsWhole.read_unread $hs,
    Memref.IsWhole.read_unread $hz, View.ld_unit_zero (S := $S) hz2, shapeCast_self, truncf_apply, mulf_apply,
    subf_apply, sitofp_apply, bcol_apply]
  rw [transpose_ix2_apply, transpose_ix2_apply]
  rfl))

/-- The high scratch after its 16 tile stores, at any index: the dequantised high region. -/
theorem scratchHigh_canon (c : Dev nD) (arg1 : Memref sig .tc .vmem S256x2048 .i32) (harg1 : arg1.IsWhole)
    (arg3 : Memref sig .tc .vmem S16x256 .f32) (harg3 : arg3.IsWhole) (arg4 : Memref sig .tc .vmem S16x256 .f32) (harg4 : arg4.IsWhole)
    (x0 : Vec Ideal S256x2048 .i32) (x2 : Vec Ideal S16x256 .f32) (x3 : Vec Ideal S16x256 .f32) (y : S256x2048.Idx) :
    View.canon (kernelRun0_A.sl.HS0_16 c arg1 harg1 arg3 harg3 arg4 harg4 x0 x2 x3) y
      = deqAt (N := 2048) (nt := 16) rfl x0 x2 x3 y := by
  refine View.canon_apply_of_pieces (Val := Elt Ideal) (S := S256x2048) (e := .bf16)
    (deqAt (N := 2048) (nt := 16) rfl x0 x2 x3) _ ?_ y
    (View.cover_of_tiledL (s := S256x2048) _ S256x128.size (by sl_kernel_rfl) y)
  sl_unfold_run_names
  repeat (refine List.forall_mem_cons.2 ⟨by deq_tile harg1 harg3 harg4 S16x256, ?_⟩)
  exact List.forall_mem_nil _

/-- The low scratch after its 48 tile stores, at any index: the dequantised low region. -/
theorem scratchLow_canon (c : Dev nD) (arg2 : Memref sig .tc .vmem S256x6144 .i32) (harg2 : arg2.IsWhole)
    (arg5 : Memref sig .tc .vmem S48x256 .f32) (harg5 : arg5.IsWhole) (arg6 : Memref sig .tc .vmem S48x256 .f32) (harg6 : arg6.IsWhole)
    (x1 : Vec Ideal S256x6144 .i32) (x4 : Vec Ideal S48x256 .f32) (x5 : Vec Ideal S48x256 .f32) (y : S256x6144.Idx) :
    View.canon (kernelRun0_A.sl.HS1_48 c arg2 harg2 arg5 harg5 arg6 harg6 x1 x4 x5) y
      = deqAt (N := 6144) (nt := 48) rfl x1 x4 x5 y := by
  refine View.canon_apply_of_pieces (Val := Elt Ideal) (S := S256x6144) (e := .bf16)
    (deqAt (N := 6144) (nt := 48) rfl x1 x4 x5) _ ?_ y
    (View.cover_of_tiledL (s := S256x6144) _ S256x128.size (by sl_kernel_rfl) y)
  sl_unfold_run_names
  repeat (refine List.forall_mem_cons.2 ⟨by deq_tile harg2 harg5 harg6 S48x256, ?_⟩)
  exact List.forall_mem_nil _

/-! ## The two products at an index

A product's left operand [positions × batch rows] is contracted on its axis 0 and the right operand
[outputs × positions] on its axis 1, so the result's axis 0 is the left operand's axis 1 and its axis 1 the right
operand's axis 0. Per record: where each operand axis reads its coordinate from (four facts), then the sum re-indexed
through the one contracted coordinate. -/

/-! ### Against the high region (2048 positions) -/

theorem lhs_hi_0 (i : S256x256.Idx) (q : dot_S2048x256_S256x2048_S256x256_0_1_1_0_n_n.contr.Idx) :
    (dot_S2048x256_S256x2048_S256x256_0_1_1_0_n_n.lhsIdx i q 0).val = (q ⟨0, by decide⟩).val :=
  dot_S2048x256_S256x2048_S256x256_0_1_1_0_n_n.lhsIdx_val_of_single rfl i q

theorem lhs_hi_1 (i : S256x256.Idx) (q : dot_S2048x256_S256x2048_S256x256_0_1_1_0_n_n.contr.Idx) :
    (dot_S2048x256_S256x2048_S256x256_0_1_1_0_n_n.lhsIdx i q 1).val = (i 0).val := by
  unfold DotDims.lhsIdx
  rw [dif_neg (show ¬(1 : Fin S2048x256.rank) ∈ dot_S2048x256_S256x2048_S256x256_0_1_1_0_n_n.lhsBatch by decide),
    dif_pos (show (1 : Fin S2048x256.rank) ∈ dot_S2048x256_S256x2048_S256x256_0_1_1_0_n_n.lhsNonContracting by decide)]
  rfl

theorem rhs_hi_0 (i : S256x256.Idx) (q : dot_S2048x256_S256x2048_S256x256_0_1_1_0_n_n.contr.Idx) :
    (dot_S2048x256_S256x2048_S256x256_0_1_1_0_n_n.rhsIdx i q 0).val = (i 1).val := by
  unfold DotDims.rhsIdx
  rw [dif_neg (show ¬(0 : Fin S256x2048.rank) ∈ dot_S2048x256_S256x2048_S256x256_0_1_1_0_n_n.rhsBatch by decide),
    dif_pos (show (0 : Fin S256x2048.rank) ∈ dot_S2048x256_S256x2048_S256x256_0_1_1_0_n_n.rhsNonContracting by decide)]
  rfl

theorem rhs_hi_1 (i : S256x256.Idx) (q : dot_S2048x256_S256x2048_S256x256_0_1_1_0_n_n.contr.Idx) :
    (dot_S2048x256_S256x2048_S256x256_0_1_1_0_n_n.rhsIdx i q 1).val = (q ⟨0, by decide⟩).val :=
  dot_S2048x256_S256x2048_S256x256_0_1_1_0_n_n.rhsIdx_val_of_single rfl i q

/-- Into the zero accumulator, entry (b, o) of the product is the sum over the 2048 positions k of A[k, b] * B[o, k]. -/
theorem matmul_hi_apply (A : FVec Ideal S2048x256 .bf16) (B : FVec Ideal S256x2048 .bf16) (b o : Fin 256) :
    matmul dot_S2048x256_S256x2048_S256x256_0_1_1_0_n_n none A B (constant (F := Ideal) S256x256 .f32 0x00000000#32) (ix2 b o)
      = ∑ k : Fin 2048, A (ix2 k b) * B (ix2 o k) := by
  show FloatOps.matmul _ none A B (constant (F := Ideal) S256x256 .f32 0x00000000#32) (ix2 b o) = _
  rw [Ideal.matmul_constant_zero_apply,
    ← Equiv.sum_comp (contrEquiv1 dot_S2048x256_S256x2048_S256x256_0_1_1_0_n_n 2048 rfl rfl).symm]
  refine Finset.sum_congr rfl fun k _ => ?_
  have hk := contrEquiv1_symm_val dot_S2048x256_S256x2048_S256x256_0_1_1_0_n_n 2048 rfl rfl k
  have el : dot_S2048x256_S256x2048_S256x256_0_1_1_0_n_n.lhsIdx (ix2 b o)
      ((contrEquiv1 dot_S2048x256_S256x2048_S256x256_0_1_1_0_n_n 2048 rfl rfl).symm k) = ix2 k b :=
    funext fun a => Fin.ext (by
      match a with
      | ⟨0, _⟩ => exact (lhs_hi_0 _ _).trans hk
      | ⟨1, _⟩ => exact lhs_hi_1 _ _)
  have er : dot_S2048x256_S256x2048_S256x256_0_1_1_0_n_n.rhsIdx (ix2 b o)
      ((contrEquiv1 dot_S2048x256_S256x2048_S256x256_0_1_1_0_n_n 2048 rfl rfl).symm k) = ix2 o k :=
    funext fun a => Fin.ext (by
      match a with
      | ⟨0, _⟩ => exact rhs_hi_0 _ _
      | ⟨1, _⟩ => exact (rhs_hi_1 _ _).trans hk)
  rw [el, er]

/-! ### Against the low region (6144 positions) -/

theorem lhs_lo_0 (i : S256x256.Idx) (q : dot_S6144x256_S256x6144_S256x256_0_1_1_0_n_n.contr.Idx) :
    (dot_S6144x256_S256x6144_S256x256_0_1_1_0_n_n.lhsIdx i q 0).val = (q ⟨0, by decide⟩).val :=
  dot_S6144x256_S256x6144_S256x256_0_1_1_0_n_n.lhsIdx_val_of_single rfl i q

theorem lhs_lo_1 (i : S256x256.Idx) (q : dot_S6144x256_S256x6144_S256x256_0_1_1_0_n_n.contr.Idx) :
    (dot_S6144x256_S256x6144_S256x256_0_1_1_0_n_n.lhsIdx i q 1).val = (i 0).val := by
  unfold DotDims.lhsIdx
  rw [dif_neg (show ¬(1 : Fin S6144x256.rank) ∈ dot_S6144x256_S256x6144_S256x256_0_1_1_0_n_n.lhsBatch by decide),
    dif_pos (show (1 : Fin S6144x256.rank) ∈ dot_S6144x256_S256x6144_S256x256_0_1_1_0_n_n.lhsNonContracting by decide)]
  rfl

theorem rhs_lo_0 (i : S256x256.Idx) (q : dot_S6144x256_S256x6144_S256x256_0_1_1_0_n_n.contr.Idx) :
    (dot_S6144x256_S256x6144_S256x256_0_1_1_0_n_n.rhsIdx i q 0).val = (i 1).val := by
  unfold DotDims.rhsIdx
  rw [dif_neg (show ¬(0 : Fin S256x6144.rank) ∈ dot_S6144x256_S256x6144_S256x256_0_1_1_0_n_n.rhsBatch by decide),
    dif_pos (show (0 : Fin S256x6144.rank) ∈ dot_S6144x256_S256x6144_S256x256_0_1_1_0_n_n.rhsNonContracting by decide)]
  rfl

theorem rhs_lo_1 (i : S256x256.Idx) (q : dot_S6144x256_S256x6144_S256x256_0_1_1_0_n_n.contr.Idx) :
    (dot_S6144x256_S256x6144_S256x256_0_1_1_0_n_n.rhsIdx i q 1).val = (q ⟨0, by decide⟩).val :=
  dot_S6144x256_S256x6144_S256x256_0_1_1_0_n_n.rhsIdx_val_of_single rfl i q

/-- Into the zero accumulator, entry (b, o) of the product is the sum over the 6144 positions k of A[k, b] * B[o, k]. -/
theorem matmul_lo_apply (A : FVec Ideal S6144x256 .bf16) (B : FVec Ideal S256x6144 .bf16) (b o : Fin 256) :
    matmul dot_S6144x256_S256x6144_S256x256_0_1_1_0_n_n none A B (constant (F := Ideal) S256x256 .f32 0x00000000#32) (ix2 b o)
      = ∑ k : Fin 6144, A (ix2 k b) * B (ix2 o k) := by
  show FloatOps.matmul _ none A B (constant (F := Ideal) S256x256 .f32 0x00000000#32) (ix2 b o) = _
  rw [Ideal.matmul_constant_zero_apply,
    ← Equiv.sum_comp (contrEquiv1 dot_S6144x256_S256x6144_S256x256_0_1_1_0_n_n 6144 rfl rfl).symm]
  refine Finset.sum_congr rfl fun k _ => ?_
  have hk := contrEquiv1_symm_val dot_S6144x256_S256x6144_S256x256_0_1_1_0_n_n 6144 rfl rfl k
  have el : dot_S6144x256_S256x6144_S256x256_0_1_1_0_n_n.lhsIdx (ix2 b o)
      ((contrEquiv1 dot_S6144x256_S256x6144_S256x256_0_1_1_0_n_n 6144 rfl rfl).symm k) = ix2 k b :=
    funext fun a => Fin.ext (by
      match a with
      | ⟨0, _⟩ => exact (lhs_lo_0 _ _).trans hk
      | ⟨1, _⟩ => exact lhs_lo_1 _ _)
  have er : dot_S6144x256_S256x6144_S256x256_0_1_1_0_n_n.rhsIdx (ix2 b o)
      ((contrEquiv1 dot_S6144x256_S256x6144_S256x256_0_1_1_0_n_n 6144 rfl rfl).symm k) = ix2 o k :=
    funext fun a => Fin.ext (by
      match a with
      | ⟨0, _⟩ => exact rhs_lo_0 _ _
      | ⟨1, _⟩ => exact (rhs_lo_1 _ _).trans hk)
  rw [el, er]

/-! ## The output block -/

/-- The output block after the body, entry by entry: the two contracted products over the dequantised codes plus the
    bias entry — Cert.PackedLinear.blockAt of the blocks the body was handed. The output is written by one store of the
    whole block; what it stores is the sum of the two products and the broadcast bias row; each product's right operand
    is a scratch buffer loaded whole after its tile stores, which reads back as deqAt; its left operand is the rows
    0 … 2047, respectively 2048 … 8191, of the permuted input. -/
theorem body_eq (c : Dev nD) (i : grid0.Coords) (arg1 : Memref sig .tc .vmem S256x2048 .i32) (harg1 : arg1.IsWhole) (arg2 : Memref sig .tc .vmem S256x6144 .i32) (harg2 : arg2.IsWhole) (arg3 : Memref sig .tc .vmem S16x256 .f32) (harg3 : arg3.IsWhole) (arg4 : Memref sig .tc .vmem S16x256 .f32) (harg4 : arg4.IsWhole) (arg5 : Memref sig .tc .vmem S48x256 .f32) (harg5 : arg5.IsWhole) (arg6 : Memref sig .tc .vmem S48x256 .f32) (harg6 : arg6.IsWhole) (arg7 : Memref sig .tc .vmem S1x256 .f32) (harg7 : arg7.IsWhole) (arg8 : Memref sig .tc .vmem S8192x256 .bf16) (harg8 : arg8.IsWhole) (arg9 : Memref sig .tc .vmem S256x256 .f32) (harg9 : arg9.IsWhole) (arg10 : Memref sig .tc .vmem S256x2048 .bf16) (harg10 : arg10.IsWhole) (arg11 : Memref sig .tc .vmem S256x6144 .bf16) (harg11 : arg11.IsWhole)
    (x0 : Vec Ideal S256x2048 .i32) (x1 : Vec Ideal S256x6144 .i32) (x2 : Vec Ideal S16x256 .f32) (x3 : Vec Ideal S16x256 .f32) (x4 : Vec Ideal S48x256 .f32) (x5 : Vec Ideal S48x256 .f32) (x6 : Vec Ideal S1x256 .f32) (x7 : Vec Ideal S8192x256 .bf16)
    (b : Fin 256) (o : Fin 256) :
    out0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 x7 (ix2 b o)
      = blockAt x0 x1 x2 x3 x4 x5 x6 x7 b o := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 x0 x1 x2 x3 x4 x5 x6 x7)]
  unfold kernelRun0_A
  dsimp only
  rw [View.canon_unit_zero (S := S256x256) hz2]
  unfold kernelRun0_A.sl.r_27 kernelRun0_A.sl.r_28 kernelRun0_A.sl.cst_224 kernelRun0_A.sl.v780 kernelRun0_A.sl.v782
  simp only [k0_pay1, k0_pay91, k0_pay92, addf_apply, shapeCast_self, matmul_hi_apply, matmul_lo_apply,
    View.readAt_eq_ld, harg7.read_unread, harg8.read_unread, View.ld_unit_zero (S := S1x256) hz2,
    broadcastTo_1b_ab_apply, View.readCov_eq_canon']
  unfold blockAt
  refine congrArg₂ (· + ·) (congrArg₂ (· + ·) (Finset.sum_congr rfl fun k _ => ?_) (Finset.sum_congr rfl fun k _ => ?_)) rfl
  · rw [idx_whole2, scratchHigh_canon, ld_rows0]
    rfl
  · rw [idx_whole2, scratchLow_canon, ld_rows]
    rfl

end Cert.KernelIdeal.BodyValue

end
-- ==== Proof.SpecBlock.lean ====
/-
  A block of 256 outputs is the corresponding part of the whole result. Output block `t` (outputs `256·t … 256·t + 255`)
  is computed from rows `256·t + o` of the two code arrays, columns `256·t + o` of the scale and zero-point tables, entries
  `256·t + o` of the bias, and the whole permuted input; when each of these blocks is that part of its array, and the
  permuted input is the input's columns in the order the indices give, the block's entry `(b, o)` is the result's entry
  `(b, 256·t + o)`: both are the same two sums and the same bias entry, term by term.
-/
import proofs.«402445_j64330020159908_2_alg».proof.Proof.Spec

noncomputable section

open scoped BigOperators

namespace Cert.PackedLinear

open Idealize.ShloMosaic Idealize.ShloMosaic.ValueIdx

/-- Output `o` of block `t`, as an output of the layer. -/
def blockOut (t : Fin 32) (o : Fin 256) : Fin 8192 := ⟨256 * t.val + o.val, by have := t.isLt; have := o.isLt; omega⟩

theorem blockAt_eq_outAt (x : (⟨2, ![256, 8192]⟩ : Shape).Idx → EReal)
    (Wh : IVec ⟨2, ![8192, 2048]⟩ 32) (Wl : IVec ⟨2, ![8192, 6144]⟩ 32)
    (sh zh : (⟨2, ![16, 8192]⟩ : Shape).Idx → EReal) (sl zl : (⟨2, ![48, 8192]⟩ : Shape).Idx → EReal)
    (bias : (⟨1, ![8192]⟩ : Shape).Idx → EReal) (ci : IVec ⟨1, ![8192]⟩ 32)
    (q0 : IVec ⟨2, ![256, 2048]⟩ 32) (q1 : IVec ⟨2, ![256, 6144]⟩ 32)
    (s0 z0 : (⟨2, ![16, 256]⟩ : Shape).Idx → EReal) (s1 z1 : (⟨2, ![48, 256]⟩ : Shape).Idx → EReal)
    (bs : (⟨2, ![1, 256]⟩ : Shape).Idx → EReal) (xp : (⟨2, ![8192, 256]⟩ : Shape).Idx → EReal)
    (t : Fin 32)
    (hq0 : ∀ (o : Fin 256) (k : Fin 2048), q0 (ix2 o k) = Wh (ix2 (blockOut t o) k))
    (hq1 : ∀ (o : Fin 256) (k : Fin 6144), q1 (ix2 o k) = Wl (ix2 (blockOut t o) k))
    (hs0 : ∀ (n : Fin 16) (o : Fin 256), s0 (ix2 n o) = sh (ix2 n (blockOut t o)))
    (hz0 : ∀ (n : Fin 16) (o : Fin 256), z0 (ix2 n o) = zh (ix2 n (blockOut t o)))
    (hs1 : ∀ (n : Fin 48) (o : Fin 256), s1 (ix2 n o) = sl (ix2 n (blockOut t o)))
    (hz1 : ∀ (n : Fin 48) (o : Fin 256), z1 (ix2 n o) = zl (ix2 n (blockOut t o)))
    (hbs : ∀ o : Fin 256, bs (ix2 (0 : Fin 1) o) = bias (ix1 (blockOut t o)))
    (hxp : ∀ (k : Fin 8192) (b : Fin 256), xp (ix2 k b) = x (ix2 b (col ci k)))
    (b : Fin 256) (o : Fin 256) :
    blockAt q0 q1 s0 z0 s1 z1 bs xp b o = outAt x Wh Wl sh zh sl zl bias ci b (blockOut t o) := by
  unfold blockAt outAt weight
  simp only [hq0, hq1, hs0, hz0, hs1, hz1, hbs, hxp]

end Cert.PackedLinear

end
-- ==== Proof.LibGather.lean ====
/-
  Two gathers read at an index. A gather of whole ROWS of a matrix `[N, C]` at `R` row numbers (start indices
  `[R, 1]`, result `[R, C]`): result entry `(r, j)` is the operand at row `idx[r, 0]`, column `j`. A gather of whole
  COLUMNS of a matrix `[B, N]` at `R` column numbers (result `[B, R]`): result entry `(b, r)` is the operand at row `b`,
  column `idx[r, 0]`. In both the start index is read as a signed integer and clamped into the axis, `[0, N − 1]`, as
  a gather clamps every start index; so the result is defined for every index word.
-/
import Idealize.ShloMosaic.PureOps.Ideal
import Idealize.ShloMosaic.Lib.ValueIdx

noncomputable section

namespace Cert.PackedLinear

open Idealize.ShloMosaic Idealize.ShloMosaic.ValueIdx

variable {α : Type}

/-- Among the axes `[0, 1]` with axis `0` removed, axis `1` stands first. -/
private theorem idxOf_one_drop_zero :
    List.idxOf (1 : Fin 2) ((List.finRange 2).filter (· ∉ ([0] ++ [] : List (Fin 2)))) = 0 := by decide

/-- Among the axes `[0, 1]` with axis `1` removed, axis `0` stands first. -/
private theorem idxOf_zero_drop_one :
    List.idxOf (0 : Fin 2) ((List.finRange 2).filter (· ∉ ([1] ++ [] : List (Fin 2)))) = 0 := by decide

/-- Dimension numbers of the row gather: the result's axis 1 is the offset axis, the operand's axis 0 is collapsed and
    is the one the start index names, each slice is one whole row. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather at `(r, j)`: the operand's row `idx[r, 0]` (read signed, clamped into `[0, N − 1]`), column `j`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (j : Fin C) :
    Host.gather (rowDims N C R wf) x idx (ix2 r j)
      = x (ix2 (⟨min (idx (ix2 r (0 : Fin 1))).toInt.toNat (N - 1), by omega⟩ : Fin N) j) := by
  -- The gather reads the operand at an index built axis by axis: clamped start + batching coordinate + offset
  -- coordinate. Compare that index with the claimed one on each of the operand's two axes.
  unfold Host.gather
  congr 1
  funext a
  match a with
  | ⟨0, _⟩ =>
    -- Axis 0 is the gathered axis: it is collapsed (offset coordinate 0) and not a batching axis (batching
    -- coordinate 0), so the coordinate is the start alone, the index word at `(r, 0)` clamped into `[0, N − 1]`.
    refine Fin.ext ?_
    show (rowDims N C R wf).start (ix2 r j) idx 0 + (rowDims N C R wf).batchCoord (ix2 r j) 0
        + (rowDims N C R wf).offCoord (ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    -- the start-indices position read for result `(r, j)` is `(r, 0)`: the batch coordinate `r`, then component 0
    have hsi : (rowDims N C R wf).siIdx (ix2 r j) ⟨List.idxOf (0 : Fin 2) (rowDims N C R wf).startIndexMap,
        List.idxOf_lt_length_iff.2 (List.mem_singleton.mpr rfl)⟩ = ix2 r (0 : Fin 1) := by
      funext c; refine Fin.ext ?_
      match c with
      | ⟨0, _⟩ => rfl
      | ⟨1, _⟩ => rfl
    rw [hsi]
    rfl
  | ⟨1, _⟩ =>
    -- Axis 1 is kept whole: no start index names it (start 0), it is not a batching axis, and its offset
    -- coordinate is the result's coordinate on the offset axis, `j`.
    refine Fin.ext ?_
    show (rowDims N C R wf).start (ix2 r j) idx 1 + (rowDims N C R wf).batchCoord (ix2 r j) 1
        + (rowDims N C R wf).offCoord (ix2 r j) 1 = _
    have hmap : (1 : Fin 2) ∉ (rowDims N C R wf).startIndexMap := by
      show (1 : Fin 2) ∉ ([0] : List (Fin 2)); decide
    have hkept : (1 : Fin 2) ∈ (rowDims N C R wf).sKept :=
      (GatherDims.mem_sKept _ _).mpr ⟨by show (1 : Fin 2) ∉ ([0] : List (Fin 2)); decide, List.not_mem_nil⟩
    rw [GatherDims.batchCoord_eq_zero _ _ _ List.not_mem_nil]
    unfold GatherDims.start
    rw [dif_neg hmap]
    unfold GatherDims.offCoord
    rw [dif_pos hkept]
    have hi : List.idxOf (1 : Fin 2) (rowDims N C R wf).sKept = 0 := idxOf_one_drop_zero
    -- the one offset axis of the result is axis 1, where `(r, j)` has coordinate `j`
    have key : ∀ (k : Nat) (hk : k < ([1] : List (Fin 2)).length), k = 0 →
        ((ix2 r j) (([1] : List (Fin 2))[k]'hk)).val = j.val := by
      intro k hk h; subst h; rfl
    simp only [Nat.zero_add]
    exact key _ _ hi

/-- Dimension numbers of the column gather: the result's axis 0 is the offset axis, the operand's axis 1 is collapsed
    and is the one the start index names, each slice is one whole column. -/
abbrev colDims (B N R : Nat)
    (wf : GatherDims.WF ⟨2, ![B, N]⟩ ⟨2, ![R, 1]⟩ ⟨2, ![B, R]⟩ [0] [1] [] [1] [] 1 ![B, 1]) :
    GatherDims ⟨2, ![B, N]⟩ ⟨2, ![R, 1]⟩ ⟨2, ![B, R]⟩ where
  offsetDims := [0]
  collapsedSliceDims := [1]
  operandBatchingDims := []
  startIndicesBatchingDims := []
  startIndexMap := [1]
  indexVectorDim := 1
  sliceSizes := ![B, 1]
  wf := wf

/-- The column gather at `(b, r)`: the operand's row `b`, column `idx[r, 0]` (read signed, clamped into `[0, N − 1]`). -/
theorem gather_cols_apply {B N R w : Nat} (hN : 0 < N)
    (wf : GatherDims.WF ⟨2, ![B, N]⟩ ⟨2, ![R, 1]⟩ ⟨2, ![B, R]⟩ [0] [1] [] [1] [] 1 ![B, 1])
    (x : (⟨2, ![B, N]⟩ : Shape).Idx → α) (idx : IVec ⟨2, ![R, 1]⟩ w) (b : Fin B) (r : Fin R) :
    Host.gather (colDims B N R wf) x idx (ix2 b r)
      = x (ix2 b (⟨min (idx (ix2 r (0 : Fin 1))).toInt.toNat (N - 1), by omega⟩ : Fin N)) := by
  -- As for rows, with the two operand axes in the other roles.
  unfold Host.gather
  congr 1
  funext a
  match a with
  | ⟨0, _⟩ =>
    -- Axis 0 is kept whole: start 0, batching coordinate 0, offset coordinate the result's coordinate on the
    -- offset axis, `b`.
    refine Fin.ext ?_
    show (colDims B N R wf).start (ix2 b r) idx 0 + (colDims B N R wf).batchCoord (ix2 b r) 0
        + (colDims B N R wf).offCoord (ix2 b r) 0 = _
    have hmap : (0 : Fin 2) ∉ (colDims B N R wf).startIndexMap := by
      show (0 : Fin 2) ∉ ([1] : List (Fin 2)); decide
    have hkept : (0 : Fin 2) ∈ (colDims B N R wf).sKept :=
      (GatherDims.mem_sKept _ _).mpr ⟨by show (0 : Fin 2) ∉ ([1] : List (Fin 2)); decide, List.not_mem_nil⟩
    rw [GatherDims.batchCoord_eq_zero _ _ _ List.not_mem_nil]
    unfold GatherDims.start
    rw [dif_neg hmap]
    unfold GatherDims.offCoord
    rw [dif_pos hkept]
    have hi : List.idxOf (0 : Fin 2) (colDims B N R wf).sKept = 0 := idxOf_zero_drop_one
    -- the one offset axis of the result is axis 0, where `(b, r)` has coordinate `b`
    have key : ∀ (k : Nat) (hk : k < ([0] : List (Fin 2)).length), k = 0 →
        ((ix2 b r) (([0] : List (Fin 2))[k]'hk)).val = b.val := by
      intro k hk h; subst h; rfl
    simp only [Nat.zero_add]
    exact key _ _ hi
  | ⟨1, _⟩ =>
    -- Axis 1 is the gathered axis: collapsed and not batching, so the coordinate is the clamped start, read off
    -- the index word at `(r, 0)` (the result's one batch axis is axis 1, where `(b, r)` has coordinate `r`).
    refine Fin.ext ?_
    show (colDims B N R wf).start (ix2 b r) idx 1 + (colDims B N R wf).batchCoord (ix2 b r) 1
        + (colDims B N R wf).offCoord (ix2 b r) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims B N R wf).startIndexMap from List.mem_singleton.mpr rfl)]
    have hsi : (colDims B N R wf).siIdx (ix2 b r) ⟨List.idxOf (1 : Fin 2) (colDims B N R wf).startIndexMap,
        List.idxOf_lt_length_iff.2 (List.mem_singleton.mpr rfl)⟩ = ix2 r (0 : Fin 1) := by
      funext c; refine Fin.ext ?_
      match c with
      | ⟨0, _⟩ => rfl
      | ⟨1, _⟩ => rfl
    rw [hsi]
    rfl

end Cert.PackedLinear

end
-- ==== Proof.KernelHost.lean ====
/-
  The two arrays the kernel's host prefix prepares, as functions of the arguments. The permuted input `xp[k, b]`:
  the input is transposed, its rows are gathered at the wrapped indices, and an entry whose wrapped index lies
  outside `[0, 8191]` is replaced by a fill word; when every index is in range no entry is replaced, and
  `xp[k, b] = x[b, col k]`. The bias as one row, `bias2d[0, o] = bias[o]`.
-/
import proofs.«402445_j64330020159908_2_alg».proof.Proof.Gen.KernelIdeal.Frame
import proofs.«402445_j64330020159908_2_alg».proof.Proof.Spec
import proofs.«402445_j64330020159908_2_alg».proof.Proof.LibGather
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostValue

open Cert.KernelIdeal Cert.KernelIdeal.Gen Idealize.ShloMosaic Idealize.ShloMosaic.TcCoe Idealize.ShloMosaic.ValueIdx Idealize.SL.Sem
open Cert.PackedLinear

variable (m : (ℓ : Loc nD τ sig) → Buf (Elt Ideal) ℓ)

/-! ## Signed 32-bit words: an index in range, wrapped once, lies in the axis -/

private theorem ofBool_eq_one (b : Bool) : BitVec.ofBool b = 1#1 ↔ b = true := by cases b <;> decide

/-- For `−8192 ≤ v < 8192` (signed), the word `if v < 0 then v + 8192 else v` passes both tests `0 ≤ ·` and `· ≤ 8191`. -/
theorem wrap_in_axis (v : BitVec 32) (hv : InRange v) :
    IntOp.cmpi .sge (wrap v) 0#32 = 1#1 ∧ IntOp.cmpi .sle (wrap v) 8191#32 = 1#1 := by
  obtain ⟨h1, h2⟩ := hv
  have c1 : (4294959104#32 : BitVec 32).toInt = -8192 := by decide
  have c2 : (8192#32 : BitVec 32).toInt = 8192 := by decide
  have c3 : (0#32 : BitVec 32).toInt = 0 := by decide
  have c4 : (8191#32 : BitVec 32).toInt = 8191 := by decide
  simp only [IntOp.cmpi, ofBool_eq_one, BitVec.sle, BitVec.slt, decide_eq_true_eq, c1, c2] at h1 h2
  have hsel : ∀ (cnd : BitVec 1) (a b : BitVec 32), Scalar.select cnd a b = if cnd = 1#1 then a else b :=
    fun _ _ _ => rfl
  unfold wrap
  rw [hsel]
  by_cases hneg : v.toInt < 0
  · -- a negative index: the sum `v + 8192` does not wrap, and lies in `[0, 8191]`
    have hc : IntOp.cmpi .slt v 0#32 = 1#1 := by
      simp only [IntOp.cmpi, ofBool_eq_one, BitVec.slt, decide_eq_true_eq, c3]; exact hneg
    rw [if_pos hc]
    have hadd : (IntOp.addi v 8192#32).toInt = v.toInt + 8192 := by
      have hp : ((2 ^ 32 : ℕ) : ℤ) = 4294967296 := by norm_num
      unfold IntOp.addi
      rw [BitVec.toInt_add, c2, Int.bmod_def, hp]
      split <;> omega
    simp only [IntOp.cmpi, ofBool_eq_one, BitVec.sle, decide_eq_true_eq, c3, c4, hadd]
    omega
  · -- a non-negative index is kept
    have hc : ¬ IntOp.cmpi .slt v 0#32 = 1#1 := by
      simp only [IntOp.cmpi, ofBool_eq_one, BitVec.slt, decide_eq_true_eq, c3]; exact hneg
    rw [if_neg hc]
    simp only [IntOp.cmpi, ofBool_eq_one, BitVec.sle, decide_eq_true_eq, c3, c4]
    omega

/-- A left fold of `and` from `1` over words that are all `1` is `1`. -/
theorem foldl_andi_ones {β : Type} (g : β → BitVec 1) (hg : ∀ n, g n = 1#1) (l : List β) :
    l.foldl (fun r n => IntOp.andi r (g n)) 1#1 = 1#1 := by
  have h11 : IntOp.andi (1#1 : BitVec 1) 1#1 = 1#1 := by decide
  induction l with
  | nil => rfl
  | cons a l ih => rw [List.foldl_cons, hg a, h11]; exact ih

/-! ## The arrays the host prefix computes from the index array -/

/-- The index array wrapped once, entry by entry. -/
def wrapped (ci : IVec S8192 32) : IVec S8192 32 :=
  select (cmpi .slt ci (broadcastInDim S8192 ![] bcast_S_S8192 (constantI S_ 32 0#32)))
    (addi ci (broadcastInDim S8192 ![] bcast_S_S8192 (constantI S_ 32 8192#32))) ci

/-- The wrapped indices as a column of start indices. -/
def starts (ci : IVec S8192 32) : IVec S8192x1 32 :=
  broadcastInDim S8192x1 ![0] bcast_S8192_S8192x1_0 (wrapped ci)

/-- Entry by entry, whether a start index lies in `[0, 8191]`. -/
def inAxis (ci : IVec S8192 32) : IVec S8192x1 1 :=
  andi (cmpi .sge (starts ci) (broadcastInDim S8192x1 ![] bcast_S_S8192x1 (constantI S_ 32 0#32)))
    (cmpi .sle (starts ci)
      (broadcastInDim S8192x1 ![0, 1] bcast_S1x1_S8192x1_0_1
        (broadcastInDim S1x1 ![1] bcast_S1_S1x1_1 (constantI S1 32 8191#32))))

/-- Row by row, whether the row's start index lies in the axis: the `and` over the column's one entry. -/
def rowOk (ci : IVec S8192 32) : IVec S8192 1 :=
  Host.reduce IntOp.andi (inAxis ci) (constantI S_ 1 1#1) reducesTo_S8192x1_S8192_d1 h_S_

/-- A start index is the wrapped index of its row. -/
theorem starts_apply (ci : IVec S8192 32) (i : S8192x1.Idx) : starts ci i = wrap (ci (ix1 (i 0))) :=
  broadcastInDim_apply _ _ (wrapped ci) i (ix1 (i 0)) (fun a => match a with | ⟨0, _⟩ => rfl)

/-- With every index in range every start index lies in the axis. -/
theorem inAxis_apply (ci : IVec S8192 32) (hr : ∀ k : Fin 8192, InRange (ci (ix1 k))) (i : S8192x1.Idx) :
    inAxis ci i = 1#1 := by
  have h := wrap_in_axis (ci (ix1 (i 0))) (hr (i 0))
  show IntOp.andi (IntOp.cmpi .sge (starts ci i) 0#32) (IntOp.cmpi .sle (starts ci i) 8191#32) = 1#1
  rw [starts_apply, h.1, h.2]
  decide

/-- So every row passes. -/
theorem rowOk_apply (ci : IVec S8192 32) (hr : ∀ k : Fin 8192, InRange (ci (ix1 k))) (j : S8192.Idx) :
    rowOk ci j = 1#1 :=
  foldl_andi_ones (fun n => inAxis ci (S8192x1.rowMajor.symm n)) (fun n => inAxis_apply ci hr _) _

/-- The permuted input the region finds, as the operations' term: the transposed input's rows gathered at the start
    indices, a row whose start index is outside the axis replaced by the fill word, then narrowed to bf16. -/
theorem xperm_eq (c : Dev nD) :
    (V m c main_v2 : S8192x256.Idx → EReal)
      = truncf .bf16
          (select (broadcastInDim S8192x256 ![0] bcast_S8192_S8192x256_0 (rowOk (m ((c : Thread nD τ).loc main_arg8))))
            (Host.gather gather_S8192x256_S8192x1_S8192x256_1_0_n_n_0_1_1256
              (transpose S8192x256 [1, 0] (m ((c : Thread nD τ).loc main_arg0) : S256x8192.Idx → EReal)
                transposes_S256x8192_S8192x256_1_0)
              (starts (m ((c : Thread nD τ).loc main_arg8))))
            (broadcastInDim S8192x256 ![] bcast_S_S8192x256 (constant (F := Ideal) S_ .f32 0x7FC00000#32)))
          bitsLt_bf16_f32 := by
  dsimp only [Gen.V]
  simp only [Gen.hostOps0, Gen.hostOps0_1, Gen.hostOps0_2, List.flatten_cons, List.flatten_nil, List.append_nil,
    List.cons_append, List.nil_append]
  after_results_simp
  rfl

/-- With every index in range, the permuted input the region finds is the input's columns in the order the indices give. -/
theorem xperm_apply (c : Dev nD)
    (hr : ∀ k : Fin 8192, InRange (m ((c : Thread nD τ).loc main_arg8) (ix1 k))) (k : Fin 8192) (b : Fin 256) :
    V m c main_v2 (ix2 k b)
      = m ((c : Thread nD τ).loc main_arg0) (ix2 b (col (m ((c : Thread nD τ).loc main_arg8)) k)) := by
  refine (congrFun (xperm_eq m c) (ix2 k b)).trans ?_
  rw [truncf_apply, select_apply]
  -- the row passes the range test, so the gathered entry is kept
  have hok : broadcastInDim S8192x256 ![0] bcast_S8192_S8192x256_0 (rowOk (m ((c : Thread nD τ).loc main_arg8))) (ix2 k b)
      = 1#1 :=
    (broadcastInDim_apply _ _ (rowOk (m ((c : Thread nD τ).loc main_arg8))) (ix2 k b) (ix1 k)
      (fun a => match a with | ⟨0, _⟩ => rfl)).trans (rowOk_apply _ hr _)
  rw [hok, show ∀ (x y : EReal), Scalar.select (1#1) x y = x from fun _ _ => if_pos rfl]
  -- the gather reads the row the clamped start index names: the column `col k` of the input
  have hg : gather_S8192x256_S8192x1_S8192x256_1_0_n_n_0_1_1256
      = rowDims 8192 256 8192 gather_S8192x256_S8192x1_S8192x256_1_0_n_n_0_1_1256_wf := rfl
  rw [hg, gather_rows_apply (by norm_num)]
  have hrow : (col (m ((c : Thread nD τ).loc main_arg8)) k).val
      = min (starts (m ((c : Thread nD τ).loc main_arg8)) (ix2 k (0 : Fin 1))).toInt.toNat (8192 - 1) := by
    rw [starts_apply]; rfl
  -- and the transposed input at (column, row) is the input at (row, column)
  exact transpose_apply _ _ _ _ (ix2 b (col (m ((c : Thread nD τ).loc main_arg8)) k))
    (fun a => match a with | ⟨0, _⟩ => hrow | ⟨1, _⟩ => rfl)

/-- The bias row the region finds. -/
theorem bias_apply (c : Dev nD) (o : Fin 8192) :
    V m c main_v3 (ix2 (0 : Fin 1) o) = m ((c : Thread nD τ).loc main_arg7) (ix1 o) := by
  have e : (V m c main_v3 : S1x8192.Idx → EReal)
      = shapeCast S1x8192 (m ((c : Thread nD τ).loc main_arg7) : S8192.Idx → EReal) shapeCasts_S8192_S1x8192 := by
    dsimp only [Gen.V]
    simp only [Gen.hostOps0, Gen.hostOps0_1, Gen.hostOps0_2, List.flatten_cons, List.flatten_nil, List.append_nil,
      List.cons_append, List.nil_append]
    after_results
    rfl
  exact (congrFun e (ix2 (0 : Fin 1) o)).trans (shapeCast_a_1a_apply _ _ (0 : Fin 1) o)

end Cert.KernelIdeal.HostValue

end
-- ==== Proof.KernelValue.lean ====
/-
  The kernel's result array as one function of the argument arrays. The grid has 32 points; point `t` is handed rows
  `256·t …` of the two code arrays, columns `256·t …` of the four scale and zero-point tables, entries `256·t …` of the bias
  row, the whole permuted input, and writes back columns `256·t …` of the result. Each of those blocks is that part of
  its array (the windows' index maps, decided over the 32 points), so what point `t` writes back is block `t` of the
  layer's result; the 32 blocks tile the result array (column `j` lies in block `j / 256`), so after the run the array is
  the layer's result everywhere.
-/
import proofs.«402445_j64330020159908_2_alg».proof.Proof.Gen.KernelIdeal.Value
import proofs.«402445_j64330020159908_2_alg».proof.Proof.Spec
import proofs.«402445_j64330020159908_2_alg».proof.Proof.SpecBlock
import proofs.«402445_j64330020159908_2_alg».proof.Proof.KernelHost
import Idealize.ShloMosaic.Lib.ValueIdx
import Idealize.ShloMosaic.Lib.Pipeline.Value

set_option maxRecDepth 16384

noncomputable section

namespace Cert.KernelIdeal.ArrayValue

open Cert.KernelIdeal Cert.KernelIdeal.Gen Idealize.ShloMosaic Idealize.ShloMosaic.TcCoe Idealize.ShloMosaic.ValueIdx Idealize.SL.Sem
open Idealize.ShloMosaic.Pipeline (Dat)
open Cert.PackedLinear

variable (m : (ℓ : Loc nD τ sig) → Buf (Elt Ideal) ℓ) (ρ : Dev nD → PrngReg)

/-- The layer's result of the argument arrays as launched on core `c`. -/
def outArr (c : Dev nD) : S256x8192.Idx → EReal :=
  out (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8))

/-- A grid point as a block number. -/
def pt (t : Fin cfg0.N) : Fin 32 := ⟨t.val, t.isLt⟩

/-- The windows' index maps over the 32 points: the code arrays move along their rows with the point, the tables, the
    bias row and the result along their columns, the permuted input stays. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val
    ∧ win0_7.index t (0 : Fin 2) = 0 ∧ win0_7.index t (1 : Fin 2) = 0
    ∧ win0_8.index t (0 : Fin 2) = 0 ∧ win0_8.index t (1 : Fin 2) = t.val :=
  (by decide +kernel : ∀ t : Fin grid0.N, _)

/-! ## Each input block is that part of its array -/

theorem blk0 (c : Dev nD) (t : Fin cfg0.N) (o : Fin 256) (k : Fin 2048) :
    iblk m c 0 t (ix2 o k) = m ((c : Thread nD τ).loc main_arg1) (ix2 (blockOut (pt t) o) k) := by
  show V m c main_arg1 (((cfg0.win 0).blk t).view.emb (ix2 o k)) = _
  rw [V_main_arg1]
  obtain ⟨e0, e1, -⟩ := idx_facts t
  refine congrArg _ (funext fun a => Fin.ext ?_)
  match a with
  | ⟨0, _⟩ => show win0_0.index t (0 : Fin 2) * 256 + 1 * o.val = 256 * t.val + o.val; omega
  | ⟨1, _⟩ => show win0_0.index t (1 : Fin 2) * 2048 + 1 * k.val = k.val; omega

theorem blk1 (c : Dev nD) (t : Fin cfg0.N) (o : Fin 256) (k : Fin 6144) :
    iblk m c 1 t (ix2 o k) = m ((c : Thread nD τ).loc main_arg2) (ix2 (blockOut (pt t) o) k) := by
  show V m c main_arg2 (((cfg0.win 1).blk t).view.emb (ix2 o k)) = _
  rw [V_main_arg2]
  obtain ⟨-, -, e0, e1, -⟩ := idx_facts t
  refine congrArg _ (funext fun a => Fin.ext ?_)
  match a with
  | ⟨0, _⟩ => show win0_1.index t (0 : Fin 2) * 256 + 1 * o.val = 256 * t.val + o.val; omega
  | ⟨1, _⟩ => show win0_1.index t (1 : Fin 2) * 6144 + 1 * k.val = k.val; omega

theorem blk2 (c : Dev nD) (t : Fin cfg0.N) (n : Fin 16) (o : Fin 256) :
    iblk m c 2 t (ix2 n o) = m ((c : Thread nD τ).loc main_arg3) (ix2 n (blockOut (pt t) o)) := by
  show V m c main_arg3 (((cfg0.win 2).blk t).view.emb (ix2 n o)) = _
  rw [V_main_arg3]
  obtain ⟨-, -, -, -, e0, e1, -⟩ := idx_facts t
  refine congrArg _ (funext fun a => Fin.ext ?_)
  match a with
  | ⟨0, _⟩ => show win0_2.index t (0 : Fin 2) * 16 + 1 * n.val = n.val; omega
  | ⟨1, _⟩ => show win0_2.index t (1 : Fin 2) * 256 + 1 * o.val = 256 * t.val + o.val; omega

theorem blk3 (c : Dev nD) (t : Fin cfg0.N) (n : Fin 16) (o : Fin 256) :
    iblk m c 3 t (ix2 n o) = m ((c : Thread nD τ).loc main_arg4) (ix2 n (blockOut (pt t) o)) := by
  show V m c main_arg4 (((cfg0.win 3).blk t).view.emb (ix2 n o)) = _
  rw [V_main_arg4]
  obtain ⟨-, -, -, -, -, -, e0, e1, -⟩ := idx_facts t
  refine congrArg _ (funext fun a => Fin.ext ?_)
  match a with
  | ⟨0, _⟩ => show win0_3.index t (0 : Fin 2) * 16 + 1 * n.val = n.val; omega
  | ⟨1, _⟩ => show win0_3.index t (1 : Fin 2) * 256 + 1 * o.val = 256 * t.val + o.val; omega

theorem blk4 (c : Dev nD) (t : Fin cfg0.N) (n : Fin 48) (o : Fin 256) :
    iblk m c 4 t (ix2 n o) = m ((c : Thread nD τ).loc main_arg5) (ix2 n (blockOut (pt t) o)) := by
  show V m c main_arg5 (((cfg0.win 4).blk t).view.emb (ix2 n o)) = _
  rw [V_main_arg5]
  obtain ⟨-, -, -, -, -, -, -, -, e0, e1, -⟩ := idx_facts t
  refine congrArg _ (funext fun a => Fin.ext ?_)
  match a with
  | ⟨0, _⟩ => show win0_4.index t (0 : Fin 2) * 48 + 1 * n.val = n.val; omega
  | ⟨1, _⟩ => show win0_4.index t (1 : Fin 2) * 256 + 1 * o.val = 256 * t.val + o.val; omega

theorem blk5 (c : Dev nD) (t : Fin cfg0.N) (n : Fin 48) (o : Fin 256) :
    iblk m c 5 t (ix2 n o) = m ((c : Thread nD τ).loc main_arg6) (ix2 n (blockOut (pt t) o)) := by
  show V m c main_arg6 (((cfg0.win 5).blk t).view.emb (ix2 n o)) = _
  rw [V_main_arg6]
  obtain ⟨-, -, -, -, -, -, -, -, -, -, e0, e1, -⟩ := idx_facts t
  refine congrArg _ (funext fun a => Fin.ext ?_)
  match a with
  | ⟨0, _⟩ => show win0_5.index t (0 : Fin 2) * 48 + 1 * n.val = n.val; omega
  | ⟨1, _⟩ => show win0_5.index t (1 : Fin 2) * 256 + 1 * o.val = 256 * t.val + o.val; omega

/-- The bias block: the bias row was laid out from the bias by the host, entry for entry. -/
theorem blk6 (c : Dev nD) (t : Fin cfg0.N) (o : Fin 256) :
    iblk m c 6 t (ix2 (0 : Fin 1) o) = m ((c : Thread nD τ).loc main_arg7) (ix1 (blockOut (pt t) o)) := by
  show V m c main_v3 (((cfg0.win 6).blk t).view.emb (ix2 (0 : Fin 1) o)) = _
  obtain ⟨-, -, -, -, -, -, -, -, -, -, -, -, e0, e1, -⟩ := idx_facts t
  have he : ((cfg0.win 6).blk t).view.emb (ix2 (0 : Fin 1) o) = ix2 (0 : Fin 1) (blockOut (pt t) o) := by
    funext a; apply Fin.ext
    match a with
    | ⟨0, _⟩ => show win0_6.index t (0 : Fin 2) * 1 + 1 * 0 = 0; omega
    | ⟨1, _⟩ => show win0_6.index t (1 : Fin 2) * 256 + 1 * o.val = 256 * t.val + o.val; omega
  rw [he]
  exact HostValue.bias_apply m c (blockOut (pt t) o)

/-- The permuted input is staged whole at every point; with every index in range it is the input's columns in the
    order the indices give. -/
theorem blk7 (c : Dev nD) (hr : ∀ k : Fin 8192, InRange (m ((c : Thread nD τ).loc main_arg8) (ix1 k)))
    (t : Fin cfg0.N) (k : Fin 8192) (b : Fin 256) :
    iblk m c 7 t (ix2 k b) = m ((c : Thread nD τ).loc main_arg0) (ix2 b (col (m ((c : Thread nD τ).loc main_arg8)) k)) := by
  show V m c main_v2 (((cfg0.win 7).blk t).view.emb (ix2 k b)) = _
  obtain ⟨-, -, -, -, -, -, -, -, -, -, -, -, -, -, e0, e1, -⟩ := idx_facts t
  have he : ((cfg0.win 7).blk t).view.emb (ix2 k b) = ix2 k b := by
    funext a; apply Fin.ext
    match a with
    | ⟨0, _⟩ => show win0_7.index t (0 : Fin 2) * 8192 + 1 * k.val = k.val; omega
    | ⟨1, _⟩ => show win0_7.index t (1 : Fin 2) * 256 + 1 * b.val = b.val; omega
  rw [he]
  exact HostValue.xperm_apply m c hr k b

/-! ## What a point writes back, and the array after the run -/

/-- The staged output after the body at point `t`, entry by entry, is the block function of the point's input blocks:
    the hypothesis under which this module reads the run (the body's own value, proved beside it). -/
def BodyIs (c : Dev nD) : Prop :=
  ∀ (t : Fin cfg0.N) (b o : Fin 256),
    outsAt0 m c t (ix2 b o)
      = blockAt (iblk m c 0 t) (iblk m c 1 t) (iblk m c 2 t) (iblk m c 3 t) (iblk m c 4 t) (iblk m c 5 t)
          (iblk m c 6 t) (iblk m c 7 t) b o

/-- WHAT POINT `t` WRITES BACK is block `t` of the layer's result. -/
theorem flushed_eq (c : Dev nD) (hbody : BodyIs m c)
    (hr : ∀ k : Fin 8192, InRange (m ((c : Thread nD τ).loc main_arg8) (ix1 k))) (t : Fin cfg0.N) :
    (dats m 0 c).flushed 8 t = ((cfg0.win 8).blk t).view.read (Elt Ideal) (outArr m c) := by
  rw [Value.flushed8]
  funext j
  obtain ⟨b, o, rfl⟩ : ∃ (b : Fin 256) (o : Fin 256), j = ix2 b o := ⟨j 0, j 1, eq_ix2 j⟩
  show outsAt0 m c t (ix2 b o) = outArr m c (((cfg0.win 8).blk t).view.emb (ix2 b o))
  obtain ⟨-, -, -, -, -, -, -, -, -, -, -, -, -, -, -, -, e0, e1⟩ := idx_facts t
  have he : ((cfg0.win 8).blk t).view.emb (ix2 b o) = ix2 b (blockOut (pt t) o) := by
    funext a; apply Fin.ext
    match a with
    | ⟨0, _⟩ => show win0_8.index t (0 : Fin 2) * 256 + 1 * b.val = b.val; omega
    | ⟨1, _⟩ => show win0_8.index t (1 : Fin 2) * 256 + 1 * o.val = 256 * t.val + o.val; omega
  rw [he, hbody t b o]
  exact blockAt_eq_outAt _ _ _ _ _ _ _ _ _ _ _ _ _ _ _ _ _ (pt t)
    (blk0 m c t) (blk1 m c t) (blk2 m c t) (blk3 m c t) (blk4 m c t) (blk5 m c t) (blk6 m c t) (blk7 m c hr t) b o

/-- An index of the result array is in point `t`'s block iff each coordinate is in the block's range on its axis. -/
theorem mem_blk (t : Fin cfg0.N) (i : S256x8192.Idx) :
    i ∈ ((cfg0.win 8).blk t).view.set ↔ ∀ a : Fin 2, win0_8.index t a * S256x256.size a ≤ (i a).val ∧ (i a).val < win0_8.index t a * S256x256.size a + S256x256.size a := by
  show i ∈ ((View.whole main_v4).slice (win0_8.rect t)).set ↔ _
  rw [View.set_slice_whole, Rect.mem_set_unit]
  exact Iff.rfl

/-- The 32 blocks tile the result array: column `j` lies in block `j / 256`. -/
theorem cover (i : S256x8192.Idx) :
    ∃ t : Fin cfg0.N, (cfg0.win 8).flush t = true ∧ i ∈ ((cfg0.win 8).blk t).view.set := by
  have hi0 : (i 0).val < 256 := (i 0).isLt
  have hi1 : (i 1).val < 8192 := (i 1).isLt
  let t : Fin cfg0.N := ⟨(i 1).val / 256, show (i 1).val / 256 < 32 by omega⟩
  obtain ⟨-, -, -, -, -, -, -, -, -, -, -, -, -, -, -, -, e0, e1⟩ := idx_facts t
  have ht : t.val = (i 1).val / 256 := rfl
  refine ⟨t, flush0_8 t, ?_⟩
  rw [mem_blk]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 256 ≤ (i 1).val ∧ (i 1).val < win0_8.index t (1 : Fin 2) * 256 + 256; omega

/-- THE ARRAY after the run is the layer's result. -/
theorem final (c : Dev nD) (hbody : BodyIs m c)
    (hr : ∀ k : Fin 8192, InRange (m ((c : Thread nD τ).loc main_arg8) (ix1 k))) :
    (dats m 0 c).arrAt 8 cfg0.N = outArr m c :=
  (dats m 0 c).arrAt_eq_of_cover 8 (outArr m c) (fun t _ => flushed_eq m c hbody hr t) cover

/-- The kernel's run, read: every weakly fair execution terminates with the result array at the layer's result of the
    arguments, the arguments unchanged. -/
theorem run (hbody : ∀ c, BodyIs m c)
    (hr : ∀ (c : Dev nD) (k : Fin 8192), InRange (m ((c : Thread nD τ).loc main_arg8) (ix1 k))) :
    θ_run defs (onTc (τ := τ) (main (F := Ideal))) ⟨m, fun _ => 0, ρ⟩ fun r => ∀ c : Dev nD,
      r.2.mem ((c : Thread nD τ).loc main_v4) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c (hbody c) (hr c)), (h c).2⟩)
    (Value.run_blocks m ρ)

end Cert.KernelIdeal.ArrayValue

end
-- ==== Proof.RefOps.lean ====
import proofs.«402445_j64330020159908_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's 99 host operations, in order: the tile number of each weight column (an iota divided by 128, rounding down), the scales and zero points gathered by tile and transposed, the two dequantised weight arrays, their concatenation, the input's columns gathered at the wrapped indices, the product, the bias. -/
abbrev ops : List (HloOp τ sig (Elt F)) :=
  [ StableHlo.nullary main_v0 (iotaInDim S2048 32 0),
    StableHlo.nullary main_c (constantI S_ 32 128#32),
    StableHlo.TRef.unary (.of main_c : StableHlo.TRef sig ⟨S_, .i32⟩) main_call0.v0 id,
    StableHlo.TRef.unary main_call0.v0 main_call0.v1 (broadcastInDim S2048 ![] bcast_S_S2048),
    StableHlo.TRef.binary (.of main_v0 : StableHlo.TRef sig ⟨S2048, .i32⟩) main_call0.v1 main_call0.v2 Host.divsi,
    StableHlo.TRef.unary (.of main_v0 : StableHlo.TRef sig ⟨S2048, .i32⟩) main_call0.v3 signi,
    StableHlo.TRef.unary main_call0.v0 main_call0.v4 signi,
    StableHlo.TRef.unary main_call0.v4 main_call0.v5 (broadcastInDim S2048 ![] bcast_S_S2048),
    StableHlo.TRef.binary main_call0.v3 main_call0.v5 main_call0.v6 (cmpi .ne),
    StableHlo.TRef.unary main_call0.v0 main_call0.v7 (broadcastInDim S2048 ![] bcast_S_S2048),
    StableHlo.TRef.binary (.of main_v0 : StableHlo.TRef sig ⟨S2048, .i32⟩) main_call0.v7 main_call0.v8 Host.remsi,
    StableHlo.TRef.nullary main_call0.c (constantI S_ 32 0#32),
    StableHlo.TRef.unary main_call0.c main_call0.v9 (broadcastInDim S2048 ![] bcast_S_S2048),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S2048 ![] bcast_S_S2048),
    StableHlo.TRef.binary main_call0.v2 main_call0.v12 main_call0.v13 subi,
    StableHlo.TRef.ternary main_call0.v11 main_call0.v13 main_call0.v2 main_call0.call0.v0 select,
    StableHlo.nullary main_c_0 (constantI S_ 32 0#32),
    StableHlo.unary main_c_0 main_v2 (broadcastInDim S2048 ![] bcast_S_S2048 : (⟨S_, .i32⟩ : BufTy).Contents (Elt F) → (⟨S2048, .i32⟩ : BufTy).Contents (Elt F)),
    StableHlo.binary main_v1 main_v2 main_v3 (cmpi .slt : (⟨S2048, .i32⟩ : BufTy).Contents (Elt F) → (⟨S2048, .i32⟩ : BufTy).Contents (Elt F) → (⟨S2048, .i1⟩ : BufTy).Contents (Elt F)),
    StableHlo.nullary main_c_1 (constantI S_ 32 16#32),
    StableHlo.unary main_c_1 main_v4 (broadcastInDim S2048 ![] bcast_S_S2048 : (⟨S_, .i32⟩ : BufTy).Contents (Elt F) → (⟨S2048, .i32⟩ : BufTy).Contents (Elt F)),
    StableHlo.binary main_v1 main_v4 main_v5 (addi : (⟨S2048, .i32⟩ : BufTy).Contents (Elt F) → (⟨S2048, .i32⟩ : BufTy).Contents (Elt F) → (⟨S2048, .i32⟩ : BufTy).Contents (Elt F)),
    StableHlo.ternary main_v3 main_v5 main_v1 main_v6 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v6 main_v7 (broadcastInDim S2048x1 ![0] bcast_S2048_S2048x1_0 : (⟨S2048, .i32⟩ : BufTy).Contents (Elt F) → (⟨S2048x1, .i32⟩ : BufTy).Contents (Elt F)),
    StableHlo.binary main_arg3 main_v7 main_v8 ((fun x i => Host.gather gather_S16x8192_S2048x1_S2048x8192_1_0_n_n_0_1_18192 x i) : (⟨S16x8192, .f32⟩ : BufTy).Contents (Elt F) → (⟨S2048x1, .i32⟩ : BufTy).Contents (Elt F) → (⟨S2048x8192, .f32⟩ : BufTy).Contents (Elt F)),
    StableHlo.unary main_v8 main_v9 ((transpose S8192x2048 [1, 0] · transposes_S2048x8192_S8192x2048_1_0) : (⟨S2048x8192, .f32⟩ : BufTy).Contents (Elt F) → (⟨S8192x2048, .f32⟩ : BufTy).Contents (Elt F)),
    StableHlo.nullary main_c_2 (constantI S_ 32 0#32),
    StableHlo.unary main_c_2 main_v10 (broadcastInDim S2048 ![] bcast_S_S2048 : (⟨S_, .i32⟩ : BufTy).Contents (Elt F) → (⟨S2048, .i32⟩ : BufTy).Contents (Elt F)),
    StableHlo.binary main_v1 main_v10 main_v11 (cmpi .slt : (⟨S2048, .i32⟩ : BufTy).Contents (Elt F) → (⟨S2048, .i32⟩ : BufTy).Contents (Elt F) → (⟨S2048, .i1⟩ : BufTy).Contents (Elt F)),
    StableHlo.nullary main_c_3 (constantI S_ 32 16#32),
    StableHlo.unary main_c_3 main_v12 (broadcastInDim S2048 ![] bcast_S_S2048 : (⟨S_, .i32⟩ : BufTy).Contents (Elt F) → (⟨S2048, .i32⟩ : BufTy).Contents (Elt F)),
    StableHlo.binary main_v1 main_v12 main_v13 (addi : (⟨S2048, .i32⟩ : BufTy).Contents (Elt F) → (⟨S2048, .i32⟩ : BufTy).Contents (Elt F) → (⟨S2048, .i32⟩ : BufTy).Contents (Elt F)),
    StableHlo.ternary main_v11 main_v13 main_v1 main_v14 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v14 main_v15 (broadcastInDim S2048x1 ![0] bcast_S2048_S2048x1_0 : (⟨S2048, .i32⟩ : BufTy).Contents (Elt F) → (⟨S2048x1, .i32⟩ : BufTy).Contents (Elt F)),
    StableHlo.binary main_arg4 main_v15 main_v16 ((fun x i => Host.gather gather_S16x8192_S2048x1_S2048x8192_1_0_n_n_0_1_18192 x i) : (⟨S16x8192, .f32⟩ : BufTy).Contents (Elt F) → (⟨S2048x1, .i32⟩ : BufTy).Contents (Elt F) → (⟨S2048x8192, .f32⟩ : BufTy).Contents (Elt F)),
    StableHlo.unary main_v16 main_v17 ((transpose S8192x2048 [1, 0] · transposes_S2048x8192_S8192x2048_1_0) : (⟨S2048x8192, .f32⟩ : BufTy).Contents (Elt F) → (⟨S8192x2048, .f32⟩ : BufTy).Contents (Elt F)),
    StableHlo.unary main_arg1 main_v18 (sitofp .f32 : (⟨S8192x2048, .i32⟩ : BufTy).Contents (Elt F) → (⟨S8192x2048, .f32⟩ : BufTy).Contents (Elt F)),
    StableHlo.binary main_v18 main_v17 main_v19 (subf : (⟨S8192x2048, .f32⟩ : BufTy).Contents (Elt F) → (⟨S8192x2048, .f32⟩ : BufTy).Contents (Elt F) → (⟨S8192x2048, .f32⟩ : BufTy).Contents (Elt F)),
    StableHlo.binary main_v19 main_v9 main_v20 (mulf : (⟨S8192x2048, .f32⟩ : BufTy).Contents (Elt F) → (⟨S8192x2048, .f32⟩ : BufTy).Contents (Elt F) → (⟨S8192x2048, .f32⟩ : BufTy).Contents (Elt F)),
    StableHlo.nullary main_v21 (iotaInDim S6144 32 0),
    StableHlo.nullary main_c_4 (constantI S_ 32 128#32),
    StableHlo.TRef.unary (.of main_c_4 : StableHlo.TRef sig ⟨S_, .i32⟩) main_call1.v0 id,
    StableHlo.TRef.unary main_call1.v0 main_call1.v1 (broadcastInDim S6144 ![] bcast_S_S6144),
    StableHlo.TRef.binary (.of main_v21 : StableHlo.TRef sig ⟨S6144, .i32⟩) main_call1.v1 main_call1.v2 Host.divsi,
    StableHlo.TRef.unary (.of main_v21 : StableHlo.TRef sig ⟨S6144, .i32⟩) main_call1.v3 signi,
    StableHlo.TRef.unary main_call1.v0 main_call1.v4 signi,
    StableHlo.TRef.unary main_call1.v4 main_call1.v5 (broadcastInDim S6144 ![] bcast_S_S6144),
    StableHlo.TRef.binary main_call1.v3 main_call1.v5 main_call1.v6 (cmpi .ne),
    StableHlo.TRef.unary main_call1.v0 main_call1.v7 (broadcastInDim S6144 ![] bcast_S_S6144),
    StableHlo.TRef.binary (.of main_v21 : StableHlo.TRef sig ⟨S6144, .i32⟩) main_call1.v7 main_call1.v8 Host.remsi,
    StableHlo.TRef.nullary main_call1.c (constantI S_ 32 0#32),
    StableHlo.TRef.unary main_call1.c main_call1.v9 (broadcastInDim S6144 ![] bcast_S_S6144),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S6144 ![] bcast_S_S6144),
    StableHlo.TRef.binary main_call1.v2 main_call1.v12 main_call1.v13 subi,
    StableHlo.TRef.ternary main_call1.v11 main_call1.v13 main_call1.v2 main_call1.call0.v0 select,
    StableHlo.nullary main_c_5 (constantI S_ 32 0#32),
    StableHlo.unary main_c_5 main_v23 (broadcastInDim S6144 ![] bcast_S_S6144 : (⟨S_, .i32⟩ : BufTy).Contents (Elt F) → (⟨S6144, .i32⟩ : BufTy).Contents (Elt F)),
    StableHlo.binary main_v22 main_v23 main_v24 (cmpi .slt : (⟨S6144, .i32⟩ : BufTy).Contents (Elt F) → (⟨S6144, .i32⟩ : BufTy).Contents (Elt F) → (⟨S6144, .i1⟩ : BufTy).Contents (Elt F)),
    StableHlo.nullary main_c_6 (constantI S_ 32 48#32),
    StableHlo.unary main_c_6 main_v25 (broadcastInDim S6144 ![] bcast_S_S6144 : (⟨S_, .i32⟩ : BufTy).Contents (Elt F) → (⟨S6144, .i32⟩ : BufTy).Contents (Elt F)),
    StableHlo.binary main_v22 main_v25 main_v26 (addi : (⟨S6144, .i32⟩ : BufTy).Contents (Elt F) → (⟨S6144, .i32⟩ : BufTy).Contents (Elt F) → (⟨S6144, .i32⟩ : BufTy).Contents (Elt F)),
    StableHlo.ternary main_v24 main_v26 main_v22 main_v27 (select : (⟨S6144, .i1⟩ : BufTy).Contents (Elt F) → (⟨S6144, .i32⟩ : BufTy).Contents (Elt F) → (⟨S6144, .i32⟩ : BufTy).Contents (Elt F) → (⟨S6144, .i32⟩ : BufTy).Contents (Elt F)),
    StableHlo.unary main_v27 main_v28 (broadcastInDim S6144x1 ![0] bcast_S6144_S6144x1_0 : (⟨S6144, .i32⟩ : BufTy).Contents (Elt F) → (⟨S6144x1, .i32⟩ : BufTy).Contents (Elt F)),
    StableHlo.binary main_arg5 main_v28 main_v29 ((fun x i => Host.gather gather_S48x8192_S6144x1_S6144x8192_1_0_n_n_0_1_18192 x i) : (⟨S48x8192, .f32⟩ : BufTy).Contents (Elt F) → (⟨S6144x1, .i32⟩ : BufTy).Contents (Elt F) → (⟨S6144x8192, .f32⟩ : BufTy).Contents (Elt F)),
    StableHlo.unary main_v29 main_v30 ((transpose S8192x6144 [1, 0] · transposes_S6144x8192_S8192x6144_1_0) : (⟨S6144x8192, .f32⟩ : BufTy).Contents (Elt F) → (⟨S8192x6144, .f32⟩ : BufTy).Contents (Elt F)),
    StableHlo.nullary main_c_7 (constantI S_ 32 0#32),
    StableHlo.unary main_c_7 main_v31 (broadcastInDim S6144 ![] bcast_S_S6144 : (⟨S_, .i32⟩ : BufTy).Contents (Elt F) → (⟨S6144, .i32⟩ : BufTy).Contents (Elt F)),
    StableHlo.binary main_v22 main_v31 main_v32 (cmpi .slt : (⟨S6144, .i32⟩ : BufTy).Contents (Elt F) → (⟨S6144, .i32⟩ : BufTy).Contents (Elt F) → (⟨S6144, .i1⟩ : BufTy).Contents (Elt F)),
    StableHlo.nullary main_c_8 (constantI S_ 32 48#32),
    StableHlo.unary main_c_8 main_v33 (broadcastInDim S6144 ![] bcast_S_S6144 : (⟨S_, .i32⟩ : BufTy).Contents (Elt F) → (⟨S6144, .i32⟩ : BufTy).Contents (Elt F)),
    StableHlo.binary main_v22 main_v33 main_v34 (addi : (⟨S6144, .i32⟩ : BufTy).Contents (Elt F) → (⟨S6144, .i32⟩ : BufTy).Contents (Elt F) → (⟨S6144, .i32⟩ : BufTy).Contents (Elt F)),
    StableHlo.ternary main_v32 main_v34 main_v22 main_v35 (select : (⟨S6144, .i1⟩ : BufTy).Contents (Elt F) → (⟨S6144, .i32⟩ : BufTy).Contents (Elt F) → (⟨S6144, .i32⟩ : BufTy).Contents (Elt F) → (⟨S6144, .i32⟩ : BufTy).Contents (Elt F)),
    StableHlo.unary main_v35 main_v36 (broadcastInDim S6144x1 ![0] bcast_S6144_S6144x1_0 : (⟨S6144, .i32⟩ : BufTy).Contents (Elt F) → (⟨S6144x1, .i32⟩ : BufTy).Contents (Elt F)),
    StableHlo.binary main_arg6 main_v36 main_v37 ((fun x i => Host.gather gather_S48x8192_S6144x1_S6144x8192_1_0_n_n_0_1_18192 x i) : (⟨S48x8192, .f32⟩ : BufTy).Contents (Elt F) → (⟨S6144x1, .i32⟩ : BufTy).Contents (Elt F) → (⟨S6144x8192, .f32⟩ : BufTy).Contents (Elt F)),
    StableHlo.unary main_v37 main_v38 ((transpose S8192x6144 [1, 0] · transposes_S6144x8192_S8192x6144_1_0) : (⟨S6144x8192, .f32⟩ : BufTy).Contents (Elt F) → (⟨S8192x6144, .f32⟩ : BufTy).Contents (Elt F)),
    StableHlo.unary main_arg2 main_v39 (sitofp .f32 : (⟨S8192x6144, .i32⟩ : BufTy).Contents (Elt F) → (⟨S8192x6144, .f32⟩ : BufTy).Contents (Elt F)),
    StableHlo.binary main_v39 main_v38 main_v40 (subf : (⟨S8192x6144, .f32⟩ : BufTy).Contents (Elt F) → (⟨S8192x6144, .f32⟩ : BufTy).Contents (Elt F) → (⟨S8192x6144, .f32⟩ : BufTy).Contents (Elt F)),
    StableHlo.binary main_v40 main_v30 main_v41 (mulf : (⟨S8192x6144, .f32⟩ : BufTy).Contents (Elt F) → (⟨S8192x6144, .f32⟩ : BufTy).Contents (Elt F) → (⟨S8192x6144, .f32⟩ : BufTy).Contents (Elt F)),
    StableHlo.binary main_v20 main_v41 main_v42 ((fun a b => concatenate S8192x8192 1 [⟨S8192x2048, a⟩, ⟨S8192x6144, b⟩] concatenates_S8192x2048_S8192x6144_S8192x8192_d1) : (⟨S8192x2048, .f32⟩ : BufTy).Contents (Elt F) → (⟨S8192x6144, .f32⟩ : BufTy).Contents (Elt F) → (⟨S8192x8192, .f32⟩ : BufTy).Contents (Elt F)),
    StableHlo.nullary main_c_9 (constantI S_ 32 0#32),
    StableHlo.unary main_c_9 main_v43 (broadcastInDim S8192 ![] bcast_S_S8192 : (⟨S_, .i32⟩ : BufTy).Contents (Elt F) → (⟨S8192, .i32⟩ : BufTy).Contents (Elt F)),
    StableHlo.binary main_arg8 main_v43 main_v44 (cmpi .slt : (⟨S8192, .i32⟩ : BufTy).Contents (Elt F) → (⟨S8192, .i32⟩ : BufTy).Contents (Elt F) → (⟨S8192, .i1⟩ : BufTy).Contents (Elt F)),
    StableHlo.nullary main_c_10 (constantI S_ 32 8192#32),
    StableHlo.unary main_c_10 main_v45 (broadcastInDim S8192 ![] bcast_S_S8192 : (⟨S_, .i32⟩ : BufTy).Contents (Elt F) → (⟨S8192, .i32⟩ : BufTy).Contents (Elt F)),
    StableHlo.binary main_arg8 main_v45 main_v46 (addi : (⟨S8192, .i32⟩ : BufTy).Contents (Elt F) → (⟨S8192, .i32⟩ : BufTy).Contents (Elt F) → (⟨S8192, .i32⟩ : BufTy).Contents (Elt F)),
    StableHlo.ternary main_v44 main_v46 main_arg8 main_v47 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v47 main_v48 (broadcastInDim S8192x1 ![0] bcast_S8192_S8192x1_0 : (⟨S8192, .i32⟩ : BufTy).Contents (Elt F) → (⟨S8192x1, .i32⟩ : BufTy).Contents (Elt F)),
    StableHlo.binary main_arg0 main_v48 main_v49 ((fun x i => Host.gather gather_S256x8192_S8192x1_S256x8192_0_1_n_n_1_1_2561 x i) : (⟨S256x8192, .f32⟩ : BufTy).Contents (Elt F) → (⟨S8192x1, .i32⟩ : BufTy).Contents (Elt F) → (⟨S256x8192, .f32⟩ : BufTy).Contents (Elt F)),
    StableHlo.unary main_v42 main_v50 ((transpose S8192x8192 [1, 0] · transposes_S8192x8192_S8192x8192_1_0) : (⟨S8192x8192, .f32⟩ : BufTy).Contents (Elt F) → (⟨S8192x8192, .f32⟩ : BufTy).Contents (Elt F)),
    StableHlo.binary main_v49 main_v50 main_v51 ((fun l r => Host.dotGeneral dot_S256x8192_S8192x8192_S256x8192_1_0_0_1_n_n none l r) : (⟨S256x8192, .f32⟩ : BufTy).Contents (Elt F) → (⟨S8192x8192, .f32⟩ : BufTy).Contents (Elt F) → (⟨S256x8192, .f32⟩ : BufTy).Contents (Elt F)),
    StableHlo.unary main_arg7 main_v52 (broadcastInDim S1x8192 ![1] bcast_S8192_S1x8192_1 : (⟨S8192, .f32⟩ : BufTy).Contents (Elt F) → (⟨S1x8192, .f32⟩ : BufTy).Contents (Elt F)),
    StableHlo.unary main_v52 main_v53 (broadcastInDim S256x8192 ![0, 1] bcast_S1x8192_S256x8192_0_1 : (⟨S1x8192, .f32⟩ : BufTy).Contents (Elt F) → (⟨S256x8192, .f32⟩ : BufTy).Contents (Elt F)),
    StableHlo.binary main_v51 main_v53 main_v54 (addf : (⟨S256x8192, .f32⟩ : BufTy).Contents (Elt F) → (⟨S256x8192, .f32⟩ : BufTy).Contents (Elt F) → (⟨S256x8192, .f32⟩ : BufTy).Contents (Elt F)) ]

/-- Each operation touches TensorCore buffers only. -/
theorem ops_sub : (ops : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., unary_bufs_sub .., binary_bufs_sub ..⟩

/-- The dequantised high-region weight array, from the codes and the region's scales and zero points. -/
def wHighRef (a1 : (⟨S8192x2048, .i32⟩ : BufTy).Contents (Elt F)) (a3 a4 : (⟨S16x8192, .f32⟩ : BufTy).Contents (Elt F)) : (⟨S8192x2048, .f32⟩ : BufTy).Contents (Elt F) :=
  let t_main_v0 := (iotaInDim S2048 32 0)
  let t_main_c := (constantI S_ 32 128#32)
  let t_main_call0_v0 := id t_main_c
  let t_main_call0_v1 := (broadcastInDim S2048 ![] bcast_S_S2048) t_main_call0_v0
  let t_main_call0_v2 := Host.divsi t_main_v0 t_main_call0_v1
  let t_main_call0_v3 := signi t_main_v0
  let t_main_call0_v4 := signi t_main_call0_v0
  let t_main_call0_v5 := (broadcastInDim S2048 ![] bcast_S_S2048) t_main_call0_v4
  let t_main_call0_v6 := (cmpi .ne) t_main_call0_v3 t_main_call0_v5
  let t_main_call0_v7 := (broadcastInDim S2048 ![] bcast_S_S2048) t_main_call0_v0
  let t_main_call0_v8 := Host.remsi t_main_v0 t_main_call0_v7
  let t_main_call0_c := (constantI S_ 32 0#32)
  let t_main_call0_v9 := (broadcastInDim S2048 ![] bcast_S_S2048) t_main_call0_c
  let t_main_call0_v10 := (cmpi .ne) t_main_call0_v8 t_main_call0_v9
  let t_main_call0_v11 := andi t_main_call0_v6 t_main_call0_v10
  let t_main_call0_c_0 := (constantI S_ 32 1#32)
  let t_main_call0_v12 := (broadcastInDim S2048 ![] bcast_S_S2048) t_main_call0_c_0
  let t_main_call0_v13 := subi t_main_call0_v2 t_main_call0_v12
  let t_main_v1 := select t_main_call0_v11 t_main_call0_v13 t_main_call0_v2
  let t_main_c_0 := (constantI S_ 32 0#32)
  let t_main_v2 := (broadcastInDim S2048 ![] bcast_S_S2048 : (⟨S_, .i32⟩ : BufTy).Contents (Elt F) → (⟨S2048, .i32⟩ : BufTy).Contents (Elt F)) t_main_c_0
  let t_main_v3 := (cmpi .slt : (⟨S2048, .i32⟩ : BufTy).Contents (Elt F) → (⟨S2048, .i32⟩ : BufTy).Contents (Elt F) → (⟨S2048, .i1⟩ : BufTy).Contents (Elt F)) t_main_v1 t_main_v2
  let t_main_c_1 := (constantI S_ 32 16#32)
  let t_main_v4 := (broadcastInDim S2048 ![] bcast_S_S2048 : (⟨S_, .i32⟩ : BufTy).Contents (Elt F) → (⟨S2048, .i32⟩ : BufTy).Contents (Elt F)) t_main_c_1
  let t_main_v5 := (addi : (⟨S2048, .i32⟩ : BufTy).Contents (Elt F) → (⟨S2048, .i32⟩ : BufTy).Contents (Elt F) → (⟨S2048, .i32⟩ : BufTy).Contents (Elt F)) t_main_v1 t_main_v4
  let t_main_v6 := (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) t_main_v3 t_main_v5 t_main_v1
  let t_main_v7 := (broadcastInDim S2048x1 ![0] bcast_S2048_S2048x1_0 : (⟨S2048, .i32⟩ : BufTy).Contents (Elt F) → (⟨S2048x1, .i32⟩ : BufTy).Contents (Elt F)) t_main_v6
  let t_main_v8 := ((fun x i => Host.gather gather_S16x8192_S2048x1_S2048x8192_1_0_n_n_0_1_18192 x i) : (⟨S16x8192, .f32⟩ : BufTy).Contents (Elt F) → (⟨S2048x1, .i32⟩ : BufTy).Contents (Elt F) → (⟨S2048x8192, .f32⟩ : BufTy).Contents (Elt F)) a3 t_main_v7
  let t_main_v9 := ((transpose S8192x2048 [1, 0] · transposes_S2048x8192_S8192x2048_1_0) : (⟨S2048x8192, .f32⟩ : BufTy).Contents (Elt F) → (⟨S8192x2048, .f32⟩ : BufTy).Contents (Elt F)) t_main_v8
  let t_main_c_2 := (constantI S_ 32 0#32)
  let t_main_v10 := (broadcastInDim S2048 ![] bcast_S_S2048 : (⟨S_, .i32⟩ : BufTy).Contents (Elt F) → (⟨S2048, .i32⟩ : BufTy).Contents (Elt F)) t_main_c_2
  let t_main_v11 := (cmpi .slt : (⟨S2048, .i32⟩ : BufTy).Contents (Elt F) → (⟨S2048, .i32⟩ : BufTy).Contents (Elt F) → (⟨S2048, .i1⟩ : BufTy).Contents (Elt F)) t_main_v1 t_main_v10
  let t_main_c_3 := (constantI S_ 32 16#32)
  let t_main_v12 := (broadcastInDim S2048 ![] bcast_S_S2048 : (⟨S_, .i32⟩ : BufTy).Contents (Elt F) → (⟨S2048, .i32⟩ : BufTy).Contents (Elt F)) t_main_c_3
  let t_main_v13 := (addi : (⟨S2048, .i32⟩ : BufTy).Contents (Elt F) → (⟨S2048, .i32⟩ : BufTy).Contents (Elt F) → (⟨S2048, .i32⟩ : BufTy).Contents (Elt F)) t_main_v1 t_main_v12
  let t_main_v14 := (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) t_main_v11 t_main_v13 t_main_v1
  let t_main_v15 := (broadcastInDim S2048x1 ![0] bcast_S2048_S2048x1_0 : (⟨S2048, .i32⟩ : BufTy).Contents (Elt F) → (⟨S2048x1, .i32⟩ : BufTy).Contents (Elt F)) t_main_v14
  let t_main_v16 := ((fun x i => Host.gather gather_S16x8192_S2048x1_S2048x8192_1_0_n_n_0_1_18192 x i) : (⟨S16x8192, .f32⟩ : BufTy).Contents (Elt F) → (⟨S2048x1, .i32⟩ : BufTy).Contents (Elt F) → (⟨S2048x8192, .f32⟩ : BufTy).Contents (Elt F)) a4 t_main_v15
  let t_main_v17 := ((transpose S8192x2048 [1, 0] · transposes_S2048x8192_S8192x2048_1_0) : (⟨S2048x8192, .f32⟩ : BufTy).Contents (Elt F) → (⟨S8192x2048, .f32⟩ : BufTy).Contents (Elt F)) t_main_v16
  let t_main_v18 := (sitofp .f32 : (⟨S8192x2048, .i32⟩ : BufTy).Contents (Elt F) → (⟨S8192x2048, .f32⟩ : BufTy).Contents (Elt F)) a1
  let t_main_v19 := (subf : (⟨S8192x2048, .f32⟩ : BufTy).Contents (Elt F) → (⟨S8192x2048, .f32⟩ : BufTy).Contents (Elt F) → (⟨S8192x2048, .f32⟩ : BufTy).Contents (Elt F)) t_main_v18 t_main_v17
  let t_main_v20 := (mulf : (⟨S8192x2048, .f32⟩ : BufTy).Contents (Elt F) → (⟨S8192x2048, .f32⟩ : BufTy).Contents (Elt F) → (⟨S8192x2048, .f32⟩ : BufTy).Contents (Elt F)) t_main_v19 t_main_v9
  t_main_v20

/-- The dequantised low-region weight array. -/
def wLowRef (a2 : (⟨S8192x6144, .i32⟩ : BufTy).Contents (Elt F)) (a5 a6 : (⟨S48x8192, .f32⟩ : BufTy).Contents (Elt F)) : (⟨S8192x6144, .f32⟩ : BufTy).Contents (Elt F) :=
  let t_main_v21 := (iotaInDim S6144 32 0)
  let t_main_c_4 := (constantI S_ 32 128#32)
  let t_main_call1_v0 := id t_main_c_4
  let t_main_call1_v1 := (broadcastInDim S6144 ![] bcast_S_S6144) t_main_call1_v0
  let t_main_call1_v2 := Host.divsi t_main_v21 t_main_call1_v1
  let t_main_call1_v3 := signi t_main_v21
  let t_main_call1_v4 := signi t_main_call1_v0
  let t_main_call1_v5 := (broadcastInDim S6144 ![] bcast_S_S6144) t_main_call1_v4
  let t_main_call1_v6 := (cmpi .ne) t_main_call1_v3 t_main_call1_v5
  let t_main_call1_v7 := (broadcastInDim S6144 ![] bcast_S_S6144) t_main_call1_v0
  let t_main_call1_v8 := Host.remsi t_main_v21 t_main_call1_v7
  let t_main_call1_c := (constantI S_ 32 0#32)
  let t_main_call1_v9 := (broadcastInDim S6144 ![] bcast_S_S6144) t_main_call1_c
  let t_main_call1_v10 := (cmpi .ne) t_main_call1_v8 t_main_call1_v9
  let t_main_call1_v11 := andi t_main_call1_v6 t_main_call1_v10
  let t_main_call1_c_0 := (constantI S_ 32 1#32)
  let t_main_call1_v12 := (broadcastInDim S6144 ![] bcast_S_S6144) t_main_call1_c_0
  let t_main_call1_v13 := subi t_main_call1_v2 t_main_call1_v12
  let t_main_v22 := select t_main_call1_v11 t_main_call1_v13 t_main_call1_v2
  let t_main_c_5 := (constantI S_ 32 0#32)
  let t_main_v23 := (broadcastInDim S6144 ![] bcast_S_S6144 : (⟨S_, .i32⟩ : BufTy).Contents (Elt F) → (⟨S6144, .i32⟩ : BufTy).Contents (Elt F)) t_main_c_5
  let t_main_v24 := (cmpi .slt : (⟨S6144, .i32⟩ : BufTy).Contents (Elt F) → (⟨S6144, .i32⟩ : BufTy).Contents (Elt F) → (⟨S6144, .i1⟩ : BufTy).Contents (Elt F)) t_main_v22 t_main_v23
  let t_main_c_6 := (constantI S_ 32 48#32)
  let t_main_v25 := (broadcastInDim S6144 ![] bcast_S_S6144 : (⟨S_, .i32⟩ : BufTy).Contents (Elt F) → (⟨S6144, .i32⟩ : BufTy).Contents (Elt F)) t_main_c_6
  let t_main_v26 := (addi : (⟨S6144, .i32⟩ : BufTy).Contents (Elt F) → (⟨S6144, .i32⟩ : BufTy).Contents (Elt F) → (⟨S6144, .i32⟩ : BufTy).Contents (Elt F)) t_main_v22 t_main_v25
  let t_main_v27 := (select : (⟨S6144, .i1⟩ : BufTy).Contents (Elt F) → (⟨S6144, .i32⟩ : BufTy).Contents (Elt F) → (⟨S6144, .i32⟩ : BufTy).Contents (Elt F) → (⟨S6144, .i32⟩ : BufTy).Contents (Elt F)) t_main_v24 t_main_v26 t_main_v22
  let t_main_v28 := (broadcastInDim S6144x1 ![0] bcast_S6144_S6144x1_0 : (⟨S6144, .i32⟩ : BufTy).Contents (Elt F) → (⟨S6144x1, .i32⟩ : BufTy).Contents (Elt F)) t_main_v27
  let t_main_v29 := ((fun x i => Host.gather gather_S48x8192_S6144x1_S6144x8192_1_0_n_n_0_1_18192 x i) : (⟨S48x8192, .f32⟩ : BufTy).Contents (Elt F) → (⟨S6144x1, .i32⟩ : BufTy).Contents (Elt F) → (⟨S6144x8192, .f32⟩ : BufTy).Contents (Elt F)) a5 t_main_v28
  let t_main_v30 := ((transpose S8192x6144 [1, 0] · transposes_S6144x8192_S8192x6144_1_0) : (⟨S6144x8192, .f32⟩ : BufTy).Contents (Elt F) → (⟨S8192x6144, .f32⟩ : BufTy).Contents (Elt F)) t_main_v29
  let t_main_c_7 := (constantI S_ 32 0#32)
  let t_main_v31 := (broadcastInDim S6144 ![] bcast_S_S6144 : (⟨S_, .i32⟩ : BufTy).Contents (Elt F) → (⟨S6144, .i32⟩ : BufTy).Contents (Elt F)) t_main_c_7
  let t_main_v32 := (cmpi .slt : (⟨S6144, .i32⟩ : BufTy).Contents (Elt F) → (⟨S6144, .i32⟩ : BufTy).Contents (Elt F) → (⟨S6144, .i1⟩ : BufTy).Contents (Elt F)) t_main_v22 t_main_v31
  let t_main_c_8 := (constantI S_ 32 48#32)
  let t_main_v33 := (broadcastInDim S6144 ![] bcast_S_S6144 : (⟨S_, .i32⟩ : BufTy).Contents (Elt F) → (⟨S6144, .i32⟩ : BufTy).Contents (Elt F)) t_main_c_8
  let t_main_v34 := (addi : (⟨S6144, .i32⟩ : BufTy).Contents (Elt F) → (⟨S6144, .i32⟩ : BufTy).Contents (Elt F) → (⟨S6144, .i32⟩ : BufTy).Contents (Elt F)) t_main_v22 t_main_v33
  let t_main_v35 := (select : (⟨S6144, .i1⟩ : BufTy).Contents (Elt F) → (⟨S6144, .i32⟩ : BufTy).Contents (Elt F) → (⟨S6144, .i32⟩ : BufTy).Contents (Elt F) → (⟨S6144, .i32⟩ : BufTy).Contents (Elt F)) t_main_v32 t_main_v34 t_main_v22
  let t_main_v36 := (broadcastInDim S6144x1 ![0] bcast_S6144_S6144x1_0 : (⟨S6144, .i32⟩ : BufTy).Contents (Elt F) → (⟨S6144x1, .i32⟩ : BufTy).Contents (Elt F)) t_main_v35
  let t_main_v37 := ((fun x i => Host.gather gather_S48x8192_S6144x1_S6144x8192_1_0_n_n_0_1_18192 x i) : (⟨S48x8192, .f32⟩ : BufTy).Contents (Elt F) → (⟨S6144x1, .i32⟩ : BufTy).Contents (Elt F) → (⟨S6144x8192, .f32⟩ : BufTy).Contents (Elt F)) a6 t_main_v36
  let t_main_v38 := ((transpose S8192x6144 [1, 0] · transposes_S6144x8192_S8192x6144_1_0) : (⟨S6144x8192, .f32⟩ : BufTy).Contents (Elt F) → (⟨S8192x6144, .f32⟩ : BufTy).Contents (Elt F)) t_main_v37
  let t_main_v39 := (sitofp .f32 : (⟨S8192x6144, .i32⟩ : BufTy).Contents (Elt F) → (⟨S8192x6144, .f32⟩ : BufTy).Contents (Elt F)) a2
  let t_main_v40 := (subf : (⟨S8192x6144, .f32⟩ : BufTy).Contents (Elt F) → (⟨S8192x6144, .f32⟩ : BufTy).Contents (Elt F) → (⟨S8192x6144, .f32⟩ : BufTy).Contents (Elt F)) t_main_v39 t_main_v38
  let t_main_v41 := (mulf : (⟨S8192x6144, .f32⟩ : BufTy).Contents (Elt F) → (⟨S8192x6144, .f32⟩ : BufTy).Contents (Elt F) → (⟨S8192x6144, .f32⟩ : BufTy).Contents (Elt F)) t_main_v40 t_main_v30
  t_main_v41

/-- The result from the two weight arrays, the input, the bias and the permutation indices. -/
def outRef (a0 : (⟨S256x8192, .f32⟩ : BufTy).Contents (Elt F)) (t_main_v20 : (⟨S8192x2048, .f32⟩ : BufTy).Contents (Elt F)) (t_main_v41 : (⟨S8192x6144, .f32⟩ : BufTy).Contents (Elt F)) (a7 : (⟨S8192, .f32⟩ : BufTy).Contents (Elt F)) (a8 : (⟨S8192, .i32⟩ : BufTy).Contents (Elt F)) : (⟨S256x8192, .f32⟩ : BufTy).Contents (Elt F) :=
  let t_main_v42 := ((fun a b => concatenate S8192x8192 1 [⟨S8192x2048, a⟩, ⟨S8192x6144, b⟩] concatenates_S8192x2048_S8192x6144_S8192x8192_d1) : (⟨S8192x2048, .f32⟩ : BufTy).Contents (Elt F) → (⟨S8192x6144, .f32⟩ : BufTy).Contents (Elt F) → (⟨S8192x8192, .f32⟩ : BufTy).Contents (Elt F)) t_main_v20 t_main_v41
  let t_main_c_9 := (constantI S_ 32 0#32)
  let t_main_v43 := (broadcastInDim S8192 ![] bcast_S_S8192 : (⟨S_, .i32⟩ : BufTy).Contents (Elt F) → (⟨S8192, .i32⟩ : BufTy).Contents (Elt F)) t_main_c_9
  let t_main_v44 := (cmpi .slt : (⟨S8192, .i32⟩ : BufTy).Contents (Elt F) → (⟨S8192, .i32⟩ : BufTy).Contents (Elt F) → (⟨S8192, .i1⟩ : BufTy).Contents (Elt F)) a8 t_main_v43
  let t_main_c_10 := (constantI S_ 32 8192#32)
  let t_main_v45 := (broadcastInDim S8192 ![] bcast_S_S8192 : (⟨S_, .i32⟩ : BufTy).Contents (Elt F) → (⟨S8192, .i32⟩ : BufTy).Contents (Elt F)) t_main_c_10
  let t_main_v46 := (addi : (⟨S8192, .i32⟩ : BufTy).Contents (Elt F) → (⟨S8192, .i32⟩ : BufTy).Contents (Elt F) → (⟨S8192, .i32⟩ : BufTy).Contents (Elt F)) a8 t_main_v45
  let t_main_v47 := (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) t_main_v44 t_main_v46 a8
  let t_main_v48 := (broadcastInDim S8192x1 ![0] bcast_S8192_S8192x1_0 : (⟨S8192, .i32⟩ : BufTy).Contents (Elt F) → (⟨S8192x1, .i32⟩ : BufTy).Contents (Elt F)) t_main_v47
  let t_main_v49 := ((fun x i => Host.gather gather_S256x8192_S8192x1_S256x8192_0_1_n_n_1_1_2561 x i) : (⟨S256x8192, .f32⟩ : BufTy).Contents (Elt F) → (⟨S8192x1, .i32⟩ : BufTy).Contents (Elt F) → (⟨S256x8192, .f32⟩ : BufTy).Contents (Elt F)) a0 t_main_v48
  let t_main_v50 := ((transpose S8192x8192 [1, 0] · transposes_S8192x8192_S8192x8192_1_0) : (⟨S8192x8192, .f32⟩ : BufTy).Contents (Elt F) → (⟨S8192x8192, .f32⟩ : BufTy).Contents (Elt F)) t_main_v42
  let t_main_v51 := ((fun l r => Host.dotGeneral dot_S256x8192_S8192x8192_S256x8192_1_0_0_1_n_n none l r) : (⟨S256x8192, .f32⟩ : BufTy).Contents (Elt F) → (⟨S8192x8192, .f32⟩ : BufTy).Contents (Elt F) → (⟨S256x8192, .f32⟩ : BufTy).Contents (Elt F)) t_main_v49 t_main_v50
  let t_main_v52 := (broadcastInDim S1x8192 ![1] bcast_S8192_S1x8192_1 : (⟨S8192, .f32⟩ : BufTy).Contents (Elt F) → (⟨S1x8192, .f32⟩ : BufTy).Contents (Elt F)) a7
  let t_main_v53 := (broadcastInDim S256x8192 ![0, 1] bcast_S1x8192_S256x8192_0_1 : (⟨S1x8192, .f32⟩ : BufTy).Contents (Elt F) → (⟨S256x8192, .f32⟩ : BufTy).Contents (Elt F)) t_main_v52
  let t_main_v54 := (addf : (⟨S256x8192, .f32⟩ : BufTy).Contents (Elt F) → (⟨S256x8192, .f32⟩ : BufTy).Contents (Elt F) → (⟨S256x8192, .f32⟩ : BufTy).Contents (Elt F)) t_main_v51 t_main_v53
  t_main_v54

end Cert.ReferenceIdeal.RefRun

end
-- ==== Proof.RefRun.lean ====
/-
  The reference program runs: it is a straight line of host operations (the two outlined integer divisions written out
  at their call sites), so every weakly fair execution ends with each buffer at the operations' fold over the launch
  contents; and that fold, at the result buffer, is the composed term `outRef … (wHighRef …) (wLowRef …) …` of the
  arguments, while every argument buffer is never written.
-/
import proofs.«402445_j64330020159908_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- ninety-nine binds re-associated: the rewrite under the chain recurses once per statement
set_option maxRecDepth 8192 in
set_option maxHeartbeats 1600000 in
/-- @main is that straight line: its two parts and the outlined functions unfolded at their calls, the sequencing
    re-associated. -/
theorem main_eq (c : Dev nD) : main (F := F) c = seq ops := by
  simp only [main, main_part0, main_part1, fn_floor_divide.body, fn_where.body, fn_floor_divide_0.body, fn_where_1.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every weakly fair execution of @main terminates, each TensorCore buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefOpsSeg.lean ====
import proofs.«402445_j64330020159908_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations up to the high region's dequantised weight array. -/
abbrev ops1 : List (HloOp τ sig (Elt F)) :=
  [ StableHlo.nullary main_v0 (iotaInDim S2048 32 0),
    StableHlo.nullary main_c (constantI S_ 32 128#32),
    StableHlo.TRef.unary (.of main_c : StableHlo.TRef sig ⟨S_, .i32⟩) main_call0.v0 id,
    StableHlo.TRef.unary main_call0.v0 main_call0.v1 (broadcastInDim S2048 ![] bcast_S_S2048),
    StableHlo.TRef.binary (.of main_v0 : StableHlo.TRef sig ⟨S2048, .i32⟩) main_call0.v1 main_call0.v2 Host.divsi,
    StableHlo.TRef.unary (.of main_v0 : StableHlo.TRef sig ⟨S2048, .i32⟩) main_call0.v3 signi,
    StableHlo.TRef.unary main_call0.v0 main_call0.v4 signi,
    StableHlo.TRef.unary main_call0.v4 main_call0.v5 (broadcastInDim S2048 ![] bcast_S_S2048),
    StableHlo.TRef.binary main_call0.v3 main_call0.v5 main_call0.v6 (cmpi .ne),
    StableHlo.TRef.unary main_call0.v0 main_call0.v7 (broadcastInDim S2048 ![] bcast_S_S2048),
    StableHlo.TRef.binary (.of main_v0 : StableHlo.TRef sig ⟨S2048, .i32⟩) main_call0.v7 main_call0.v8 Host.remsi,
    StableHlo.TRef.nullary main_call0.c (constantI S_ 32 0#32),
    StableHlo.TRef.unary main_call0.c main_call0.v9 (broadcastInDim S2048 ![] bcast_S_S2048),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S2048 ![] bcast_S_S2048),
    StableHlo.TRef.binary main_call0.v2 main_call0.v12 main_call0.v13 subi,
    StableHlo.TRef.ternary main_call0.v11 main_call0.v13 main_call0.v2 main_call0.call0.v0 select,
    StableHlo.nullary main_c_0 (constantI S_ 32 0#32),
    StableHlo.unary main_c_0 main_v2 (broadcastInDim S2048 ![] bcast_S_S2048 : (⟨S_, .i32⟩ : BufTy).Contents (Elt F) → (⟨S2048, .i32⟩ : BufTy).Contents (Elt F)),
    StableHlo.binary main_v1 main_v2 main_v3 (cmpi .slt : (⟨S2048, .i32⟩ : BufTy).Contents (Elt F) → (⟨S2048, .i32⟩ : BufTy).Contents (Elt F) → (⟨S2048, .i1⟩ : BufTy).Contents (Elt F)),
    StableHlo.nullary main_c_1 (constantI S_ 32 16#32),
    StableHlo.unary main_c_1 main_v4 (broadcastInDim S2048 ![] bcast_S_S2048 : (⟨S_, .i32⟩ : BufTy).Contents (Elt F) → (⟨S2048, .i32⟩ : BufTy).Contents (Elt F)),
    StableHlo.binary main_v1 main_v4 main_v5 (addi : (⟨S2048, .i32⟩ : BufTy).Contents (Elt F) → (⟨S2048, .i32⟩ : BufTy).Contents (Elt F) → (⟨S2048, .i32⟩ : BufTy).Contents (Elt F)),
    StableHlo.ternary main_v3 main_v5 main_v1 main_v6 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v6 main_v7 (broadcastInDim S2048x1 ![0] bcast_S2048_S2048x1_0 : (⟨S2048, .i32⟩ : BufTy).Contents (Elt F) → (⟨S2048x1, .i32⟩ : BufTy).Contents (Elt F)),
    StableHlo.binary main_arg3 main_v7 main_v8 ((fun x i => Host.gather gather_S16x8192_S2048x1_S2048x8192_1_0_n_n_0_1_18192 x i) : (⟨S16x8192, .f32⟩ : BufTy).Contents (Elt F) → (⟨S2048x1, .i32⟩ : BufTy).Contents (Elt F) → (⟨S2048x8192, .f32⟩ : BufTy).Contents (Elt F)),
    StableHlo.unary main_v8 main_v9 ((transpose S8192x2048 [1, 0] · transposes_S2048x8192_S8192x2048_1_0) : (⟨S2048x8192, .f32⟩ : BufTy).Contents (Elt F) → (⟨S8192x2048, .f32⟩ : BufTy).Contents (Elt F)),
    StableHlo.nullary main_c_2 (constantI S_ 32 0#32),
    StableHlo.unary main_c_2 main_v10 (broadcastInDim S2048 ![] bcast_S_S2048 : (⟨S_, .i32⟩ : BufTy).Contents (Elt F) → (⟨S2048, .i32⟩ : BufTy).Contents (Elt F)),
    StableHlo.binary main_v1 main_v10 main_v11 (cmpi .slt : (⟨S2048, .i32⟩ : BufTy).Contents (Elt F) → (⟨S2048, .i32⟩ : BufTy).Contents (Elt F) → (⟨S2048, .i1⟩ : BufTy).Contents (Elt F)),
    StableHlo.nullary main_c_3 (constantI S_ 32 16#32),
    StableHlo.unary main_c_3 main_v12 (broadcastInDim S2048 ![] bcast_S_S2048 : (⟨S_, .i32⟩ : BufTy).Contents (Elt F) → (⟨S2048, .i32⟩ : BufTy).Contents (Elt F)),
    StableHlo.binary main_v1 main_v12 main_v13 (addi : (⟨S2048, .i32⟩ : BufTy).Contents (Elt F) → (⟨S2048, .i32⟩ : BufTy).Contents (Elt F) → (⟨S2048, .i32⟩ : BufTy).Contents (Elt F)),
    StableHlo.ternary main_v11 main_v13 main_v1 main_v14 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v14 main_v15 (broadcastInDim S2048x1 ![0] bcast_S2048_S2048x1_0 : (⟨S2048, .i32⟩ : BufTy).Contents (Elt F) → (⟨S2048x1, .i32⟩ : BufTy).Contents (Elt F)),
    StableHlo.binary main_arg4 main_v15 main_v16 ((fun x i => Host.gather gather_S16x8192_S2048x1_S2048x8192_1_0_n_n_0_1_18192 x i) : (⟨S16x8192, .f32⟩ : BufTy).Contents (Elt F) → (⟨S2048x1, .i32⟩ : BufTy).Contents (Elt F) → (⟨S2048x8192, .f32⟩ : BufTy).Contents (Elt F)),
    StableHlo.unary main_v16 main_v17 ((transpose S8192x2048 [1, 0] · transposes_S2048x8192_S8192x2048_1_0) : (⟨S2048x8192, .f32⟩ : BufTy).Contents (Elt F) → (⟨S8192x2048, .f32⟩ : BufTy).Contents (Elt F)),
    StableHlo.unary main_arg1 main_v18 (sitofp .f32 : (⟨S8192x2048, .i32⟩ : BufTy).Contents (Elt F) → (⟨S8192x2048, .f32⟩ : BufTy).Contents (Elt F)),
    StableHlo.binary main_v18 main_v17 main_v19 (subf : (⟨S8192x2048, .f32⟩ : BufTy).Contents (Elt F) → (⟨S8192x2048, .f32⟩ : BufTy).Contents (Elt F) → (⟨S8192x2048, .f32⟩ : BufTy).Contents (Elt F)),
    StableHlo.binary main_v19 main_v9 main_v20 (mulf : (⟨S8192x2048, .f32⟩ : BufTy).Contents (Elt F) → (⟨S8192x2048, .f32⟩ : BufTy).Contents (Elt F) → (⟨S8192x2048, .f32⟩ : BufTy).Contents (Elt F)) ]

/-- The operations from there up to the low region's dequantised weight array. -/
abbrev ops2 : List (HloOp τ sig (Elt F)) :=
  [ StableHlo.nullary main_v21 (iotaInDim S6144 32 0),
    StableHlo.nullary main_c_4 (constantI S_ 32 128#32),
    StableHlo.TRef.unary (.of main_c_4 : StableHlo.TRef sig ⟨S_, .i32⟩) main_call1.v0 id,
    StableHlo.TRef.unary main_call1.v0 main_call1.v1 (broadcastInDim S6144 ![] bcast_S_S6144),
    StableHlo.TRef.binary (.of main_v21 : StableHlo.TRef sig ⟨S6144, .i32⟩) main_call1.v1 main_call1.v2 Host.divsi,
    StableHlo.TRef.unary (.of main_v21 : StableHlo.TRef sig ⟨S6144, .i32⟩) main_call1.v3 signi,
    StableHlo.TRef.unary main_call1.v0 main_call1.v4 signi,
    StableHlo.TRef.unary main_call1.v4 main_call1.v5 (broadcastInDim S6144 ![] bcast_S_S6144),
    StableHlo.TRef.binary main_call1.v3 main_call1.v5 main_call1.v6 (cmpi .ne),
    StableHlo.TRef.unary main_call1.v0 main_call1.v7 (broadcastInDim S6144 ![] bcast_S_S6144),
    StableHlo.TRef.binary (.of main_v21 : StableHlo.TRef sig ⟨S6144, .i32⟩) main_call1.v7 main_call1.v8 Host.remsi,
    StableHlo.TRef.nullary main_call1.c (constantI S_ 32 0#32),
    StableHlo.TRef.unary main_call1.c main_call1.v9 (broadcastInDim S6144 ![] bcast_S_S6144),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S6144 ![] bcast_S_S6144),
    StableHlo.TRef.binary main_call1.v2 main_call1.v12 main_call1.v13 subi,
    StableHlo.TRef.ternary main_call1.v11 main_call1.v13 main_call1.v2 main_call1.call0.v0 select,
    StableHlo.nullary main_c_5 (constantI S_ 32 0#32),
    StableHlo.unary main_c_5 main_v23 (broadcastInDim S6144 ![] bcast_S_S6144 : (⟨S_, .i32⟩ : BufTy).Contents (Elt F) → (⟨S6144, .i32⟩ : BufTy).Contents (Elt F)),
    StableHlo.binary main_v22 main_v23 main_v24 (cmpi .slt : (⟨S6144, .i32⟩ : BufTy).Contents (Elt F) → (⟨S6144, .i32⟩ : BufTy).Contents (Elt F) → (⟨S6144, .i1⟩ : BufTy).Contents (Elt F)),
    StableHlo.nullary main_c_6 (constantI S_ 32 48#32),
    StableHlo.unary main_c_6 main_v25 (broadcastInDim S6144 ![] bcast_S_S6144 : (⟨S_, .i32⟩ : BufTy).Contents (Elt F) → (⟨S6144, .i32⟩ : BufTy).Contents (Elt F)),
    StableHlo.binary main_v22 main_v25 main_v26 (addi : (⟨S6144, .i32⟩ : BufTy).Contents (Elt F) → (⟨S6144, .i32⟩ : BufTy).Contents (Elt F) → (⟨S6144, .i32⟩ : BufTy).Contents (Elt F)),
    StableHlo.ternary main_v24 main_v26 main_v22 main_v27 (select : (⟨S6144, .i1⟩ : BufTy).Contents (Elt F) → (⟨S6144, .i32⟩ : BufTy).Contents (Elt F) → (⟨S6144, .i32⟩ : BufTy).Contents (Elt F) → (⟨S6144, .i32⟩ : BufTy).Contents (Elt F)),
    StableHlo.unary main_v27 main_v28 (broadcastInDim S6144x1 ![0] bcast_S6144_S6144x1_0 : (⟨S6144, .i32⟩ : BufTy).Contents (Elt F) → (⟨S6144x1, .i32⟩ : BufTy).Contents (Elt F)),
    StableHlo.binary main_arg5 main_v28 main_v29 ((fun x i => Host.gather gather_S48x8192_S6144x1_S6144x8192_1_0_n_n_0_1_18192 x i) : (⟨S48x8192, .f32⟩ : BufTy).Contents (Elt F) → (⟨S6144x1, .i32⟩ : BufTy).Contents (Elt F) → (⟨S6144x8192, .f32⟩ : BufTy).Contents (Elt F)),
    StableHlo.unary main_v29 main_v30 ((transpose S8192x6144 [1, 0] · transposes_S6144x8192_S8192x6144_1_0) : (⟨S6144x8192, .f32⟩ : BufTy).Contents (Elt F) → (⟨S8192x6144, .f32⟩ : BufTy).Contents (Elt F)),
    StableHlo.nullary main_c_7 (constantI S_ 32 0#32),
    StableHlo.unary main_c_7 main_v31 (broadcastInDim S6144 ![] bcast_S_S6144 : (⟨S_, .i32⟩ : BufTy).Contents (Elt F) → (⟨S6144, .i32⟩ : BufTy).Contents (Elt F)),
    StableHlo.binary main_v22 main_v31 main_v32 (cmpi .slt : (⟨S6144, .i32⟩ : BufTy).Contents (Elt F) → (⟨S6144, .i32⟩ : BufTy).Contents (Elt F) → (⟨S6144, .i1⟩ : BufTy).Contents (Elt F)),
    StableHlo.nullary main_c_8 (constantI S_ 32 48#32),
    StableHlo.unary main_c_8 main_v33 (broadcastInDim S6144 ![] bcast_S_S6144 : (⟨S_, .i32⟩ : BufTy).Contents (Elt F) → (⟨S6144, .i32⟩ : BufTy).Contents (Elt F)),
    StableHlo.binary main_v22 main_v33 main_v34 (addi : (⟨S6144, .i32⟩ : BufTy).Contents (Elt F) → (⟨S6144, .i32⟩ : BufTy).Contents (Elt F) → (⟨S6144, .i32⟩ : BufTy).Contents (Elt F)),
    StableHlo.ternary main_v32 main_v34 main_v22 main_v35 (select : (⟨S6144, .i1⟩ : BufTy).Contents (Elt F) → (⟨S6144, .i32⟩ : BufTy).Contents (Elt F) → (⟨S6144, .i32⟩ : BufTy).Contents (Elt F) → (⟨S6144, .i32⟩ : BufTy).Contents (Elt F)),
    StableHlo.unary main_v35 main_v36 (broadcastInDim S6144x1 ![0] bcast_S6144_S6144x1_0 : (⟨S6144, .i32⟩ : BufTy).Contents (Elt F) → (⟨S6144x1, .i32⟩ : BufTy).Contents (Elt F)),
    StableHlo.binary main_arg6 main_v36 main_v37 ((fun x i => Host.gather gather_S48x8192_S6144x1_S6144x8192_1_0_n_n_0_1_18192 x i) : (⟨S48x8192, .f32⟩ : BufTy).Contents (Elt F) → (⟨S6144x1, .i32⟩ : BufTy).Contents (Elt F) → (⟨S6144x8192, .f32⟩ : BufTy).Contents (Elt F)),
    StableHlo.unary main_v37 main_v38 ((transpose S8192x6144 [1, 0] · transposes_S6144x8192_S8192x6144_1_0) : (⟨S6144x8192, .f32⟩ : BufTy).Contents (Elt F) → (⟨S8192x6144, .f32⟩ : BufTy).Contents (Elt F)),
    StableHlo.unary main_arg2 main_v39 (sitofp .f32 : (⟨S8192x6144, .i32⟩ : BufTy).Contents (Elt F) → (⟨S8192x6144, .f32⟩ : BufTy).Contents (Elt F)),
    StableHlo.binary main_v39 main_v38 main_v40 (subf : (⟨S8192x6144, .f32⟩ : BufTy).Contents (Elt F) → (⟨S8192x6144, .f32⟩ : BufTy).Contents (Elt F) → (⟨S8192x6144, .f32⟩ : BufTy).Contents (Elt F)),
    StableHlo.binary main_v40 main_v30 main_v41 (mulf : (⟨S8192x6144, .f32⟩ : BufTy).Contents (Elt F) → (⟨S8192x6144, .f32⟩ : BufTy).Contents (Elt F) → (⟨S8192x6144, .f32⟩ : BufTy).Contents (Elt F)) ]

/-- The remaining operations, up to the result. -/
abbrev ops3 : List (HloOp τ sig (Elt F)) :=
  [ StableHlo.binary main_v20 main_v41 main_v42 ((fun a b => concatenate S8192x8192 1 [⟨S8192x2048, a⟩, ⟨S8192x6144, b⟩] concatenates_S8192x2048_S8192x6144_S8192x8192_d1) : (⟨S8192x2048, .f32⟩ : BufTy).Contents (Elt F) → (⟨S8192x6144, .f32⟩ : BufTy).Contents (Elt F) → (⟨S8192x8192, .f32⟩ : BufTy).Contents (Elt F)),
    StableHlo.nullary main_c_9 (constantI S_ 32 0#32),
    StableHlo.unary main_c_9 main_v43 (broadcastInDim S8192 ![] bcast_S_S8192 : (⟨S_, .i32⟩ : BufTy).Contents (Elt F) → (⟨S8192, .i32⟩ : BufTy).Contents (Elt F)),
    StableHlo.binary main_arg8 main_v43 main_v44 (cmpi .slt : (⟨S8192, .i32⟩ : BufTy).Contents (Elt F) → (⟨S8192, .i32⟩ : BufTy).Contents (Elt F) → (⟨S8192, .i1⟩ : BufTy).Contents (Elt F)),
    StableHlo.nullary main_c_10 (constantI S_ 32 8192#32),
    StableHlo.unary main_c_10 main_v45 (broadcastInDim S8192 ![] bcast_S_S8192 : (⟨S_, .i32⟩ : BufTy).Contents (Elt F) → (⟨S8192, .i32⟩ : BufTy).Contents (Elt F)),
    StableHlo.binary main_arg8 main_v45 main_v46 (addi : (⟨S8192, .i32⟩ : BufTy).Contents (Elt F) → (⟨S8192, .i32⟩ : BufTy).Contents (Elt F) → (⟨S8192, .i32⟩ : BufTy).Contents (Elt F)),
    StableHlo.ternary main_v44 main_v46 main_arg8 main_v47 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v47 main_v48 (broadcastInDim S8192x1 ![0] bcast_S8192_S8192x1_0 : (⟨S8192, .i32⟩ : BufTy).Contents (Elt F) → (⟨S8192x1, .i32⟩ : BufTy).Contents (Elt F)),
    StableHlo.binary main_arg0 main_v48 main_v49 ((fun x i => Host.gather gather_S256x8192_S8192x1_S256x8192_0_1_n_n_1_1_2561 x i) : (⟨S256x8192, .f32⟩ : BufTy).Contents (Elt F) → (⟨S8192x1, .i32⟩ : BufTy).Contents (Elt F) → (⟨S256x8192, .f32⟩ : BufTy).Contents (Elt F)),
    StableHlo.unary main_v42 main_v50 ((transpose S8192x8192 [1, 0] · transposes_S8192x8192_S8192x8192_1_0) : (⟨S8192x8192, .f32⟩ : BufTy).Contents (Elt F) → (⟨S8192x8192, .f32⟩ : BufTy).Contents (Elt F)),
    StableHlo.binary main_v49 main_v50 main_v51 ((fun l r => Host.dotGeneral dot_S256x8192_S8192x8192_S256x8192_1_0_0_1_n_n none l r) : (⟨S256x8192, .f32⟩ : BufTy).Contents (Elt F) → (⟨S8192x8192, .f32⟩ : BufTy).Contents (Elt F) → (⟨S256x8192, .f32⟩ : BufTy).Contents (Elt F)),
    StableHlo.unary main_arg7 main_v52 (broadcastInDim S1x8192 ![1] bcast_S8192_S1x8192_1 : (⟨S8192, .f32⟩ : BufTy).Contents (Elt F) → (⟨S1x8192, .f32⟩ : BufTy).Contents (Elt F)),
    StableHlo.unary main_v52 main_v53 (broadcastInDim S256x8192 ![0, 1] bcast_S1x8192_S256x8192_0_1 : (⟨S1x8192, .f32⟩ : BufTy).Contents (Elt F) → (⟨S256x8192, .f32⟩ : BufTy).Contents (Elt F)),
    StableHlo.binary main_v51 main_v53 main_v54 (addf : (⟨S256x8192, .f32⟩ : BufTy).Contents (Elt F) → (⟨S256x8192, .f32⟩ : BufTy).Contents (Elt F) → (⟨S256x8192, .f32⟩ : BufTy).Contents (Elt F)) ]

/-- The operations are the three stretches one after the other. -/
theorem ops_split : (ops : List (HloOp τ sig (Elt F))) = ops1 ++ (ops2 ++ ops3) := rfl

end Cert.ReferenceIdeal.RefRun

end
-- ==== Proof.RefFold.lean ====
/-
  The fold of the reference's operations over any contents of its buffers, read at the result buffer and at each
  argument buffer. The operations come in three consecutive stretches: the first ends with the high region's
  dequantised weight array, the second with the low region's, the third computes the result from those two arrays,
  the input, the bias and the indices. A stretch reads what the stretches before it wrote and never writes an
  argument; so the fold at the result is the result chain applied to the two weight chains of the arguments, and at an
  argument buffer it returns the contents unchanged.
-/
import proofs.«402445_j64330020159908_2_alg».proof.Proof.RefOpsSeg

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Folding two lines one after the other is folding their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

theorem after_ops (V : Valuation τ sig (Elt F)) :
    after (ops (F := F)) V = after ops3 (after ops2 (after ops1 V)) := by
  rw [ops_split, after_append, after_append]

/-! ## The three stretches, each read at the buffers the later ones (or the claim) read -/

section Stretches
-- the operations whose bodies are searches or folds over an operand's elements stay folded while a stretch is read
attribute [local irreducible] Host.gather concatenate transpose

set_option maxRecDepth 16384 in
set_option maxHeartbeats 4000000 in
theorem seg1_weight (V : Valuation τ sig (Elt F)) :
    after (ops1 (F := F)) V (main_v20 : DevRef τ sig) = wHighRef (V (main_arg1 : DevRef τ sig)) (V (main_arg3 : DevRef τ sig)) (V (main_arg4 : DevRef τ sig)) := by
  after_results_simp
  rfl

set_option maxRecDepth 16384 in
set_option maxHeartbeats 4000000 in
theorem seg2_weight (V : Valuation τ sig (Elt F)) :
    after (ops2 (F := F)) V (main_v41 : DevRef τ sig) = wLowRef (V (main_arg2 : DevRef τ sig)) (V (main_arg5 : DevRef τ sig)) (V (main_arg6 : DevRef τ sig)) := by
  after_results_simp
  rfl

set_option maxRecDepth 16384 in
set_option maxHeartbeats 4000000 in
theorem seg3_out (V : Valuation τ sig (Elt F)) :
    after (ops3 (F := F)) V (main_v54 : DevRef τ sig)
      = outRef (V (main_arg0 : DevRef τ sig)) (V (main_v20 : DevRef τ sig)) (V (main_v41 : DevRef τ sig)) (V (main_arg7 : DevRef τ sig)) (V (main_arg8 : DevRef τ sig)) := by
  after_results_simp
  rfl

end Stretches

/-! ## No stretch writes an argument, and the second does not write the first's weight array -/

set_option maxRecDepth 16384 in
set_option maxHeartbeats 4000000 in
theorem seg1_arg0 (V : Valuation τ sig (Elt F)) : after (ops1 (F := F)) V (main_arg0 : DevRef τ sig) = V (main_arg0 : DevRef τ sig) := by
  after_results_simp
set_option maxRecDepth 16384 in
set_option maxHeartbeats 4000000 in
theorem seg1_arg1 (V : Valuation τ sig (Elt F)) : after (ops1 (F := F)) V (main_arg1 : DevRef τ sig) = V (main_arg1 : DevRef τ sig) := by
  after_results_simp
set_option maxRecDepth 16384 in
set_option maxHeartbeats 4000000 in
theorem seg1_arg2 (V : Valuation τ sig (Elt F)) : after (ops1 (F := F)) V (main_arg2 : DevRef τ sig) = V (main_arg2 : DevRef τ sig) := by
  after_results_simp
set_option maxRecDepth 16384 in
set_option maxHeartbeats 4000000 in
theorem seg1_arg3 (V : Valuation τ sig (Elt F)) : after (ops1 (F := F)) V (main_arg3 : DevRef τ sig) = V (main_arg3 : DevRef τ sig) := by
  after_results_simp
set_option maxRecDepth 16384 in
set_option maxHeartbeats 4000000 in
theorem seg1_arg4 (V : Valuation τ sig (Elt F)) : after (ops1 (F := F)) V (main_arg4 : DevRef τ sig) = V (main_arg4 : DevRef τ sig) := by
  after_results_simp
set_option maxRecDepth 16384 in
set_option maxHeartbeats 4000000 in
theorem seg1_arg5 (V : Valuation τ sig (Elt F)) : after (ops1 (F := F)) V (main_arg5 : DevRef τ sig) = V (main_arg5 : DevRef τ sig) := by
  after_results_simp
set_option maxRecDepth 16384 in
set_option maxHeartbeats 4000000 in
theorem seg1_arg6 (V : Valuation τ sig (Elt F)) : after (ops1 (F := F)) V (main_arg6 : DevRef τ sig) = V (main_arg6 : DevRef τ sig) := by
  after_results_simp
set_option maxRecDepth 16384 in
set_option maxHeartbeats 4000000 in
theorem seg1_arg7 (V : Valuation τ sig (Elt F)) : after (ops1 (F := F)) V (main_arg7 : DevRef τ sig) = V (main_arg7 : DevRef τ sig) := by
  after_results_simp
set_option maxRecDepth 16384 in
set_option maxHeartbeats 4000000 in
theorem seg1_arg8 (V : Valuation τ sig (Elt F)) : after (ops1 (F := F)) V (main_arg8 : DevRef τ sig) = V (main_arg8 : DevRef τ sig) := by
  after_results_simp
set_option maxRecDepth 16384 in
set_option maxHeartbeats 4000000 in
theorem seg2_arg0 (V : Valuation τ sig (Elt F)) : after (ops2 (F := F)) V (main_arg0 : DevRef τ sig) = V (main_arg0 : DevRef τ sig) := by
  after_results_simp
set_option maxRecDepth 16384 in
set_option maxHeartbeats 4000000 in
theorem seg2_arg1 (V : Valuation τ sig (Elt F)) : after (ops2 (F := F)) V (main_arg1 : DevRef τ sig) = V (main_arg1 : DevRef τ sig) := by
  after_results_simp
set_option maxRecDepth 16384 in
set_option maxHeartbeats 4000000 in
theorem seg2_arg2 (V : Valuation τ sig (Elt F)) : after (ops2 (F := F)) V (main_arg2 : DevRef τ sig) = V (main_arg2 : DevRef τ sig) := by
  after_results_simp
set_option maxRecDepth 16384 in
set_option maxHeartbeats 4000000 in
theorem seg2_arg3 (V : Valuation τ sig (Elt F)) : after (ops2 (F := F)) V (main_arg3 : DevRef τ sig) = V (main_arg3 : DevRef τ sig) := by
  after_results_simp
set_option maxRecDepth 16384 in
set_option maxHeartbeats 4000000 in
theorem seg2_arg4 (V : Valuation τ sig (Elt F)) : after (ops2 (F := F)) V (main_arg4 : DevRef τ sig) = V (main_arg4 : DevRef τ sig) := by
  after_results_simp
set_option maxRecDepth 16384 in
set_option maxHeartbeats 4000000 in
theorem seg2_arg5 (V : Valuation τ sig (Elt F)) : after (ops2 (F := F)) V (main_arg5 : DevRef τ sig) = V (main_arg5 : DevRef τ sig) := by
  after_results_simp
set_option maxRecDepth 16384 in
set_option maxHeartbeats 4000000 in
theorem seg2_arg6 (V : Valuation τ sig (Elt F)) : after (ops2 (F := F)) V (main_arg6 : DevRef τ sig) = V (main_arg6 : DevRef τ sig) := by
  after_results_simp
set_option maxRecDepth 16384 in
set_option maxHeartbeats 4000000 in
theorem seg2_arg7 (V : Valuation τ sig (Elt F)) : after (ops2 (F := F)) V (main_arg7 : DevRef τ sig) = V (main_arg7 : DevRef τ sig) := by
  after_results_simp
set_option maxRecDepth 16384 in
set_option maxHeartbeats 4000000 in
theorem seg2_arg8 (V : Valuation τ sig (Elt F)) : after (ops2 (F := F)) V (main_arg8 : DevRef τ sig) = V (main_arg8 : DevRef τ sig) := by
  after_results_simp
set_option maxRecDepth 16384 in
set_option maxHeartbeats 4000000 in
theorem seg3_arg0 (V : Valuation τ sig (Elt F)) : after (ops3 (F := F)) V (main_arg0 : DevRef τ sig) = V (main_arg0 : DevRef τ sig) := by
  after_results_simp
set_option maxRecDepth 16384 in
set_option maxHeartbeats 4000000 in
theorem seg3_arg1 (V : Valuation τ sig (Elt F)) : after (ops3 (F := F)) V (main_arg1 : DevRef τ sig) = V (main_arg1 : DevRef τ sig) := by
  after_results_simp
set_option maxRecDepth 16384 in
set_option maxHeartbeats 4000000 in
theorem seg3_arg2 (V : Valuation τ sig (Elt F)) : after (ops3 (F := F)) V (main_arg2 : DevRef τ sig) = V (main_arg2 : DevRef τ sig) := by
  after_results_simp
set_option maxRecDepth 16384 in
set_option maxHeartbeats 4000000 in
theorem seg3_arg3 (V : Valuation τ sig (Elt F)) : after (ops3 (F := F)) V (main_arg3 : DevRef τ sig) = V (main_arg3 : DevRef τ sig) := by
  after_results_simp
set_option maxRecDepth 16384 in
set_option maxHeartbeats 4000000 in
theorem seg3_arg4 (V : Valuation τ sig (Elt F)) : after (ops3 (F := F)) V (main_arg4 : DevRef τ sig) = V (main_arg4 : DevRef τ sig) := by
  after_results_simp
set_option maxRecDepth 16384 in
set_option maxHeartbeats 4000000 in
theorem seg3_arg5 (V : Valuation τ sig (Elt F)) : after (ops3 (F := F)) V (main_arg5 : DevRef τ sig) = V (main_arg5 : DevRef τ sig) := by
  after_results_simp
set_option maxRecDepth 16384 in
set_option maxHeartbeats 4000000 in
theorem seg3_arg6 (V : Valuation τ sig (Elt F)) : after (ops3 (F := F)) V (main_arg6 : DevRef τ sig) = V (main_arg6 : DevRef τ sig) := by
  after_results_simp
set_option maxRecDepth 16384 in
set_option maxHeartbeats 4000000 in
theorem seg3_arg7 (V : Valuation τ sig (Elt F)) : after (ops3 (F := F)) V (main_arg7 : DevRef τ sig) = V (main_arg7 : DevRef τ sig) := by
  after_results_simp
set_option maxRecDepth 16384 in
set_option maxHeartbeats 4000000 in
theorem seg3_arg8 (V : Valuation τ sig (Elt F)) : after (ops3 (F := F)) V (main_arg8 : DevRef τ sig) = V (main_arg8 : DevRef τ sig) := by
  after_results_simp

set_option maxRecDepth 16384 in
set_option maxHeartbeats 4000000 in
theorem seg2_v20 (V : Valuation τ sig (Elt F)) : after (ops2 (F := F)) V (main_v20 : DevRef τ sig) = V (main_v20 : DevRef τ sig) := by
  after_results_simp

/-! ## The whole line -/

/-- The fold at the result buffer is the composed term of the arguments. -/
theorem out_eq (V : Valuation τ sig (Elt F)) :
    after ops V (main_v54 : DevRef τ sig)
      = outRef (V (main_arg0 : DevRef τ sig))
          (wHighRef (V (main_arg1 : DevRef τ sig)) (V (main_arg3 : DevRef τ sig)) (V (main_arg4 : DevRef τ sig)))
          (wLowRef (V (main_arg2 : DevRef τ sig)) (V (main_arg5 : DevRef τ sig)) (V (main_arg6 : DevRef τ sig)))
          (V (main_arg7 : DevRef τ sig)) (V (main_arg8 : DevRef τ sig)) := by
  rw [after_ops, seg3_out, seg2_weight, seg2_v20, seg1_weight,
    seg2_arg0, seg1_arg0, seg1_arg2, seg1_arg5, seg1_arg6, seg2_arg7, seg1_arg7, seg2_arg8, seg1_arg8]

theorem arg0_eq (V : Valuation τ sig (Elt F)) : after ops V (main_arg0 : DevRef τ sig) = V (main_arg0 : DevRef τ sig) := by
  rw [after_ops, seg3_arg0, seg2_arg0, seg1_arg0]
theorem arg1_eq (V : Valuation τ sig (Elt F)) : after ops V (main_arg1 : DevRef τ sig) = V (main_arg1 : DevRef τ sig) := by
  rw [after_ops, seg3_arg1, seg2_arg1, seg1_arg1]
theorem arg2_eq (V : Valuation τ sig (Elt F)) : after ops V (main_arg2 : DevRef τ sig) = V (main_arg2 : DevRef τ sig) := by
  rw [after_ops, seg3_arg2, seg2_arg2, seg1_arg2]
theorem arg3_eq (V : Valuation τ sig (Elt F)) : after ops V (main_arg3 : DevRef τ sig) = V (main_arg3 : DevRef τ sig) := by
  rw [after_ops, seg3_arg3, seg2_arg3, seg1_arg3]
theorem arg4_eq (V : Valuation τ sig (Elt F)) : after ops V (main_arg4 : DevRef τ sig) = V (main_arg4 : DevRef τ sig) := by
  rw [after_ops, seg3_arg4, seg2_arg4, seg1_arg4]
theorem arg5_eq (V : Valuation τ sig (Elt F)) : after ops V (main_arg5 : DevRef τ sig) = V (main_arg5 : DevRef τ sig) := by
  rw [after_ops, seg3_arg5, seg2_arg5, seg1_arg5]
theorem arg6_eq (V : Valuation τ sig (Elt F)) : after ops V (main_arg6 : DevRef τ sig) = V (main_arg6 : DevRef τ sig) := by
  rw [after_ops, seg3_arg6, seg2_arg6, seg1_arg6]
theorem arg7_eq (V : Valuation τ sig (Elt F)) : after ops V (main_arg7 : DevRef τ sig) = V (main_arg7 : DevRef τ sig) := by
  rw [after_ops, seg3_arg7, seg2_arg7, seg1_arg7]
theorem arg8_eq (V : Valuation τ sig (Elt F)) : after ops V (main_arg8 : DevRef τ sig) = V (main_arg8 : DevRef τ sig) := by
  rw [after_ops, seg3_arg8, seg2_arg8, seg1_arg8]

end Cert.ReferenceIdeal.RefRun

end
-- ==== Proof.RefWeights.lean ====
/-
  The reference's two dequantised weight arrays, entry by entry. Column `k` belongs to tile `k / 128`: the reference
  computes the tile numbers as an iota divided by 128 rounding down (a signed division corrected where the signs of
  the operands differ and the remainder is not zero; on the non-negative iota no correction happens), wraps them as
  indices (none is negative), gathers the rows of the scale and zero-point tables at them and transposes; so entry
  `(o, k)` is `(code[o, k] − zero[k / 128, o]) · scale[k / 128, o]`.
-/
import proofs.«402445_j64330020159908_2_alg».proof.Proof.RefOps
import proofs.«402445_j64330020159908_2_alg».proof.Proof.Spec
import proofs.«402445_j64330020159908_2_alg».proof.Proof.LibGather
import Idealize.ShloMosaic.Lib.ValueIdx
import Idealize.ShloMosaic.Lib.ValueLayout
import Idealize.ShloMosaic.Lib.Pipeline.Value

noncomputable section

namespace Cert.ReferenceIdeal.RefValue

open Cert.ReferenceIdeal Cert.ReferenceIdeal.Gen Cert.ReferenceIdeal.RefRun Idealize.ShloMosaic Idealize.ShloMosaic.TcCoe Idealize.ShloMosaic.ValueIdx
open Cert.PackedLinear

namespace RefWeightSteps

/-! ## Words: the rounded-down quotient by 128 of a small non-negative word -/

/-- The sign word of a 32-bit word: `0`, `-1` or `1`. -/
def sgnWord (x : BitVec 32) : BitVec 32 := if x = 0 then 0 else if x.msb then -1 else 1

/-- The quotient of `v` by `c` rounded down, as the reference writes it: the signed quotient (rounded toward zero),
    less one where the operands' signs differ and the remainder is not zero. -/
def floorDivWord (v c : BitVec 32) : BitVec 32 :=
  Scalar.select
    (IntOp.andi (IntOp.cmpi .ne (sgnWord v) (sgnWord c)) (IntOp.cmpi .ne (IntOp.remsi .host v c) 0#32))
    (IntOp.subi (IntOp.divsi .host v c) 1#32) (IntOp.divsi .host v c)

/-- A number below 6144 is the value of its 32-bit word … -/
theorem toNat_small {n : Nat} (h : n < 6144) : (BitVec.ofNat 32 n).toNat = n := by
  rw [BitVec.toNat_ofNat]; omega

/-- … and that word's sign bit is clear. -/
theorem msb_small {n : Nat} (h : n < 6144) : (BitVec.ofNat 32 n).msb = false := by
  rw [BitVec.msb_eq_false_iff_two_mul_lt, toNat_small h]; omega

/-- Read as a signed integer, then as a natural number, such a word is the number again. -/
theorem toInt_toNat_small {n : Nat} (h : n < 6144) : (BitVec.ofNat 32 n).toInt.toNat = n := by
  rw [BitVec.toInt_eq_toNat_of_msb (msb_small h), toNat_small h]
  exact Int.toNat_natCast n

/-- Such a word is not below zero as a signed integer. -/
theorem not_slt_zero_small {n : Nat} (h : n < 6144) : IntOp.cmpi .slt (BitVec.ofNat 32 n) 0#32 = 0#1 := by
  show BitVec.ofBool ((BitVec.ofNat 32 n).slt 0#32) = 0#1
  have : (BitVec.ofNat 32 n).slt 0#32 = false := by
    rw [BitVec.slt_eq_decide, BitVec.toInt_eq_toNat_of_msb (msb_small h), toNat_small h]
    simp
  rw [this]
  rfl

/-- Dividing by the word 128 never meets a corner of the signed division: the divisor is neither `0` nor `-1`. -/
theorem not_corner_128 (v : BitVec 32) : ¬ IntOp.SDivCorner v 128#32 := by
  unfold IntOp.SDivCorner
  exact not_or.mpr ⟨by decide, fun h => absurd h.2 (by decide)⟩

/-- For `n < 6144` the corrected signed quotient of the word of `n` by the word 128 is the word of
    `n / 128`. Both operands have a clear sign bit, so the signed quotient and remainder are the unsigned ones, `n / 128`
    and `n % 128`. No correction happens: for `n = 0` the signs differ (`0` against `1`) but the remainder is zero; for
    `n > 0` both signs are `1`. -/
theorem floorDiv128 (n : Nat) (h : n < 6144) :
    floorDivWord (BitVec.ofNat 32 n) 128#32 = BitVec.ofNat 32 (n / 128) := by
  have hm := msb_small h
  have hc : (128#32).msb = false := by decide
  have hq : IntOp.divsi .host (BitVec.ofNat 32 n) 128#32 = BitVec.ofNat 32 (n / 128) := by
    unfold IntOp.divsi
    rw [if_neg (not_corner_128 _), BitVec.sdiv_eq, hm, hc]
    apply BitVec.eq_of_toNat_eq
    rw [BitVec.udiv_eq, BitVec.toNat_udiv, toNat_small h, toNat_small (by omega : n / 128 < 6144)]
    rfl
  have hr : IntOp.remsi .host (BitVec.ofNat 32 n) 128#32 = BitVec.ofNat 32 (n % 128) := by
    unfold IntOp.remsi
    rw [if_neg (not_corner_128 _), BitVec.srem_eq, hm, hc]
    apply BitVec.eq_of_toNat_eq
    show (BitVec.ofNat 32 n % 128#32).toNat = _
    rw [BitVec.toNat_umod, toNat_small h, toNat_small (by omega : n % 128 < 6144)]
    rfl
  have hcond : IntOp.andi (IntOp.cmpi .ne (sgnWord (BitVec.ofNat 32 n)) (sgnWord 128#32))
      (IntOp.cmpi .ne (IntOp.remsi .host (BitVec.ofNat 32 n) 128#32) 0#32) = 0#1 := by
    rw [hr]
    rcases Nat.eq_zero_or_pos n with h0 | h0
    · -- the zero word: its remainder is zero
      subst h0
      decide
    · -- a positive word: its sign word is `1`, the divisor's too
      have hne : BitVec.ofNat 32 n ≠ 0 := by
        intro he
        have := congrArg BitVec.toNat he
        rw [toNat_small h] at this
        simp at this
        omega
      have hs : sgnWord (BitVec.ofNat 32 n) = 1 := by
        unfold sgnWord
        rw [if_neg hne, hm]
        rfl
      rw [hs]
      have h1 : IntOp.cmpi .ne (1 : BitVec 32) (sgnWord 128#32) = 0#1 := by decide
      rw [h1]
      unfold IntOp.andi
      exact BitVec.zero_and
  unfold floorDivWord
  rw [hcond, select_zero, hq]

/-! ## The chain of vector operations, for a region of `n` columns in `nt` tiles -/

section Chain
variable {n nt : Nat} {α : Type}

/-- The tile numbers of the `n` columns as the reference computes them: the columns' own numbers (an iota) divided by
    the constant 128, rounding down. -/
def tileNums (hb : S_.BroadcastsInDim ⟨1, ![n]⟩ (![] : Fin 0 → Fin 1)) : IVec ⟨1, ![n]⟩ 32 :=
  let v0 : IVec ⟨1, ![n]⟩ 32 := iotaInDim ⟨1, ![n]⟩ 32 0
  let c := constantI S_ 32 128#32
  let c0 := id c
  let v1 := broadcastInDim ⟨1, ![n]⟩ ![] hb c0
  let v2 := Host.divsi v0 v1
  let v3 := signi v0
  let v4 := signi c0
  let v5 := broadcastInDim ⟨1, ![n]⟩ ![] hb v4
  let v6 := cmpi .ne v3 v5
  let v7 := broadcastInDim ⟨1, ![n]⟩ ![] hb c0
  let v8 := Host.remsi v0 v7
  let cz := constantI S_ 32 0#32
  let v9 := broadcastInDim ⟨1, ![n]⟩ ![] hb cz
  let v10 := cmpi .ne v8 v9
  let v11 := andi v6 v10
  let c1 := constantI S_ 32 1#32
  let v12 := broadcastInDim ⟨1, ![n]⟩ ![] hb c1
  let v13 := subi v2 v12
  select v11 v13 v2

/-- Numbers wrapped as indices into an axis of extent `m`: a negative one counts from the end. -/
def wrapNums (hb : S_.BroadcastsInDim ⟨1, ![n]⟩ (![] : Fin 0 → Fin 1)) (m : BitVec 32) (t : IVec ⟨1, ![n]⟩ 32) :
    IVec ⟨1, ![n]⟩ 32 :=
  select (cmpi .slt t (broadcastInDim ⟨1, ![n]⟩ ![] hb (constantI S_ 32 0#32)))
    (addi t (broadcastInDim ⟨1, ![n]⟩ ![] hb (constantI S_ 32 m))) t

/-- Entry `k` of the tile numbers is the corrected signed quotient of the word of `k` by the word 128 … -/
theorem tileNums_word (hb : S_.BroadcastsInDim ⟨1, ![n]⟩ (![] : Fin 0 → Fin 1)) (k : Fin n) :
    tileNums hb (ix1 k) = floorDivWord (BitVec.ofNat 32 k.val) 128#32 := rfl

/-- … which is the word of `k / 128`. -/
theorem tileNums_apply (hn : n ≤ 6144) (hb : S_.BroadcastsInDim ⟨1, ![n]⟩ (![] : Fin 0 → Fin 1)) (k : Fin n) :
    tileNums hb (ix1 k) = BitVec.ofNat 32 (k.val / 128) := by
  rw [tileNums_word]
  exact floorDiv128 k.val (by have := k.isLt; omega)

/-- Wrapping leaves a small non-negative number alone. -/
theorem wrapNums_apply (hb : S_.BroadcastsInDim ⟨1, ![n]⟩ (![] : Fin 0 → Fin 1)) (m : BitVec 32) (t : IVec ⟨1, ![n]⟩ 32)
    (k : Fin n) (j : Nat) (hj : j < 6144) (ht : t (ix1 k) = BitVec.ofNat 32 j) :
    wrapNums hb m t (ix1 k) = BitVec.ofNat 32 j := by
  show Scalar.select (IntOp.cmpi .slt (t (ix1 k)) 0#32) (IntOp.addi (t (ix1 k)) m) (t (ix1 k)) = _
  rw [ht, not_slt_zero_small hj, select_zero]

end Chain

/-! ## The gathered, transposed table at an index -/

section Gathered
variable {n nt : Nat} {α : Type}

/-- A table `[nt, 8192]` gathered by rows at the tile numbers and transposed: if the index vector holds at each column
    `k` the word of `k / 128`, entry `(o, k)` of the result is the table's entry `(k / 128, o)`. The transpose swaps the
    coordinates, the row gather reads the row its start index names (read signed and clamped into the axis: a no-op
    on `k / 128 < nt`), and the start indices `[n, 1]` are the index vector with a unit axis added. -/
theorem gather_tile (h : n = 128 * nt) (hn : n ≤ 6144)
    (wf : GatherDims.WF ⟨2, ![nt, 8192]⟩ ⟨2, ![n, 1]⟩ ⟨2, ![n, 8192]⟩ [1] [0] [] [0] [] 1 ![1, 8192])
    (hb1 : (⟨1, ![n]⟩ : Shape).BroadcastsInDim ⟨2, ![n, 1]⟩ (![0] : Fin 1 → Fin 2))
    (htr : (⟨2, ![n, 8192]⟩ : Shape).Transposes [1, 0] ⟨2, ![8192, n]⟩)
    (x : (⟨2, ![nt, 8192]⟩ : Shape).Idx → α) (t : IVec ⟨1, ![n]⟩ 32)
    (ht : ∀ k : Fin n, t (ix1 k) = BitVec.ofNat 32 (k.val / 128)) (o : Fin 8192) (k : Fin n) :
    transpose ⟨2, ![8192, n]⟩ [1, 0]
        (Host.gather (rowDims nt 8192 n wf) x (broadcastInDim ⟨2, ![n, 1]⟩ ![0] hb1 t)) htr (ix2 o k)
      = x (ix2 (tile h k) o) := by
  have hk := k.isLt
  have hnt : 0 < nt := by omega
  -- the transpose: result `(o, k)` reads the gather's `(k, o)`
  rw [transpose_apply [1, 0] _ htr (ix2 o k) (ix2 k o) (fun b => match b with | ⟨0, _⟩ => rfl | ⟨1, _⟩ => rfl)]
  -- the row gather
  rw [gather_rows_apply hnt wf]
  -- the start index at `(k, 0)` is the index vector's entry `k`
  have hidx : broadcastInDim ⟨2, ![n, 1]⟩ ![0] hb1 t (ix2 k (0 : Fin 1)) = t (ix1 k) :=
    broadcastInDim_apply _ hb1 t _ (ix1 k) (fun a => match a with
      | ⟨0, _⟩ => by
        show k.val = if n = 1 then 0 else k.val
        split <;> omega)
  -- so the row read is tile `k / 128`
  have hrow : (⟨min (broadcastInDim ⟨2, ![n, 1]⟩ ![0] hb1 t (ix2 k (0 : Fin 1))).toInt.toNat (nt - 1), by omega⟩ : Fin nt)
      = tile h k := by
    refine Fin.ext ?_
    show min (broadcastInDim ⟨2, ![n, 1]⟩ ![0] hb1 t (ix2 k (0 : Fin 1))).toInt.toNat (nt - 1) = k.val / 128
    rw [hidx, ht k, toInt_toNat_small (by omega : k.val / 128 < 6144)]
    omega
  rw [hrow]

end Gathered

end RefWeightSteps

open RefWeightSteps

/-! ## The two regions -/

/-- The high region's array is the chain above at 2048 columns in 16 tiles: the codes as reals, minus the gathered
    zero points, times the gathered scales. -/
theorem wHighRef_eq (a1 : IVec S8192x2048 32) (a3 a4 : FVec Ideal S16x8192 .f32) :
    wHighRef (F := Ideal) a1 a3 a4
      = mulf (subf (sitofp .f32 a1)
            (transpose S8192x2048 [1, 0]
              (Host.gather (rowDims 16 8192 2048 gather_S16x8192_S2048x1_S2048x8192_1_0_n_n_0_1_18192_wf) a4
                (broadcastInDim S2048x1 ![0] bcast_S2048_S2048x1_0 (wrapNums bcast_S_S2048 16#32 (tileNums bcast_S_S2048))))
              transposes_S2048x8192_S8192x2048_1_0))
          (transpose S8192x2048 [1, 0]
            (Host.gather (rowDims 16 8192 2048 gather_S16x8192_S2048x1_S2048x8192_1_0_n_n_0_1_18192_wf) a3
              (broadcastInDim S2048x1 ![0] bcast_S2048_S2048x1_0 (wrapNums bcast_S_S2048 16#32 (tileNums bcast_S_S2048))))
            transposes_S2048x8192_S8192x2048_1_0) := rfl

/-- The high region's dequantised weight at output `o`, column `k`. -/
theorem wHighRef_apply (a1 : IVec S8192x2048 32) (a3 a4 : FVec Ideal S16x8192 .f32) (o : Fin 8192) (k : Fin 2048) :
    wHighRef (F := Ideal) a1 a3 a4 (ix2 o k) = weight (nt := 16) rfl a1 a3 a4 o k := by
  have hidx : ∀ k : Fin 2048, wrapNums bcast_S_S2048 16#32 (tileNums bcast_S_S2048) (ix1 k) = BitVec.ofNat 32 (k.val / 128) :=
    fun k => wrapNums_apply _ _ _ k _ (by have := k.isLt; omega) (tileNums_apply (by omega) _ k)
  rw [wHighRef_eq, mulf_apply, subf_apply, sitofp_apply,
    gather_tile (nt := 16) rfl (by omega) _ _ _ a4 _ hidx o k, gather_tile (nt := 16) rfl (by omega) _ _ _ a3 _ hidx o k]
  rfl

/-- The low region's array is the same chain at 6144 columns in 48 tiles. -/
theorem wLowRef_eq (a2 : IVec S8192x6144 32) (a5 a6 : FVec Ideal S48x8192 .f32) :
    wLowRef (F := Ideal) a2 a5 a6
      = mulf (subf (sitofp .f32 a2)
            (transpose S8192x6144 [1, 0]
              (Host.gather (rowDims 48 8192 6144 gather_S48x8192_S6144x1_S6144x8192_1_0_n_n_0_1_18192_wf) a6
                (broadcastInDim S6144x1 ![0] bcast_S6144_S6144x1_0 (wrapNums bcast_S_S6144 48#32 (tileNums bcast_S_S6144))))
              transposes_S6144x8192_S8192x6144_1_0))
          (transpose S8192x6144 [1, 0]
            (Host.gather (rowDims 48 8192 6144 gather_S48x8192_S6144x1_S6144x8192_1_0_n_n_0_1_18192_wf) a5
              (broadcastInDim S6144x1 ![0] bcast_S6144_S6144x1_0 (wrapNums bcast_S_S6144 48#32 (tileNums bcast_S_S6144))))
            transposes_S6144x8192_S8192x6144_1_0) := rfl

/-- The low region's dequantised weight at output `o`, column `k`. -/
theorem wLowRef_apply (a2 : IVec S8192x6144 32) (a5 a6 : FVec Ideal S48x8192 .f32) (o : Fin 8192) (k : Fin 6144) :
    wLowRef (F := Ideal) a2 a5 a6 (ix2 o k) = weight (nt := 48) rfl a2 a5 a6 o k := by
  have hidx : ∀ k : Fin 6144, wrapNums bcast_S_S6144 48#32 (tileNums bcast_S_S6144) (ix1 k) = BitVec.ofNat 32 (k.val / 128) :=
    fun k => wrapNums_apply _ _ _ k _ (by have := k.isLt; omega) (tileNums_apply (by omega) _ k)
  rw [wLowRef_eq, mulf_apply, subf_apply, sitofp_apply,
    gather_tile (nt := 48) rfl (by omega) _ _ _ a6 _ hidx o k, gather_tile (nt := 48) rfl (by omega) _ _ _ a5 _ hidx o k]
  rfl

end Cert.ReferenceIdeal.RefValue

end
-- ==== Proof.RefOut.lean ====
/-
  The reference's result from its two weight arrays, entry by entry. The weights are concatenated along the columns
  (`W[o, k]` is the high array for `k < 2048`, the low array at `k − 2048` otherwise) and transposed; the input's
  columns are gathered at the wrapped indices (`xp[b, k] = x[b, col k]`); the product contracts the position `k`
  over all 8192 positions, which splits at 2048 into the two regions' sums; the bias is added along the outputs.
-/
import proofs.«402445_j64330020159908_2_alg».proof.Proof.RefOps
import proofs.«402445_j64330020159908_2_alg».proof.Proof.Spec
import proofs.«402445_j64330020159908_2_alg».proof.Proof.LibGather
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.RefRun Idealize.ShloMosaic Idealize.ShloMosaic.TcCoe Idealize.ShloMosaic.ValueIdx
open Cert.PackedLinear

/-! The operations of the chain, each read at an index; the result's entry follows by chaining them. -/

namespace RefOutSteps

section Layout
variable {α : Type}

/-- The two weight arrays side by side: a column below 2048 is a column of the first array. -/
theorem cat_high (wh : S8192x2048.Idx → α) (wl : S8192x6144.Idx → α)
    (h : Shape.Concatenates [S8192x2048, S8192x6144] S8192x8192 1) (o : Fin 8192) (k : Fin 2048) :
    concatenate S8192x8192 1 [⟨S8192x2048, wh⟩, ⟨S8192x6144, wl⟩] h
        (ix2 o (⟨k.val, by have := k.isLt; omega⟩ : Fin 8192)) = wh (ix2 o k) := by
  refine concatenate_pair_apply_left 1 wh wl h _ rfl (ix2 o k) ?_
  intro c
  match c with
  | ⟨0, _⟩ => rfl
  | ⟨1, _⟩ => rfl

/-- A column from 2048 on is a column of the second array, 2048 less. -/
theorem cat_low (wh : S8192x2048.Idx → α) (wl : S8192x6144.Idx → α)
    (h : Shape.Concatenates [S8192x2048, S8192x6144] S8192x8192 1) (o : Fin 8192) (k : Fin 6144) :
    concatenate S8192x8192 1 [⟨S8192x2048, wh⟩, ⟨S8192x6144, wl⟩] h
        (ix2 o (⟨2048 + k.val, by have := k.isLt; omega⟩ : Fin 8192)) = wl (ix2 o k) := by
  refine concatenate_pair_apply_right 1 wh wl h _ rfl rfl (ix2 o k) ?_ ?_
  · intro c hc
    match c with
    | ⟨0, _⟩ => rfl
    | ⟨1, _⟩ => exact absurd rfl hc
  · show k.val + 2048 = 2048 + k.val
    omega

/-- The transposed square array at `(k, o)` is the array at `(o, k)`. -/
theorem transpose_sq_apply (x : S8192x8192.Idx → α) (h : S8192x8192.Transposes [1, 0] S8192x8192) (k o : Fin 8192) :
    transpose S8192x8192 [1, 0] x h (ix2 k o) = x (ix2 o k) := by
  refine transpose_apply [1, 0] x h (ix2 k o) (ix2 o k) ?_
  intro c
  match c with
  | ⟨0, _⟩ => rfl
  | ⟨1, _⟩ => rfl

/-- A vector laid out as a column: entry `(k, 0)` is entry `k`. -/
theorem column_apply (v : S8192.Idx → α) (h : S8192.BroadcastsInDim S8192x1 (![0] : Fin 1 → Fin S8192x1.rank)) (k : Fin 8192) :
    broadcastInDim S8192x1 ![0] h v (ix2 k (0 : Fin 1)) = v (ix1 k) := by
  refine broadcastInDim_apply _ h v _ (ix1 k) ?_
  intro c
  match c with
  | ⟨0, _⟩ => rfl

/-- A vector laid out as one row and repeated down 256 rows: entry `(b, o)` is entry `o`. -/
theorem rows_apply (v : S8192.Idx → α) (h1 : S8192.BroadcastsInDim S1x8192 (![1] : Fin 1 → Fin S1x8192.rank))
    (h2 : S1x8192.BroadcastsInDim S256x8192 (![0, 1] : Fin 2 → Fin S256x8192.rank)) (b : Fin 256) (o : Fin 8192) :
    broadcastInDim S256x8192 ![0, 1] h2 (broadcastInDim S1x8192 ![1] h1 v) (ix2 b o) = v (ix1 o) := by
  have e1 : broadcastInDim S256x8192 ![0, 1] h2 (broadcastInDim S1x8192 ![1] h1 v) (ix2 b o)
      = broadcastInDim S1x8192 ![1] h1 v (ix2 (0 : Fin 1) o) := by
    refine broadcastInDim_apply _ h2 _ _ (ix2 (0 : Fin 1) o) ?_
    intro c
    match c with
    | ⟨0, _⟩ => rfl
    | ⟨1, _⟩ => rfl
  rw [e1]
  refine broadcastInDim_apply _ h1 v _ (ix1 o) ?_
  intro c
  match c with
  | ⟨0, _⟩ => rfl

end Layout

/-- The integer indices wrapped once, entry by entry: negative entries count from the end of the axis. -/
theorem wrapped_apply (a8 : IVec S8192 32) (h : S_.BroadcastsInDim S8192 (![] : Fin 0 → Fin S8192.rank)) (k : Fin 8192) :
    select (cmpi .slt a8 (broadcastInDim S8192 ![] h (constantI S_ 32 0#32)))
        (addi a8 (broadcastInDim S8192 ![] h (constantI S_ 32 8192#32))) a8 (ix1 k)
      = wrap (a8 (ix1 k)) := rfl

/-- The input's columns gathered at a column of index words: entry `(b, k)` is the input at row `b` and the column
    that word `k` names, read signed and clamped into the axis. -/
theorem gathered_apply {β : Type} (a0 : S256x8192.Idx → β) (idx : IVec S8192x1 32) (b : Fin 256) (k : Fin 8192) :
    Host.gather gather_S256x8192_S8192x1_S256x8192_0_1_n_n_1_1_2561 a0 idx (ix2 b k)
      = a0 (ix2 b (⟨min (idx (ix2 k (0 : Fin 1))).toInt.toNat 8191, by omega⟩ : Fin 8192)) := by
  show Host.gather (colDims 256 8192 8192 Facts₀.gather_S256x8192_S8192x1_S256x8192_0_1_n_n_1_1_2561_wf) a0 idx (ix2 b k) = _
  exact gather_cols_apply (by norm_num) _ a0 idx b k

/-- With index words that are the wrapped entries of `a8`, the gathered input at `(b, k)` is the input at row `b`
    and column `col a8 k`: the wrapped word read signed and clamped is exactly the position `col` names. -/
theorem permuted_apply {β : Type} (a0 : S256x8192.Idx → β) (a8 : IVec S8192 32) (idx : IVec S8192x1 32)
    (hidx : ∀ k : Fin 8192, idx (ix2 k (0 : Fin 1)) = wrap (a8 (ix1 k))) (b : Fin 256) (k : Fin 8192) :
    Host.gather gather_S256x8192_S8192x1_S256x8192_0_1_n_n_1_1_2561 a0 idx (ix2 b k) = a0 (ix2 b (col a8 k)) := by
  rw [gathered_apply]
  exact congrArg (fun w : BitVec 32 => a0 (ix2 b (⟨min w.toInt.toNat 8191, by omega⟩ : Fin 8192))) (hidx k)

section Product

/-- The product's left operand index on its free axis (rows) is the result's row. -/
theorem lhs_dot_S256x8192_S8192x8192_S256x8192_1_0_0_1_n_n_0 (j : S256x8192.Idx)
    (q : dot_S256x8192_S8192x8192_S256x8192_1_0_0_1_n_n.contr.Idx) :
    (dot_S256x8192_S8192x8192_S256x8192_1_0_0_1_n_n.lhsIdx j q 0).val = (j 0).val := rfl

/-- On its contracted axis (columns) it is the contraction position. -/
theorem lhs_dot_S256x8192_S8192x8192_S256x8192_1_0_0_1_n_n_1 (j : S256x8192.Idx)
    (q : dot_S256x8192_S8192x8192_S256x8192_1_0_0_1_n_n.contr.Idx) :
    (dot_S256x8192_S8192x8192_S256x8192_1_0_0_1_n_n.lhsIdx j q 1).val = (q ⟨0, by decide⟩).val :=
  DotDims.lhsIdx_val_of_single _ rfl j q

/-- The right operand index on its contracted axis (rows) is the contraction position. -/
theorem rhs_dot_S256x8192_S8192x8192_S256x8192_1_0_0_1_n_n_0 (j : S256x8192.Idx)
    (q : dot_S256x8192_S8192x8192_S256x8192_1_0_0_1_n_n.contr.Idx) :
    (dot_S256x8192_S8192x8192_S256x8192_1_0_0_1_n_n.rhsIdx j q 0).val = (q ⟨0, by decide⟩).val :=
  DotDims.rhsIdx_val_of_single _ rfl j q

/-- On its free axis (columns) it is the result's column. -/
theorem rhs_dot_S256x8192_S8192x8192_S256x8192_1_0_0_1_n_n_1 (j : S256x8192.Idx)
    (q : dot_S256x8192_S8192x8192_S256x8192_1_0_0_1_n_n.contr.Idx) :
    (dot_S256x8192_S8192x8192_S256x8192_1_0_0_1_n_n.rhsIdx j q 1).val = (j 1).val := rfl

/-- The product at `(b, o)`: the sum over the 8192 contracted positions of left entry `(b, k)` times right entry `(k, o)`. -/
theorem product_apply (A : FVec Ideal S256x8192 .f32) (B : FVec Ideal S8192x8192 .f32) (b : Fin 256) (o : Fin 8192) :
    Host.dotGeneral (F := Ideal) dot_S256x8192_S8192x8192_S256x8192_1_0_0_1_n_n none A B (ix2 b o)
      = ∑ k : Fin 8192, A (ix2 b k) * B (ix2 k o) := by
  show FloatOps.dotGeneral _ none _ A B (ix2 b o) = _
  rw [Ideal.dotGeneral_apply,
    ← Equiv.sum_comp (contrEquiv1 dot_S256x8192_S8192x8192_S256x8192_1_0_0_1_n_n 8192 rfl rfl).symm]
  refine Finset.sum_congr rfl fun k _ => ?_
  have hk := contrEquiv1_symm_val dot_S256x8192_S8192x8192_S256x8192_1_0_0_1_n_n 8192 rfl rfl k
  have hl : dot_S256x8192_S8192x8192_S256x8192_1_0_0_1_n_n.lhsIdx (ix2 b o)
      ((contrEquiv1 dot_S256x8192_S8192x8192_S256x8192_1_0_0_1_n_n 8192 rfl rfl).symm k) = ix2 b k := by
    funext ax; apply Fin.ext
    match ax with
    | ⟨0, _⟩ => exact lhs_dot_S256x8192_S8192x8192_S256x8192_1_0_0_1_n_n_0 _ _
    | ⟨1, _⟩ => exact (lhs_dot_S256x8192_S8192x8192_S256x8192_1_0_0_1_n_n_1 _ _).trans hk
  have hr : dot_S256x8192_S8192x8192_S256x8192_1_0_0_1_n_n.rhsIdx (ix2 b o)
      ((contrEquiv1 dot_S256x8192_S8192x8192_S256x8192_1_0_0_1_n_n 8192 rfl rfl).symm k) = ix2 k o := by
    funext ax; apply Fin.ext
    match ax with
    | ⟨0, _⟩ => exact (rhs_dot_S256x8192_S8192x8192_S256x8192_1_0_0_1_n_n_0 _ _).trans hk
    | ⟨1, _⟩ => exact rhs_dot_S256x8192_S8192x8192_S256x8192_1_0_0_1_n_n_1 _ _
  rw [hl, hr]

end Product

end RefOutSteps

open RefOutSteps

/-- The result at batch row `b`, output `o`, over any two weight arrays. -/
theorem outRef_apply (a0 : FVec Ideal S256x8192 .f32) (wh : FVec Ideal S8192x2048 .f32) (wl : FVec Ideal S8192x6144 .f32)
    (a7 : FVec Ideal S8192 .f32) (a8 : IVec S8192 32) (b : Fin 256) (o : Fin 8192) :
    outRef (F := Ideal) a0 wh wl a7 a8 (ix2 b o)
      = ((∑ k : Fin 2048, a0 (ix2 b (col a8 ⟨k.val, by have := k.isLt; omega⟩)) * wh (ix2 o k))
          + ∑ k : Fin 6144, a0 (ix2 b (col a8 ⟨2048 + k.val, by have := k.isLt; omega⟩)) * wl (ix2 o k))
        + a7 (ix1 o) := by
  unfold outRef
  dsimp only
  -- the last operation adds the bias, laid out over the result, to the product; the product's sum splits at 2048
  rw [addf_apply, rows_apply, product_apply, sum_split]
  -- the left factor of every summand: the input gathered at the wrapped indices laid out as a column
  have hx : ∀ k : Fin 8192,
      Host.gather gather_S256x8192_S8192x1_S256x8192_0_1_n_n_1_1_2561 a0
          (broadcastInDim S8192x1 ![0] bcast_S8192_S8192x1_0
            (select (cmpi .slt a8 (broadcastInDim S8192 ![] bcast_S_S8192 (constantI S_ 32 0#32)))
              (addi a8 (broadcastInDim S8192 ![] bcast_S_S8192 (constantI S_ 32 8192#32))) a8)) (ix2 b k)
        = a0 (ix2 b (col a8 k)) :=
    fun k => permuted_apply a0 a8 _ (fun k => by rw [column_apply, wrapped_apply]) b k
  -- the right factor: the transposed concatenation, a column of the high array below 2048, of the low array from there
  refine congrArg (· + a7 (ix1 o)) (congrArg₂ (· + ·) ?_ ?_)
  · refine Finset.sum_congr rfl fun k _ => ?_
    rw [hx, transpose_sq_apply, cat_high]
  · refine Finset.sum_congr rfl fun k _ => ?_
    rw [hx, transpose_sq_apply, cat_low]

end Cert.ReferenceIdeal.RefValue

end
-- ==== Proof.RefValue.lean ====
/-
  The reference's composed term is the layer's result: its result chain over ANY two weight arrays is the two
  contracted sums plus the bias entry, and its two weight chains are the dequantised weights entry by entry; put
  together, term by term under the sums, that is `Cert.PackedLinear.out` of the nine arguments.
-/
import proofs.«402445_j64330020159908_2_alg».proof.Proof.RefWeights
import proofs.«402445_j64330020159908_2_alg».proof.Proof.RefOut

noncomputable section

open scoped BigOperators

namespace Cert.ReferenceIdeal.RefValue

open Cert.ReferenceIdeal Cert.ReferenceIdeal.Gen Cert.ReferenceIdeal.RefRun Idealize.ShloMosaic Idealize.ShloMosaic.TcCoe Idealize.ShloMosaic.ValueIdx
open Cert.PackedLinear

/-- The reference's term of its arguments is the layer's result array. -/
theorem ref_value (a0 : FVec Ideal S256x8192 .f32) (a1 : IVec S8192x2048 32) (a2 : IVec S8192x6144 32)
    (a3 a4 : FVec Ideal S16x8192 .f32) (a5 a6 : FVec Ideal S48x8192 .f32) (a7 : FVec Ideal S8192 .f32) (a8 : IVec S8192 32) :
    outRef (F := Ideal) a0 (wHighRef (F := Ideal) a1 a3 a4) (wLowRef (F := Ideal) a2 a5 a6) a7 a8
      = out a0 a1 a2 a3 a4 a5 a6 a7 a8 := by
  funext i
  obtain ⟨b, o, rfl⟩ : ∃ (b : Fin 256) (o : Fin 8192), i = ix2 b o := ⟨i 0, i 1, eq_ix2 i⟩
  rw [outRef_apply]
  show _ = outAt a0 a1 a2 a3 a4 a5 a6 a7 a8 b o
  unfold outAt
  simp only [wHighRef_apply, wLowRef_apply]

end Cert.ReferenceIdeal.RefValue

end
-- ==== Proof.lean ====
/-
  A linear layer whose weight is stored as packed integer codes in two regions of columns (2048 columns of one precision,
  6144 of another), each tile of 128 columns with its own scale and zero point per output, applied to an input whose
  columns are first permuted by an integer index array:

      y[b, o] = Σ_{k < 2048} x[b, col k] · (codeH[o, k] − zH[k/128, o]) · sH[k/128, o]
              + Σ_{k < 6144} x[b, col (2048 + k)] · (codeL[o, k] − zL[k/128, o]) · sL[k/128, o]  +  bias[o].

  THE KERNEL transposes the input, gathers its rows at the indices (each wrapped once, a negative index counting from
  the end; a row whose wrapped index lies outside the axis is replaced by a fill word), and runs a grid of 32 points, each
  dequantising 256 outputs' codes tile by tile into two scratch buffers, contracting the permuted input against each and
  adding the bias. THE REFERENCE dequantises the whole weight (the tile of a column computed as an iota divided by 128,
  the tables gathered by tile), concatenates the two regions, gathers the input's COLUMNS at the wrapped indices (no
  fill: a gather clamps an index into the axis) and takes one product over all 8192 positions.

  Over the extended reals the two agree exactly where every index is an index of the axis, counting from either end
  (−8192 ≤ index < 8192), which the precondition states beside the finiteness of the float inputs: there the wrapped
  index lies in the axis, no row is replaced, both programs read the same column, the reference's one sum splits at
  position 2048 into the kernel's two (a sum of extended reals is a sum in a commutative monoid: no finiteness is used),
  and the dequantised weights are the same expression entry by entry. Outside that range the input has no such column:
  the kernel's fill word reads as −∞ and its result is −∞ or +∞ where the reference's is finite.

  The three programs run and leave their arguments unchanged: the kernel's two instances by the frame of its pipeline,
  the reference because it is a straight line of host operations. The idealization rewrote nothing, so it preserves
  the kernel trivially.
-/
import proofs.«402445_j64330020159908_2_alg».proof.Defs
import proofs.«402445_j64330020159908_2_alg».proof.Proof.Gen.Kernel
import proofs.«402445_j64330020159908_2_alg».proof.Proof.Gen.Kernel.Frame
import proofs.«402445_j64330020159908_2_alg».proof.Proof.Gen.KernelIdeal
import proofs.«402445_j64330020159908_2_alg».proof.Proof.Gen.KernelIdeal.Frame
import proofs.«402445_j64330020159908_2_alg».proof.Proof.Gen.ReferenceIdeal
import proofs.«402445_j64330020159908_2_alg».proof.Proof.Gen.Pre_finite_inputs
import proofs.«402445_j64330020159908_2_alg».proof.Proof.PreRange
import proofs.«402445_j64330020159908_2_alg».proof.Proof.KernelBody
import proofs.«402445_j64330020159908_2_alg».proof.Proof.KernelValue
import proofs.«402445_j64330020159908_2_alg».proof.Proof.RefRun
import proofs.«402445_j64330020159908_2_alg».proof.Proof.RefFold
import proofs.«402445_j64330020159908_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.StableHlo Idealize.ShloMosaic.ValueIdx
open Cert.PackedLinear

/-! ## The three programs run and keep their arguments -/

theorem frame_kernel : Cert.frame_Kernel := fun m ρ _ => Cert.Kernel.Gen.frame m ρ

theorem frame_kernelIdeal : Cert.frame_KernelIdeal := fun m ρ _ => Cert.KernelIdeal.Gen.frame m ρ

/-- The reference is a straight line of host operations, none of which writes an argument. -/
theorem frame_reference : Cert.frame_ReferenceIdeal := fun m ρ _ =>
  (θ_run Cert.ReferenceIdeal.defs _ _).mono (fun r h c =>
    ⟨(h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _),
      (h c Cert.ReferenceIdeal.main_arg5).trans (Cert.ReferenceIdeal.RefRun.arg5_eq _),
      (h c Cert.ReferenceIdeal.main_arg6).trans (Cert.ReferenceIdeal.RefRun.arg6_eq _),
      (h c Cert.ReferenceIdeal.main_arg7).trans (Cert.ReferenceIdeal.RefRun.arg7_eq _),
      (h c Cert.ReferenceIdeal.main_arg8).trans (Cert.ReferenceIdeal.RefRun.arg8_eq _)⟩)
    (Cert.ReferenceIdeal.RefRun.run_main (F := Ideal) m ρ)

/-! ## One grid point's staged output is the block function of the point's blocks -/

open Cert.KernelIdeal Cert.KernelIdeal.Gen in
theorem bodyIs (m : (ℓ : Loc Cert.KernelIdeal.nD Cert.KernelIdeal.τ Cert.KernelIdeal.sig) → Buf (Elt Ideal) ℓ) (c : Dev Cert.KernelIdeal.nD) :
    Cert.KernelIdeal.ArrayValue.BodyIs m c := fun t b o =>
  Cert.KernelIdeal.BodyValue.body_eq c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t)
    scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) b o

/-! ## The two idealized programs end with the same result -/

/-- Under the precondition every index is in range; the kernel's array ends at the layer's result of its arguments
    and the reference's at the layer's result of its own, and the arguments agree. -/
theorem algebraic : Cert.algebraic_KernelIdeal_ReferenceIdeal := by
  intro m ρ m' ρ' hpre hagree
  have hr : ∀ (c : Dev Cert.KernelIdeal.nD) (k : Fin 8192), InRange (m ((c.tc : Thread Cert.KernelIdeal.nD Cert.KernelIdeal.τ).loc Cert.KernelIdeal.main_arg8) (ix1 k)) :=
    fun c k => Cert.PreRange.range_of_pre m hpre c k
  refine ⟨fun c => Cert.KernelIdeal.ArrayValue.outArr m c, Cert.KernelIdeal.ArrayValue.run m ρ (bodyIs m) hr, ?_⟩
  refine (θ_run Cert.ReferenceIdeal.defs _ _).mono (fun r h c =>
    ⟨?_, (h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _),
      (h c Cert.ReferenceIdeal.main_arg5).trans (Cert.ReferenceIdeal.RefRun.arg5_eq _),
      (h c Cert.ReferenceIdeal.main_arg6).trans (Cert.ReferenceIdeal.RefRun.arg6_eq _),
      (h c Cert.ReferenceIdeal.main_arg7).trans (Cert.ReferenceIdeal.RefRun.arg7_eq _),
      (h c Cert.ReferenceIdeal.main_arg8).trans (Cert.ReferenceIdeal.RefRun.arg8_eq _)⟩)
    (Cert.ReferenceIdeal.RefRun.run_main (F := Ideal) m' ρ')
  refine (h c Cert.ReferenceIdeal.main_v54).trans ?_
  rw [Cert.ReferenceIdeal.RefRun.out_eq, Cert.ReferenceIdeal.RefValue.ref_value]
  obtain ⟨e0, e1, e2, e3, e4, e5, e6, e7, e8⟩ := hagree c
  show out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
    = out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
  rw [e0, e1, e2, e3, e4, e5, e6, e7, e8]

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
